-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part1 {F : FTy → Type} [FloatOps F] (main_arg1 : IVec S2x800000 32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : IVec S1x800000 32 := (extractStridedSlice S1x800000 ![0, 0] · slices_S2x800000_S1x800000_0_0) main_arg1
  let main_v25 : IVec S800000 32 := shapeCast S800000 main_v24 shapeCasts_S1x800000_S800000
  let main_c_8 : IVec S_ 32 := constantI S_ 32 0#32
  let main_v26 : IVec S800000 32 := broadcastInDim S800000 ![] bcast_S_S800000 main_c_8
  let main_v27 : IVec S800000 1 := cmpi .sge main_v25 main_v26
  let main_v28 : IVec S1x800000 32 := (extractStridedSlice S1x800000 ![0, 0] · slices_S2x800000_S1x800000_0_0) main_arg1
  let main_v29 : IVec S800000 32 := shapeCast S800000 main_v28 shapeCasts_S1x800000_S800000
  let main_c_9 : IVec S_ 32 := constantI S_ 32 50000#32
  let main_v30 : IVec S800000 32 := broadcastInDim S800000 ![] bcast_S_S800000 main_c_9
  let main_v31 : IVec S800000 1 := cmpi .slt main_v29 main_v30
  let main_v32 : IVec S800000 1 := andi main_v27 main_v31
  let main_c_10 : IVec S_ 1 := constantI S_ 1 1#1
  let main_v33 : IVec S_ 1 := (fun x v => Host.reduce IntOp.andi x v reducesTo_S800000_S_d0 h_S_) main_v32 main_c_10
  let main_v34 : IVec S_ 1 := andi main_v23 main_v33
  main_v34

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg6 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50176x128 : Shape := ⟨2, ![50176, 128]⟩
abbrev S6272x128 : Shape := ⟨2, ![6272, 128]⟩
abbrev S850000x128 : Shape := ⟨2, ![850000, 128]⟩
abbrev S1x128 : Shape := ⟨2, ![1, 128]⟩
abbrev S64 : Shape := ⟨1, ![64]⟩
abbrev S50000x1 : Shape := ⟨2, ![50000, 1]⟩
abbrev S1x64 : Shape := ⟨2, ![1, 64]⟩
abbrev S50000x64 : Shape := ⟨2, ![50000, 64]⟩
abbrev S50176x64 : Shape := ⟨2, ![50176, 64]⟩
abbrev S64x128 : Shape := ⟨2, ![64, 128]⟩
abbrev S6272x64 : Shape := ⟨2, ![6272, 64]⟩
abbrev S64x1 : Shape := ⟨2, ![64, 1]⟩

abbrev nBuf : Space → Nat
  | .hbm => 115
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S_, .i32⟩
  | .hbm, ⟨48, _⟩ => ⟨S_, .f32⟩
  | .hbm, ⟨49, _⟩ => ⟨S50176x128, .f32⟩
  | .hbm, ⟨50, _⟩ => ⟨S50176x128, .bf16⟩
  | .hbm, ⟨51, _⟩ => ⟨S128x128, .bf16⟩
  | .hbm, ⟨52, _⟩ => ⟨S50176x128, .f32⟩
  | .hbm, ⟨53, _⟩ => ⟨S_, .i32⟩
  | .hbm, ⟨54, _⟩ => ⟨S850000, .i32⟩
  | .hbm, ⟨55, _⟩ => ⟨S850000, .i1⟩
  | .hbm, ⟨56, _⟩ => ⟨S_, .i32⟩
  | .hbm, ⟨57, _⟩ => ⟨S850000, .i32⟩
  | .hbm, ⟨58, _⟩ => ⟨S850000, .i32⟩
  | .hbm, ⟨59, _⟩ => ⟨S850000, .i32⟩
  | .hbm, ⟨60, _⟩ => ⟨S850000x1, .i32⟩
  | .hbm, ⟨61, _⟩ => ⟨S850000x128, .f32⟩
  | .hbm, ⟨62, _⟩ => ⟨S850000x1, .f32⟩
  | .hbm, ⟨63, _⟩ => ⟨S850000x128, .f32⟩
  | .hbm, ⟨64, _⟩ => ⟨S850000x128, .f32⟩
  | .hbm, ⟨65, _⟩ => ⟨S_, .f32⟩
  | .hbm, ⟨66, _⟩ => ⟨S50000x128, .f32⟩
  | .hbm, ⟨67, _⟩ => ⟨S850000x1, .i32⟩
  | .hbm, ⟨68, _⟩ => ⟨S50000x128, .f32⟩
  | .hbm, ⟨69, _⟩ => ⟨S_, .i32⟩
  | .hbm, ⟨70, _⟩ => ⟨S_, .f32⟩
  | .hbm, ⟨71, _⟩ => ⟨S50176x128, .f32⟩
  | .hbm, ⟨72, _⟩ => ⟨S128x128, .bf16⟩
  | .hbm, ⟨73, _⟩ => ⟨S1x128, .f32⟩
  | .hbm, ⟨74, _⟩ => ⟨S50176x128, .f32⟩
  | .hbm, ⟨75, _⟩ => ⟨S_, .i32⟩
  | .hbm, ⟨76, _⟩ => ⟨S850000, .i32⟩
  | .hbm, ⟨77, _⟩ => ⟨S850000, .i1⟩
  | .hbm, ⟨78, _⟩ => ⟨S_, .i32⟩
  | .hbm, ⟨79, _⟩ => ⟨S850000, .i32⟩
  | .hbm, ⟨80, _⟩ => ⟨S850000, .i32⟩
  | .hbm, ⟨81, _⟩ => ⟨S850000, .i32⟩
  | .hbm, ⟨82, _⟩ => ⟨S850000x1, .i32⟩
  | .hbm, ⟨83, _⟩ => ⟨S850000x128, .f32⟩
  | .hbm, ⟨84, _⟩ => ⟨S850000x1, .f32⟩
  | .hbm, ⟨85, _⟩ => ⟨S850000x128, .f32⟩
  | .hbm, ⟨86, _⟩ => ⟨S850000x128, .f32⟩
  | .hbm, ⟨87, _⟩ => ⟨S_, .f32⟩
  | .hbm, ⟨88, _⟩ => ⟨S50000x128, .f32⟩
  | .hbm, ⟨89, _⟩ => ⟨S850000x1, .i32⟩
  | .hbm, ⟨90, _⟩ => ⟨S50000x128, .f32⟩
  | .hbm, ⟨91, _⟩ => ⟨S_, .i32⟩
  | .hbm, ⟨92, _⟩ => ⟨S_, .f32⟩
  | .hbm, ⟨93, _⟩ => ⟨S50176x128, .f32⟩
  | .hbm, ⟨94, _⟩ => ⟨S64, .i32⟩
  | .hbm, ⟨95, _⟩ => ⟨S50000x1, .i32⟩
  | .hbm, ⟨96, _⟩ => ⟨S1x64, .i32⟩
  | .hbm, ⟨97, _⟩ => ⟨S50000x64, .i32⟩
  | .hbm, ⟨98, _⟩ => ⟨S50000x64, .i32⟩
  | .hbm, ⟨99, _⟩ => ⟨S50000x64, .i1⟩
  | .hbm, ⟨100, _⟩ => ⟨S50000x64, .f32⟩
  | .hbm, ⟨101, _⟩ => ⟨S_, .f32⟩
  | .hbm, ⟨102, _⟩ => ⟨S64, .f32⟩
  | .hbm, ⟨103, _⟩ => ⟨S_, .f32⟩
  | .hbm, ⟨104, _⟩ => ⟨S64, .f32⟩
  | .hbm, ⟨105, _⟩ => ⟨S64, .f32⟩
  | .hbm, ⟨106, _⟩ => ⟨S_, .i32⟩
  | .hbm, ⟨107, _⟩ => ⟨S_, .f32⟩
  | .hbm, ⟨108, _⟩ => ⟨S50176x64, .f32⟩
  | .hbm, ⟨109, _⟩ => ⟨S50176x64, .bf16⟩
  | .hbm, ⟨110, _⟩ => ⟨S1x128, .f32⟩
  | .hbm, ⟨111, _⟩ => ⟨S64x128, .f32⟩
  | .hbm, ⟨112, _⟩ => ⟨S64x1, .f32⟩
  | .hbm, ⟨113, _⟩ => ⟨S64x128, .f32⟩
  | .hbm, ⟨114, _⟩ => ⟨S64x128, .f32⟩
  | .local _ .vmem, ⟨0, _⟩ => ⟨S6272x128, .bf16⟩
  | .local _ .vmem, ⟨1, _⟩ => ⟨S6272x128, .bf16⟩
  | .local _ .vmem, ⟨2, _⟩ => ⟨S128x128, .bf16⟩
  | .local _ .vmem, ⟨3, _⟩ => ⟨S6272x128, .f32⟩
  | .local _ .vmem, ⟨4, _⟩ => ⟨S6272x128, .f32⟩
  | .local _ .vmem, ⟨5, _⟩ => ⟨S6272x128, .f32⟩
  | .local _ .vmem, ⟨6, _⟩ => ⟨S6272x128, .f32⟩
  | .local _ .vmem, ⟨7, _⟩ => ⟨S1x128, .f32⟩
  | .local _ .vmem, ⟨8, _⟩ => ⟨S128x128, .bf16⟩
  | .local _ .vmem, ⟨9, _⟩ => ⟨S6272x128, .f32⟩
  | .local _ .vmem, ⟨10, _⟩ => ⟨S6272x128, .f32⟩
  | .local _ .vmem, ⟨11, _⟩ => ⟨S6272x128, .f32⟩
  | .local _ .vmem, ⟨12, _⟩ => ⟨S6272x128, .f32⟩
  | .local _ .vmem, ⟨13, _⟩ => ⟨S1x128, .f32⟩
  | .local _ .vmem, ⟨14, _⟩ => ⟨S6272x64, .bf16⟩
  | .local _ .vmem, ⟨15, _⟩ => ⟨S6272x64, .bf16⟩
  | .local _ .vmem, ⟨16, _⟩ => ⟨S64x128, .f32⟩
  | .local _ .vmem, ⟨17, _⟩ => ⟨S64x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_call1_v0 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_10 : Ref sig .tc := ⟨.hbm, 69, rfl⟩
abbrev main_call2_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_11 : Ref sig .tc := ⟨.hbm, 75, rfl⟩
abbrev main_v51 : Ref sig .tc := ⟨.hbm, 76, rfl⟩
abbrev main_v52 : Ref sig .tc := ⟨.hbm, 77, rfl⟩
abbrev main_c_12 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_13 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_14 : Ref sig .tc := ⟨.hbm, 91, rfl⟩
abbrev main_call3_v0 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_15 : Ref sig .tc := ⟨.hbm, 101, rfl⟩
abbrev main_v72 : Ref sig .tc := ⟨.hbm, 102, rfl⟩
abbrev main_cst_16 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_call4_v0 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc2_sem3_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6272x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S6272x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6272x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S6272x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def k2_cond2 (i : grid2.Coords) : BitVec 1 :=
  let arg0 : BitVec 32 := BitVec.ofNat 32 (i 0).val
  let c7_i32 : BitVec 32 := 7#32
  let v18 : BitVec 1 := Scalar.cmpi .eq arg0 c7_i32
  let v19 : BitVec 32 := Scalar.extui v18
  let c0_i32_10 : BitVec 32 := 0#32
  let v20 : BitVec 1 := Scalar.cmpi .ne v19 c0_i32_10
  v20

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S6272x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S6272x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  pads_S50000x128_S50176x128_01760_000 : S50000x128.Pads (![0, 0] : Fin 2 → Nat) ![176, 0] ![0, 0] S50176x128
  h_S_ : 0 < S_.numel
  bitsLt_bf16_f32 : FTy.bits .bf16 < FTy.bits .f32
  inb_S6272x128_S6272x128_0_0 : ∀ a, (![0, 0] : Fin 2 → Nat) a + S6272x128.size a ≤ S6272x128.size a
  h_S6272x128 : 0 < S6272x128.numel
  shapeCasts_S6272x128_S6272x128 : S6272x128.ShapeCasts S6272x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6272x128 : S1x128.Broadcasts S6272x128
  bcast_S50000_S50000x1_0 : S50000.BroadcastsInDim S50000x1 (![0] : Fin 1 → Fin S50000x1.rank)
  bcast_S64_S1x64_1 : S64.BroadcastsInDim S1x64 (![1] : Fin 1 → Fin S1x64.rank)
  bcast_S50000x1_S50000x64_0_1 : S50000x1.BroadcastsInDim S50000x64 (![0, 1] : Fin 2 → Fin S50000x64.rank)
  bcast_S1x64_S50000x64_0_1 : S1x64.BroadcastsInDim S50000x64 (![0, 1] : Fin 2 → Fin S50000x64.rank)
  reducesTo_S50000x64_S64_d0 : S50000x64.ReducesTo [0] S64
  bcast_S_S64 : S_.BroadcastsInDim S64 (![] : Fin 0 → Fin S64.rank)
  pads_S50000x64_S50176x64_01760_000 : S50000x64.Pads (![0, 0] : Fin 2 → Nat) ![176, 0] ![0, 0] S50176x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S6272x64_S6272x64_0_0 : ∀ a, (![0, 0] : Fin 2 → Nat) a + S6272x64.size a ≤ S6272x64.size a
  h_S6272x64 : 0 < S6272x64.numel
  shapeCasts_S6272x64_S6272x64 : S6272x64.ShapeCasts S6272x64
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S6272x128_S128x128_S6272x128_1_0_0_1_n_n_wf : DotDims.WF S6272x128 S128x128 S6272x128 [1] [0] [0] [1] [] []
  gather_S50176x128_S850000x1_S850000x128_1_0_n_n_0_1_1128_wf : GatherDims.WF S50176x128 S850000x1 S850000x128 [1] [0] [] [0] [] 1 ![1, 128]
  scatter_S50000x128_S850000x1_S850000x128_1_0_0_1_wf : ScatterDims.WF S50000x128 S850000x1 S850000x128 [1] [0] [0] 1
  dot_S6272x64_S6272x128_S64x128_0_0_1_1_n_n_wf : DotDims.WF S6272x64 S6272x128 S64x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6272x128.size a ≤ S50176x128.size a
  hwx0_0 : ∀ i : grid0.Coords, EltTy.bits .bf16 = 32 ∨ (Rect.block (s := S50176x128) S6272x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6272x128.size a ≤ S50176x128.size a
  hwx0_2 : ∀ i : grid0.Coords, EltTy.bits .f32 = 32 ∨ (Rect.block (s := S50176x128) S6272x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6272x128.size a ≤ S50176x128.size a
  hwx1_0 : ∀ i : grid1.Coords, EltTy.bits .f32 = 32 ∨ (Rect.block (s := S50176x128) S6272x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S6272x128.size a ≤ S50176x128.size a
  hwx1_3 : ∀ i : grid1.Coords, EltTy.bits .f32 = 32 ∨ (Rect.block (s := S50176x128) S6272x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6272x128.size a ≤ S50176x128.size a
  hwx2_0 : ∀ i : grid2.Coords, EltTy.bits .f32 = 32 ∨ (Rect.block (s := S50176x128) S6272x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S6272x64.size a ≤ S50176x64.size a
  hwx2_2 : ∀ i : grid2.Coords, EltTy.bits .bf16 = 32 ∨ (Rect.block (s := S50176x64) S6272x64.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x128.size a ≤ S64x128.size a
  hwx2_3 : ∀ i : grid2.Coords, EltTy.bits .f32 = 32 ∨ (Rect.block (s := S64x128) S64x128.size (cc2_transform_3 i) (hinb2_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S6272x128_S128x128_S6272x128_1_0_0_1_n_n : DotDims S6272x128 S128x128 S6272x128 where
  lhsContracting := [1]
  rhsContracting := [0]
  lhsNonContracting := [0]
  rhsNonContracting := [1]
  lhsBatch := []
  rhsBatch := []
  wf := dot_S6272x128_S128x128_S6272x128_1_0_0_1_n_n_wf
def gather_S50176x128_S850000x1_S850000x128_1_0_n_n_0_1_1128 : GatherDims S50176x128 S850000x1 S850000x128 where
  offsetDims := [1]
  collapsedSliceDims := [0]
  operandBatchingDims := []
  startIndicesBatchingDims := []
  startIndexMap := [0]
  indexVectorDim := 1
  sliceSizes := ![1, 128]
  wf := gather_S50176x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S6272x64_S6272x128_S64x128_0_0_1_1_n_n : DotDims S6272x64 S6272x128 S64x128 where
  lhsContracting := [0]
  rhsContracting := [0]
  lhsNonContracting := [1]
  rhsNonContracting := [1]
  lhsBatch := []
  rhsBatch := []
  wf := dot_S6272x64_S6272x128_S64x128_0_0_1_1_n_n_wf

abbrev win0_0 : Pipeline.Window sig grid0 :=
  Pipeline.Window.ofSpec (Memref.whole main_v31) S6272x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S6272x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S6272x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S6272x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v64) S6272x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v77) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v76) S6272x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v78) S64x128.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S64 : Shape := ⟨1, ![64]⟩
abbrev S50000x1 : Shape := ⟨2, ![50000, 1]⟩
abbrev S64x128 : Shape := ⟨2, ![64, 128]⟩
abbrev S64x1 : Shape := ⟨2, ![64, 1]⟩

abbrev nBuf : Space → Nat
  | .hbm => 139
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S50000, .i32⟩
  | 8 => ⟨S1x800000, .i32⟩
  | 9 => ⟨S800000, .i32⟩
  | 10 => ⟨S850000, .i32⟩
  | 11 => ⟨S1x800000, .i32⟩
  | 12 => ⟨S800000, .i32⟩
  | 13 => ⟨S850000, .i32⟩
  | 14 => ⟨S50000x128, .f32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S850000, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000x128, .f32⟩
  | 57 => ⟨S850000x1, .f32⟩
  | 58 => ⟨S850000x128, .f32⟩
  | 59 => ⟨S850000x128, .f32⟩
  | 60 => ⟨S_, .f32⟩
  | 61 => ⟨S50000x128, .f32⟩
  | 62 => ⟨S850000x1, .i32⟩
  | 63 => ⟨S50000x128, .f32⟩
  | 64 => ⟨S1x128, .f32⟩
  | 65 => ⟨S50000x128, .f32⟩
  | 66 => ⟨S50000x128, .f32⟩
  | 67 => ⟨S_, .f32⟩
  | 68 => ⟨S50000x128, .f32⟩
  | 69 => ⟨S50000x128, .f32⟩
  | 70 => ⟨S50000x128, .f32⟩
  | 71 => ⟨S_, .f32⟩
  | 72 => ⟨S850000, .f32⟩
  | 73 => ⟨S_, .f32⟩
  | 74 => ⟨S50000, .f32⟩
  | 75 => ⟨S850000x1, .i32⟩
  | 76 => ⟨S50000, .f32⟩
  | 77 => ⟨S_, .f32⟩
  | 78 => ⟨S50000, .f32⟩
  | 79 => ⟨S50000, .i1⟩
  | 80 => ⟨S50000, .f32⟩
  | 81 => ⟨S_, .f32⟩
  | 82 => ⟨S_, .f32⟩
  | 83 => ⟨S50000, .f32⟩
  | 84 => ⟨S50000, .f32⟩
  | 85 => ⟨S_, .i32⟩
  | 86 => ⟨S850000, .i32⟩
  | 87 => ⟨S850000, .i1⟩
  | 88 => ⟨S_, .i32⟩
  | 89 => ⟨S850000, .i32⟩
  | 90 => ⟨S850000, .i32⟩
  | 91 => ⟨S850000, .i32⟩
  | 92 => ⟨S850000x1, .i32⟩
  | 93 => ⟨S850000, .f32⟩
  | 94 => ⟨S_, .i32⟩
  | 95 => ⟨S850000, .i32⟩
  | 96 => ⟨S850000, .i1⟩
  | 97 => ⟨S_, .i32⟩
  | 98 => ⟨S850000, .i32⟩
  | 99 => ⟨S850000, .i32⟩
  | 100 => ⟨S850000, .i32⟩
  | 101 => ⟨S850000x1, .i32⟩
  | 102 => ⟨S850000, .f32⟩
  | 103 => ⟨S850000, .f32⟩
  | 104 => ⟨S_, .i32⟩
  | 105 => ⟨S850000, .i32⟩
  | 106 => ⟨S850000, .i1⟩
  | 107 => ⟨S_, .i32⟩
  | 108 => ⟨S850000, .i32⟩
  | 109 => ⟨S850000, .i32⟩
  | 110 => ⟨S850000, .i32⟩
  | 111 => ⟨S850000x1, .i32⟩
  | 112 => ⟨S850000x128, .f32⟩
  | 113 => ⟨S850000x1, .f32⟩
  | 114 => ⟨S850000x128, .f32⟩
  | 115 => ⟨S850000x128, .f32⟩
  | 116 => ⟨S_, .f32⟩
  | 117 => ⟨S50000x128, .f32⟩
  | 118 => ⟨S850000x1, .i32⟩
  | 119 => ⟨S50000x128, .f32⟩
  | 120 => ⟨S1x128, .f32⟩
  | 121 => ⟨S50000x128, .f32⟩
  | 122 => ⟨S50000x128, .f32⟩
  | 123 => ⟨S_, .f32⟩
  | 124 => ⟨S50000, .f32⟩
  | 125 => ⟨S_, .f32⟩
  | 126 => ⟨S64, .f32⟩
  | 127 => ⟨S50000x1, .i32⟩
  | _ => ⟨S50000x128, .f32⟩

abbrev hbmTy0_1 (i : Nat) : BufTy := match i % 128 with
  | 0 => ⟨S64, .f32⟩
  | 1 => ⟨S_, .f32⟩
  | 2 => ⟨S64x128, .f32⟩
  | 3 => ⟨S50000x1, .i32⟩
  | 4 => ⟨S64x128, .f32⟩
  | 5 => ⟨S_, .f32⟩
  | 6 => ⟨S64, .f32⟩
  | 7 => ⟨S64, .f32⟩
  | 8 => ⟨S64x1, .f32⟩
  | 9 => ⟨S64x128, .f32⟩
  | 10 => ⟨S64x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_cst_9 : Ref sig .tc := ⟨.hbm, 71, rfl⟩
abbrev main_v49 : Ref sig .tc := ⟨.hbm, 72, rfl⟩
abbrev main_cst_10 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_11 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_12 : Ref sig .tc := ⟨.hbm, 81, rfl⟩
abbrev main_call2_v0 : Ref sig .tc := ⟨.hbm, 82, rfl⟩
abbrev main_call2_v1 : Ref sig .tc := ⟨.hbm, 83, rfl⟩
abbrev main_v56 : Ref sig .tc := ⟨.hbm, 84, rfl⟩
abbrev main_c_13 : Ref sig .tc := ⟨.hbm, 85, rfl⟩
abbrev main_v57 : Ref sig .tc := ⟨.hbm, 86, rfl⟩
abbrev main_v58 : Ref sig .tc := ⟨.hbm, 87, rfl⟩
abbrev main_c_14 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_c_15 : Ref sig .tc := ⟨.hbm, 94, rfl⟩
abbrev main_v64 : Ref sig .tc := ⟨.hbm, 95, rfl⟩
abbrev main_v65 : Ref sig .tc := ⟨.hbm, 96, rfl⟩
abbrev main_c_16 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_c_17 : Ref sig .tc := ⟨.hbm, 104, rfl⟩
abbrev main_v72 : Ref sig .tc := ⟨.hbm, 105, rfl⟩
abbrev main_v73 : Ref sig .tc := ⟨.hbm, 106, rfl⟩
abbrev main_c_18 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_19 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_20 : Ref sig .tc := ⟨.hbm, 123, rfl⟩
abbrev main_v88 : Ref sig .tc := ⟨.hbm, 124, rfl⟩
abbrev main_cst_21 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_22 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_cst_23 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64 : S_.BroadcastsInDim S64 (![] : Fin 0 → Fin S64.rank)
  bcast_S50000_S50000x1_0 : S50000.BroadcastsInDim S50000x1 (![0] : Fin 1 → Fin S50000x1.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S64_S50000x1_S50000_n_0_0_1_wf : ScatterDims.WF S64 S50000x1 S50000 [] [0] [0] 1
  scatter_S64x128_S50000x1_S50000x128_1_0_0_1_wf : ScatterDims.WF S64x128 S50000x1 S50000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf

class Facts : Prop extends Facts₀ where

variable [Facts]
-- ==== Proof.K.Reg0.lean ====
/-
  Region 0 of the program: the row-block matrix product. At each of the 8 grid points the body reads a block of
  6272 rows of the (padded) left operand and the whole 128 x 128 right operand, and stores their product over the
  output block. Stated here: what each window's staging buffer holds after the body at a point, as a function of
  the blocks the point reads; the pipeline's proof data over the contents the region is entered with; and the
  body's obligation at every point.
-/
import proofs.«416386_j58171037057469_1_alg».proof.Proof.Gen.Kernel.Launch
import proofs.«416386_j58171037057469_1_alg».proof.Proof.Gen.Kernel.Skeleton
import proofs.«416386_j58171037057469_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rA0 : Rect S6272x128 := Rect.unit (s := S6272x128) ![0, 0] S6272x128.size inb_S6272x128_S6272x128_0_0
abbrev rW0 : Rect S128x128 := Rect.unit (s := S128x128) ![0, 0] S128x128.size inb_S128x128_S128x128_0_0

/-- The output block after the body: the one store, over the whole block, of the product of the two blocks read. -/
def out0_2 (x0 : Vec F S6272x128 .bf16) (x1 : Vec F S128x128 .bf16) : Vec F S6272x128 .f32 :=
  View.canon [⟨rA0, k0_pay1 (View.ld x0 rA0) (View.ld x1 rW0)⟩]

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## Each input's staging buffer at a point -/

/-- Input window 0's current staging buffer holds its block at every point, for any proof data over the entry
    arrays whose body leaves the block in place: where the window is fetched the fetch puts the block there, and
    where it is not the block index has not moved since the last fetch. The window is uncut and never idle. -/
theorem held0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the whole right operand, block index constant over the grid, fetched at the first point only)
    holds its block at every point, by the same law: past the first point the index has not moved. -/
theorem held0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem held0_0 (c : Dev nD) (t : Fin cfg0.N) (d) : (dat0 V c).before 0 t d = iblk0 V c 0 t :=
  held0_0_of V (dat0 V c) (A_eq0 V c 0) (after0_0 V c) t d
theorem held0_1 (c : Dev nD) (t : Fin cfg0.N) (d) : (dat0 V c).before 1 t d = iblk0 V c 1 t :=
  held0_1_of V (dat0 V c) (A_eq0 V c 1) (after0_1 V c) t d

/-! ## The one store covers the output block -/

/-- The store's rectangle is the whole block: every index of the block lies in it. -/
theorem whole0_2 (p0 : Vec F S6272x128 .f32) (y : S6272x128.Idx) :
    ∃ pc ∈ ([⟨rA0, p0⟩] : List (View.Piece (Elt F) S6272x128 .f32)), y ∈ pc.1.set :=
  View.cover_of_tiled [⟨rA0, p0⟩] S6272x128.size (by rfl) y

/-! ## The body's triple -/

set_option maxHeartbeats 1000000 in
/-- The kernel function on whole staging memrefs, the two inputs' at contents `x0`, `x1` and the output's at
    anything, runs to the continuation with the inputs' as they were and the output's at `out0_2 x0 x1`: two
    loads of whole blocks, a load of the output block whose value is not used, and one store over the whole
    output block of the product. The grid coordinate is not read. -/
theorem kernel_triple0 (c : Dev nD) (E : Set ℕ) (i : grid0.Coords)
    (arg1 : Memref sig .tc .vmem S6272x128 .bf16) (harg1 : arg1.IsWhole)
    (arg2 : Memref sig .tc .vmem S128x128 .bf16) (harg2 : arg2.IsWhole)
    (arg3 : Memref sig .tc .vmem S6272x128 .f32) (harg3 : arg3.IsWhole)
    (x0 : Vec F S6272x128 .bf16) (x1 : Vec F S128x128 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (whole0_2 _)

/-! ## The body obligation, at a generic point -/

/-- What the body is called with at point `t`: the invariant, what the core owes, and each window's current
    staging memref at what the pipeline hands it, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the kernel's triple applies; the invariant
    and what the core owes pass through unread. -/
theorem body_triple0 (c : Dev nD) (t : Fin cfg0.N) :
    pre0 V c t ⊢ wp frame (wpE (defs₀ (F := F)) Variants.none c none) Set.univ (bodyAt0 t) (fun _ => post0 V c t) := by
  unfold pre0 post0 bodyAt0
  simp only [held0_0, held0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (kernel_triple0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation at every point. -/
theorem body_obligation0 (c : Dev nD) : BodyObligation (dat0 (F := F) V c) (defs₀ (F := F)) Variants.none () Set.univ := fun t => by
  rw [bigSep_W0, bigSep_W0]
  exact body_triple0 V c t

end Cert.Kernel.Hand

end
-- ==== Proof.K.Reg1.lean ====
/-
  Region 1 of the program: bias, rectifier and matrix product, fused. At each of the 8 grid points the body reads a
  block of 6272 rows of the (padded) aggregated features, the 1 x 128 bias row and the whole 128 x 128 weight, and
  stores max(block + bias, 0) times the weight over the output block. Stated here: what each window's staging
  buffer holds after the body at a point, as a function of the blocks the point reads; the pipeline's proof data over
  the contents the region is entered with; and the body's obligation at every point.
-/
import proofs.«416386_j58171037057469_1_alg».proof.Proof.Gen.Kernel.Launch
import proofs.«416386_j58171037057469_1_alg».proof.Proof.Gen.Kernel.Skeleton
import proofs.«416386_j58171037057469_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rA1 : Rect S6272x128 := Rect.unit (s := S6272x128) ![0, 0] S6272x128.size inb_S6272x128_S6272x128_0_0
abbrev rB1 : Rect S1x128 := Rect.unit (s := S1x128) ![0, 0] S1x128.size inb_S1x128_S1x128_0_0
abbrev rW1 : Rect S128x128 := Rect.unit (s := S128x128) ![0, 0] S128x128.size inb_S128x128_S128x128_0_0

/-- The output block after the body: the one store, over the whole block. -/
def out1_3 (x0 : Vec F S6272x128 .f32) (x1 : Vec F S1x128 .f32) (x2 : Vec F S128x128 .bf16) : Vec F S6272x128 .f32 :=
  View.canon [⟨rA1, k1_pay1 (View.ld x0 rA1) (View.ld x1 rB1) (View.ld x2 rW1)⟩]

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-! ## Each input's staging buffer at a point -/

/-- Input window 0's current staging buffer holds its block at every point, for any proof data over the entry
    arrays whose body leaves the block in place: where the window is fetched the fetch puts the block there, and
    where it is not the block index has not moved since the last fetch. The window is uncut and never idle. -/
theorem held1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the bias row, block index constant over the grid, fetched at the first point only) holds its
    block at every point, by the same law: past the first point the index has not moved. -/
theorem held1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the whole weight, block index constant over the grid, fetched at the first point only) holds
    its block at every point, by the same law. -/
theorem held1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem held1_0 (c : Dev nD) (t : Fin cfg1.N) (d) : (dat1 V c).before 0 t d = iblk1 V c 0 t :=
  held1_0_of V (dat1 V c) (A_eq1 V c 0) (after1_0 V c) t d
theorem held1_1 (c : Dev nD) (t : Fin cfg1.N) (d) : (dat1 V c).before 1 t d = iblk1 V c 1 t :=
  held1_1_of V (dat1 V c) (A_eq1 V c 1) (after1_1 V c) t d
theorem held1_2 (c : Dev nD) (t : Fin cfg1.N) (d) : (dat1 V c).before 2 t d = iblk1 V c 2 t :=
  held1_2_of V (dat1 V c) (A_eq1 V c 2) (after1_2 V c) t d

/-! ## The one store covers the output block -/

/-- The store's rectangle is the whole block: every index of the block lies in it. -/
theorem whole1_3 (p0 : Vec F S6272x128 .f32) (y : S6272x128.Idx) :
    ∃ pc ∈ ([⟨rA1, p0⟩] : List (View.Piece (Elt F) S6272x128 .f32)), y ∈ pc.1.set :=
  View.cover_of_tiled [⟨rA1, p0⟩] S6272x128.size (by rfl) y

/-! ## The body's triple -/

set_option maxHeartbeats 1000000 in
/-- The kernel function on whole staging memrefs, the three inputs' at contents `x0`, `x1`, `x2` and the
    output's at anything, runs to the continuation with the inputs' as they were and the output's at
    `out1_3 x0 x1 x2`: three loads of whole blocks, a load of the output block whose value is not used, and one
    store over the whole output block. The grid coordinate is not read. -/
theorem kernel_triple1 (c : Dev nD) (E : Set ℕ) (i : grid1.Coords)
    (arg1 : Memref sig .tc .vmem S6272x128 .f32) (harg1 : arg1.IsWhole)
    (arg2 : Memref sig .tc .vmem S1x128 .f32) (harg2 : arg2.IsWhole)
    (arg3 : Memref sig .tc .vmem S128x128 .bf16) (harg3 : arg3.IsWhole)
    (arg4 : Memref sig .tc .vmem S6272x128 .f32) (harg4 : arg4.IsWhole)
    (x0 : Vec F S6272x128 .f32) (x1 : Vec F S1x128 .f32) (x2 : Vec F S128x128 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__bias_relu_matmul_kernel i arg1 harg1 arg2 harg2 arg3 harg3 arg4 harg4) K := by
  simp only [cc1__bias_relu_matmul_kernel_eq_skeleton]; unfold cc1__bias_relu_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (whole1_3 _)

/-! ## The body obligation, at a generic point -/

/-- What the body is called with at point `t`: the invariant, what the core owes, and each window's current
    staging memref at what the pipeline hands it, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the kernel's triple applies; the invariant
    and what the core owes pass through unread. -/
theorem body_triple1 (c : Dev nD) (t : Fin cfg1.N) :
    pre1 V c t ⊢ wp frame (wpE (defs₀ (F := F)) Variants.none c none) Set.univ (bodyAt1 t) (fun _ => post1 V c t) := by
  unfold pre1 post1 bodyAt1
  simp only [held1_0, held1_1, held1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (kernel_triple1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation at every point. -/
theorem body_obligation1 (c : Dev nD) : BodyObligation (dat1 (F := F) V c) (defs₀ (F := F)) Variants.none () Set.univ := fun t => by
  rw [bigSep_W1, bigSep_W1]
  exact body_triple1 V c t

end Cert.Kernel.Hand

end
-- ==== Proof.K.Reg2.lean ====
/-
  Region 2 of the program: the pooled sums, accumulated over the 8 grid points in a scratch buffer that the body
  carries from point to point. At point 0 the body first clears the scratch; at every point it adds, to the
  scratch, the product (contracted over the 6272 rows of the block) of the one-hot block with (feature block + bias);
  at the last point it copies the scratch into the output block, which is written back once, there.
  Stated here: the scratch's contents after each point as a recursion over the points (`acc2`), the pipeline's proof
  data (whose invariant holds the scratch at `acc2` of the point before), and the body's obligation at every point.
-/
import proofs.«416386_j58171037057469_1_alg».proof.Proof.Gen.Kernel.Launch
import proofs.«416386_j58171037057469_1_alg».proof.Proof.Gen.Kernel.Skeleton
import proofs.«416386_j58171037057469_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rA2 : Rect S6272x128 := Rect.unit (s := S6272x128) ![0, 0] S6272x128.size inb_S6272x128_S6272x128_0_0
abbrev rB2 : Rect S1x128 := Rect.unit (s := S1x128) ![0, 0] S1x128.size inb_S1x128_S1x128_0_0
abbrev rH2 : Rect S6272x64 := Rect.unit (s := S6272x64) ![0, 0] S6272x64.size inb_S6272x64_S6272x64_0_0
abbrev rO2 : Rect S64x128 := Rect.unit (s := S64x128) ![0, 0] S64x128.size inb_S64x128_S64x128_0_0

/-- The cleared scratch (point 0, before the accumulation). -/
def zero2 : Vec F S64x128 .f32 := View.canon [⟨rO2, k2_pay1 (F := F)⟩]

/-- One point's accumulation: the scratch `acc` plus this point's contribution. -/
def step2 (x0 : Vec F S6272x128 .f32) (x1 : Vec F S1x128 .f32) (x2 : Vec F S6272x64 .bf16) (acc : Vec F S64x128 .f32) :
    Vec F S64x128 .f32 :=
  View.canon [⟨rO2, k2_pay2 (View.ld x0 rA2) (View.ld x1 rB2) (View.ld x2 rH2) (View.ld acc rO2)⟩]

/-- The scratch's contents after point `n`. -/
def acc2 (c : Dev nD) : (n : ℕ) → n < cfg2.N → Vec F S64x128 .f32
  | 0, h => step2 (iblk2 V c 0 ⟨0, h⟩) (iblk2 V c 1 ⟨0, h⟩) (iblk2 V c 2 ⟨0, h⟩) zero2
  | n + 1, h => step2 (iblk2 V c 0 ⟨n + 1, h⟩) (iblk2 V c 1 ⟨n + 1, h⟩) (iblk2 V c 2 ⟨n + 1, h⟩) (acc2 c n (by omega))

/-! ## The recursion, point by point -/

theorem acc2_zero (c : Dev nD) (h : 0 < cfg2.N) :
    acc2 V c 0 h = step2 (iblk2 V c 0 ⟨0, h⟩) (iblk2 V c 1 ⟨0, h⟩) (iblk2 V c 2 ⟨0, h⟩) zero2 := by
  rw [acc2]
theorem acc2_succ (c : Dev nD) (n : ℕ) (h : n + 1 < cfg2.N) :
    acc2 V c (n + 1) h = step2 (iblk2 V c 0 ⟨n + 1, h⟩) (iblk2 V c 1 ⟨n + 1, h⟩) (iblk2 V c 2 ⟨n + 1, h⟩) (acc2 V c n (Nat.lt_of_succ_lt h)) := by
  rw [acc2]

/-- At the first point the accumulation starts from the cleared scratch; -/
theorem acc2_first (c : Dev nD) (t : Fin cfg2.N) (h0 : t.val % 8 = 0) :
    acc2 V c t.val t.isLt = step2 (iblk2 V c 0 t) (iblk2 V c 1 t) (iblk2 V c 2 t) zero2 := by
  obtain ⟨n, hn⟩ := t
  have hN : n < 8 := lt_of_lt_of_eq hn (show cfg2.N = 8 from N_2)
  obtain rfl : n = 0 := by dsimp only at h0; omega
  exact acc2_zero V c hn
/-- at a later point from what the point before left. -/
theorem acc2_later (c : Dev nD) (t : Fin cfg2.N) (h0 : ¬t.val % 8 = 0) :
    acc2 V c t.val t.isLt = step2 (iblk2 V c 0 t) (iblk2 V c 1 t) (iblk2 V c 2 t)
      (acc2 V c (t.val - 1) (Nat.lt_of_le_of_lt (Nat.sub_le _ _) t.isLt)) := by
  obtain ⟨n, hn⟩ := t
  cases n with
  | zero => exact absurd (Nat.zero_mod _) h0
  | succ n => exact acc2_succ V c n hn

/-! ## The body's two conditionals, from the grid coordinates -/

/-- The literal zero offsets are the zero function. -/
theorem hz2 : (![0, 0] : Fin 2 → ℕ) = fun _ => 0 := by funext a; fin_cases a <;> rfl

/-- The first conditional's test (the coordinate is 0): -/
abbrev cond2_0 (i : grid2.Coords) : Prop := (Scalar.cmpi .ne (Scalar.extui (Scalar.cmpi .eq (BitVec.ofNat 32 (i 0).val) 0#32)) 0#32) = 1#1
/-- it holds at point 0 only. -/
theorem hcond2_0 : ∀ t : Fin cfg2.N, cond2_0 (grid2.coords t) ↔ t.val % 8 = 0 :=
  (by decide +kernel : ∀ t : Fin grid2.N, cond2_0 (grid2.coords t) ↔ t.val % 8 = 0)
/-- The second conditional's test (the coordinate is 7): -/
abbrev cond2_1 (i : grid2.Coords) : Prop := k2_cond2 i = 1#1
/-- it holds at point 7 only. -/
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- The output window is idle at every point but the last, and not written back there; -/
theorem idleAt2_3 : ∀ t : Fin cfg2.N, ¬t.val % 8 = 7 → cfg2.idle 3 (grid2.coords t) = true := by decide +kernel
theorem noFlush2_3 : ∀ t : Fin cfg2.N, ¬t.val % 8 = 7 → (cfg2.win 3).flush t = false := by decide +kernel
/-- at the last it is live. -/
theorem liveAt2_3 : ∀ t : Fin cfg2.N, t.val % 8 = 7 → cfg2.idle 3 (grid2.coords t) = false := by decide +kernel

/-! ## The staging memrefs and the scratch -/

abbrev ms2_0 (t : Fin cfg2.N) : Memref sig .tc .vmem S6272x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S6272x64 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S64x128 .f32 := win2_3.stage (cfg2.slots t 3)
abbrev hs2_3 (t : Fin cfg2.N) : (ms2_3 t).IsWhole := hstage2_3 ((cfg2.slots t 3).cast nbuf2_3)
/-- The scratch operand: a whole scoped buffer of the kernel's own, passed beside the windows. -/
abbrev scM2 : Memref sig .tc .vmem S64x128 .f32 := Memref.whole cc2_scratch0

/-! ## The body on any whole memrefs, case by case -/

set_option maxHeartbeats 1000000 in
/-- At point 0: the scratch, at anything, is cleared and then holds the first accumulation; the output's buffer is
    handed back untouched. -/
theorem run2_A (c : Dev nD) (i : grid2.Coords)
    (arg1 : Memref sig .tc .vmem S6272x128 .f32) (harg1 : arg1.IsWhole) (arg2 : Memref sig .tc .vmem S1x128 .f32) (harg2 : arg2.IsWhole)
    (arg3 : Memref sig .tc .vmem S6272x64 .bf16) (harg3 : arg3.IsWhole) (arg4 : Memref sig .tc .vmem S64x128 .f32) (harg4 : arg4.IsWhole)
    (arg5 : Memref sig .tc .vmem S64x128 .f32) (harg5 : arg5.IsWhole) (hc0 : cond2_0 i) (hc1 : ¬cond2_1 i)
    (x0 : Vec F S6272x128 .f32) (x1 : Vec F S1x128 .f32) (x2 : Vec F S6272x64 .bf16) (xi : Vec F S64x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare xi ∗ owns (c : Thread nD τ) arg5 fullShare (step2 x0 x1 x2 zero2)) -∗ K ⟨⟩))
      ⊢ wp frame (wpE (defs₀ (F := F)) Variants.none c none) E (cc2__pool_kernel i arg1 harg1 arg2 harg2 arg3 harg3 arg4 harg4 arg5 harg5) K := by
  simp only [cc2__pool_kernel_eq_skeleton]; unfold cc2__pool_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_words
  rw [View.read_writes_eq_canon _ _ _ (fun y => ⟨_, List.mem_cons_self, View.mem_set_unit_zero hz2 inb_S64x128_S64x128_0_0 y⟩)]
  unfold step2 zero2
  simp only [View.canon_cons_unit_zero (S := S64x128) hz2, View.canon_unit_zero (S := S64x128) hz2, View.readAt_eq_ld,
    View.readCov_unit_zero (S := S64x128) _ hz2, View.ld_unit_zero (S := S64x128) hz2]

set_option maxHeartbeats 1000000 in
/-- At points 1 to 6: the scratch, at what the point before left, holds one more accumulation; the output's buffer is
    handed back untouched. -/
theorem run2_B (c : Dev nD) (i : grid2.Coords)
    (arg1 : Memref sig .tc .vmem S6272x128 .f32) (harg1 : arg1.IsWhole) (arg2 : Memref sig .tc .vmem S1x128 .f32) (harg2 : arg2.IsWhole)
    (arg3 : Memref sig .tc .vmem S6272x64 .bf16) (harg3 : arg3.IsWhole) (arg4 : Memref sig .tc .vmem S64x128 .f32) (harg4 : arg4.IsWhole)
    (arg5 : Memref sig .tc .vmem S64x128 .f32) (harg5 : arg5.IsWhole) (hc0 : ¬cond2_0 i) (hc1 : ¬cond2_1 i)
    (x0 : Vec F S6272x128 .f32) (x1 : Vec F S1x128 .f32) (x2 : Vec F S6272x64 .bf16) (xi : Vec F S64x128 .f32) (xs : Vec F S64x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare xi ∗ owns (c : Thread nD τ) arg5 fullShare (step2 x0 x1 x2 xs)) -∗ K ⟨⟩))
      ⊢ wp frame (wpE (defs₀ (F := F)) Variants.none c none) E (cc2__pool_kernel i arg1 harg1 arg2 harg2 arg3 harg3 arg4 harg4 arg5 harg5) K := by
  simp only [cc2__pool_kernel_eq_skeleton]; unfold cc2__pool_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_words
  rw [View.read_writes_eq_canon _ _ _ (fun y => ⟨_, List.mem_cons_self, View.mem_set_unit_zero hz2 inb_S64x128_S64x128_0_0 y⟩)]
  unfold step2
  simp only [View.canon_cons_unit_zero (S := S64x128) hz2, View.canon_unit_zero (S := S64x128) hz2, View.readAt_eq_ld,
    View.readCov_unit_zero (S := S64x128) _ hz2, View.ld_unit_zero (S := S64x128) hz2]

set_option maxHeartbeats 1000000 in
/-- At point 7: the scratch holds one more accumulation, and the output's buffer, at anything, a copy of it. -/
theorem run2_C (c : Dev nD) (i : grid2.Coords)
    (arg1 : Memref sig .tc .vmem S6272x128 .f32) (harg1 : arg1.IsWhole) (arg2 : Memref sig .tc .vmem S1x128 .f32) (harg2 : arg2.IsWhole)
    (arg3 : Memref sig .tc .vmem S6272x64 .bf16) (harg3 : arg3.IsWhole) (arg4 : Memref sig .tc .vmem S64x128 .f32) (harg4 : arg4.IsWhole)
    (arg5 : Memref sig .tc .vmem S64x128 .f32) (harg5 : arg5.IsWhole) (hc0 : ¬cond2_0 i) (hc1 : cond2_1 i)
    (x0 : Vec F S6272x128 .f32) (x1 : Vec F S1x128 .f32) (x2 : Vec F S6272x64 .bf16) (xs : Vec F S64x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (step2 x0 x1 x2 xs) ∗ owns (c : Thread nD τ) arg5 fullShare (step2 x0 x1 x2 xs)) -∗ K ⟨⟩))
      ⊢ wp frame (wpE (defs₀ (F := F)) Variants.none c none) E (cc2__pool_kernel i arg1 harg1 arg2 harg2 arg3 harg3 arg4 harg4 arg5 harg5) K := by
  simp only [cc2__pool_kernel_eq_skeleton]; unfold cc2__pool_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [View.read_writes_eq_canon _ _ _ (fun y => ⟨_, List.mem_cons_self, View.mem_set_unit_zero hz2 inb_S64x128_S64x128_0_0 y⟩)]
    unfold step2
    simp only [View.canon_cons_unit_zero (S := S64x128) hz2, View.canon_unit_zero (S := S64x128) hz2, View.readAt_eq_ld,
    View.readCov_unit_zero (S := S64x128) _ hz2, View.ld_unit_zero (S := S64x128) hz2]
  iexists _; isplitr
  swap; · iexact HS
  ipureintro
  sl_unfold_words
  rw [View.read_writes_eq_canon _ _ _ (fun y => ⟨_, List.mem_cons_self, View.mem_set_unit_zero hz2 inb_S64x128_S64x128_0_0 y⟩)]
  unfold step2
  simp only [View.canon_cons_unit_zero (S := S64x128) hz2, View.canon_unit_zero (S := S64x128) hz2, View.readAt_eq_ld,
    View.readCov_unit_zero (S := S64x128) _ hz2, View.ld_unit_zero (S := S64x128) hz2]

/-! ## The invariant -/

/-- The core's scoped buffers that are neither a staging buffer of this region nor its scratch, each whole at some
    contents: nothing here reads or writes them. -/
def rest2 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg3_1), ((c : Thread nD τ).loc cc1_stg3_1) ↦{fullShare} f))

/-- The class's plain invariant, with the scratch set apart as a memref owned at some contents. -/
theorem PhiA2_eq (c : Dev nD) :
    (Pipeline.ΦA spec2 c : sProp 𝕄)
      = iprop((rest2 (F := F) c ∗ (∃ d, owns (c : Thread nD τ) scM2 fullShare d)) ∗ (∃ r, prngReg c r)) := by
  unfold Pipeline.ΦA rest2; rw [scopedRest2_eq]; simp only [scM2, owns_whole]
  refine BI.equiv_iff.mp ⟨?_, ?_⟩
  · show (_ : sProp 𝕄) ⊢ (_ : sProp 𝕄)
    iintro ⟨⟨R0, R1, R2, R3, R4, R5, R6, R7, R8, R9, R10, HS⟩, Hg⟩
    isplitr [Hg]
    · isplitr [HS]
      · isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        iexact R10
      · iexact HS
    · iexact Hg
  · show (_ : sProp 𝕄) ⊢ (_ : sProp 𝕄)
    iintro ⟨⟨⟨R0, R1, R2, R3, R4, R5, R6, R7, R8, R9, R10⟩, HS⟩, Hg⟩
    isplitr [Hg]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      iexact HS
    · iexact Hg

/-- The invariant before position `n`: before the first point the class's plain one (the scratch at anything);
    afterwards the scratch at what the point before left in it, beside the other scoped buffers and the generator
    register at some state. -/
def Phi2 (c : Dev nD) : (n : ℕ) → n ≤ cfg2.N → sProp 𝕄
  | 0, _ => Pipeline.ΦA spec2 c
  | n + 1, hn => iprop((rest2 (F := F) c ∗ owns (c : Thread nD τ) scM2 fullShare (acc2 V c n hn)) ∗ (∃ r, prngReg c r))

theorem Phi2_at_zero (c : Dev nD) (n : ℕ) (h : n ≤ cfg2.N) (hz : n = 0) : Phi2 V c n h = Pipeline.ΦA spec2 c := by
  subst hz; rfl
theorem Phi2_succ (c : Dev nD) (n : ℕ) (hn : n < cfg2.N) :
    Phi2 V c (n + 1) hn = iprop((rest2 (F := F) c ∗ owns (c : Thread nD τ) scM2 fullShare (acc2 V c n hn)) ∗ (∃ r, prngReg c r)) := rfl
theorem Phi2_pos (c : Dev nD) (n : ℕ) (h : n ≤ cfg2.N) (hz : n ≠ 0) :
    Phi2 V c n h = iprop((rest2 (F := F) c ∗ owns (c : Thread nD τ) scM2 fullShare (acc2 V c (n - 1) (by omega))) ∗ (∃ r, prngReg c r)) := by
  cases n with
  | zero => exact absurd rfl hz
  | succ n => rfl

/-! ## The pipeline's proof data -/

/-- The proof data of pipeline 2 on core `c`: the arrays as the region finds them; after the body at a point each
    input's buffer at its block, the output's at the scratch's contents there (what the last point copies into it;
    at the other points the window is idle and this is not consulted); the invariant carrying the scratch; nothing
    owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => acc2 V c t.val t.isLt
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = acc2 V c t.val t.isLt := by dsimp only [dat2]
/-- What the output window's staging buffer holds after the last point: the scratch after it. -/
theorem after2_3_last (c : Dev nD) : (dat2 V c).after 3 t2_7 = acc2 V c 7 (by rw [show cfg2.N = grid2.N from rfl, N_2]; decide) := by
  rw [after2_3]; rfl

/-- The invariant at any position, restated at its number. -/
theorem Phi2_at (c : Dev nD) (t : Fin (cfg2.N + 1)) : (dat2 (F := F) V c).Φ t = Phi2 V c t.val (Nat.le_of_lt_succ t.isLt) := by
  dsimp only [dat2]
theorem Phi2_castSucc (c : Dev nD) (t : Fin cfg2.N) : (dat2 (F := F) V c).Φ t.castSucc = Phi2 V c t.val (Nat.le_of_lt t.isLt) := by
  dsimp only [dat2]; simp only [Fin.coe_castSucc]

/-- The invariant before the first point is the class's plain one. -/
theorem Phi2_zero (c : Dev nD) : (dat2 (F := F) V c).Φ 0 = Pipeline.ΦA spec2 c := by
  rw [Phi2_at]; exact Phi2_at_zero V c _ _ rfl
/-- The invariant after the last point gives the plain one back (the scratch's contents forgotten). -/
theorem Phi2_last (c : Dev nD) : (dat2 (F := F) V c).Φ (Fin.last cfg2.N) ⊢ (Pipeline.ΦA spec2 c : sProp 𝕄) := by
  rw [Phi2_at, Phi2_pos V c _ _ (by rw [Fin.val_last]; have : cfg2.N = 8 := N_2; omega), PhiA2_eq]
  iintro ⟨⟨HR, HS⟩, Hg⟩
  isplitl [HR HS]
  · isplitl [HR]; · iexact HR
    iexists _; iexact HS
  iexact Hg
theorem q2 (c : Dev nD) (w : Fin cfg2.W) : (dat2 (F := F) V c).q w = fullShare := by
  dsimp only [dat2]
theorem owed2 (c : Dev nD) (t : Fin (cfg2.N + 1)) : (dat2 (F := F) V c).owed t = 0 := by
  dsimp only [dat2]

/-! ## What the body finds in the input windows' buffers -/

/-- Each input's current staging buffer holds its block at every point, fetched there or not: unfetched, the block
    index has not moved. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

/-- An input window, never idle, is left at its block. -/
theorem leaves2_0 (c : Dev nD) (t : Fin cfg2.N) :
    (dat2 V c).leavesExact 0 t = owns (c : Thread nD τ) (ms2_0 t) fullShare (iblk2 V c 0 t) := by
  rw [show (dat2 V c).leavesExact 0 t = owns (c : Thread nD τ) (ms2_0 t) fullShare ((dat2 V c).after 0 t) from by
    unfold Dat.leavesExact; rw [liveAt2_0 t], after2_0]
theorem leaves2_1 (c : Dev nD) (t : Fin cfg2.N) :
    (dat2 V c).leavesExact 1 t = owns (c : Thread nD τ) (ms2_1 t) fullShare (iblk2 V c 1 t) := by
  rw [show (dat2 V c).leavesExact 1 t = owns (c : Thread nD τ) (ms2_1 t) fullShare ((dat2 V c).after 1 t) from by
    unfold Dat.leavesExact; rw [liveAt2_1 t], after2_1]
theorem leaves2_2 (c : Dev nD) (t : Fin cfg2.N) :
    (dat2 V c).leavesExact 2 t = owns (c : Thread nD τ) (ms2_2 t) fullShare (iblk2 V c 2 t) := by
  rw [show (dat2 V c).leavesExact 2 t = owns (c : Thread nD τ) (ms2_2 t) fullShare ((dat2 V c).after 2 t) from by
    unfold Dat.leavesExact; rw [liveAt2_2 t], after2_2]

set_option maxHeartbeats 4800000 in
/-- The body at any point. The inputs' memrefs hold their blocks; the point's number says which case it is in. At
    point 0 the invariant is the plain one and hands the scratch at anything; afterwards it hands the scratch at what
    the point before left. The invariant takes the scratch back at this point's accumulation (the recursion's equation
    at the point). The output's buffer is handed back as found except at the last point, where it holds the copy of
    the scratch; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = Phi2 V c (t.val + 1) t.isLt from rfl, Phi2_succ]
  rw [leaves2_0, leaves2_1, leaves2_2]
  have hN : t.val < 8 := lt_of_lt_of_eq t.isLt (show cfg2.N = 8 from N_2)
  by_cases h0 : t.val % 8 = 0
  · -- point 0
    have h1 : ¬t.val % 8 = 7 := by omega
    have hz : t.val = 0 := by omega
    rw [Dat.leavesExact_idle (dat2 V c) 3 t (idleAt2_3 t h1) (noFlush2_3 t h1)]
    rw [acc2_first V c t h0]
    rw [Phi2_castSucc V c t, Phi2_at_zero V c _ _ hz, PhiA2_eq]
    iintro ⟨⟨⟨HR, ⟨%ds, HS⟩⟩, Hg⟩, Ho, ⟨%d0, H0⟩, ⟨%d1, H1⟩, ⟨%d2, H2⟩, ⟨%d3, H3⟩⟩
    iapply (run2_A c (grid2.coords t) _ _ _ _ _ _ _ _ _ _ ((hcond2_0 t).mpr h0) (fun h => h1 ((hcond2_1 t).mp h))
      (iblk2 V c 0 t) (iblk2 V c 1 t) (iblk2 V c 2 t) ((dat2 V c).before 3 t d3) Set.univ _)
    isplitl [H0]; · iexact H0
    isplitl [H1]; · iexact H1
    isplitl [H2]; · iexact H2
    isplitl [H3]; · iexact H3
    isplitl [HS]; · iexists _; iexact HS
    iintro ⟨H0, H1, H2, H3, HS⟩
    isplitl [HR HS Hg]
    · isplitl [HR HS]
      · isplitl [HR]; · iexact HR
        iexact HS
      iexact Hg
    isplitl [Ho]; · iexact Ho
    isplitl [H0]; · iexact H0
    isplitl [H1]; · iexact H1
    isplitl [H2]; · iexact H2
    iexists _; iexact H3
  · have hz : t.val ≠ 0 := by omega
    by_cases h1 : t.val % 8 = 7
    · -- point 7
      rw [show (dat2 V c).leavesExact 3 t = owns (c : Thread nD τ) (ms2_3 t) fullShare ((dat2 V c).after 3 t) from by
        unfold Dat.leavesExact; rw [liveAt2_3 t h1], after2_3]
      rw [acc2_later V c t h0]
      rw [Phi2_castSucc V c t, Phi2_pos V c _ _ hz]
      iintro ⟨⟨⟨HR, HS⟩, Hg⟩, Ho, ⟨%d0, H0⟩, ⟨%d1, H1⟩, ⟨%d2, H2⟩, ⟨%d3, H3⟩⟩
      iapply (run2_C c (grid2.coords t) _ _ _ _ _ _ _ _ _ _ (fun h => h0 ((hcond2_0 t).mp h)) ((hcond2_1 t).mpr h1)
        (iblk2 V c 0 t) (iblk2 V c 1 t) (iblk2 V c 2 t) (acc2 V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HR HS Hg]
      · isplitl [HR HS]
        · isplitl [HR]; · iexact HR
          iexact HS
        iexact Hg
      isplitl [Ho]; · iexact Ho
      isplitl [H0]; · iexact H0
      isplitl [H1]; · iexact H1
      isplitl [H2]; · iexact H2
      iexact H3
    · -- points 1 to 6
      rw [Dat.leavesExact_idle (dat2 V c) 3 t (idleAt2_3 t h1) (noFlush2_3 t h1)]
      rw [acc2_later V c t h0]
      rw [Phi2_castSucc V c t, Phi2_pos V c _ _ hz]
      iintro ⟨⟨⟨HR, HS⟩, Hg⟩, Ho, ⟨%d0, H0⟩, ⟨%d1, H1⟩, ⟨%d2, H2⟩, ⟨%d3, H3⟩⟩
      iapply (run2_B c (grid2.coords t) _ _ _ _ _ _ _ _ _ _ (fun h => h0 ((hcond2_0 t).mp h)) (fun h => h1 ((hcond2_1 t).mp h))
        (iblk2 V c 0 t) (iblk2 V c 1 t) (iblk2 V c 2 t) ((dat2 V c).before 3 t d3) (acc2 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HR HS Hg]
      · isplitl [HR HS]
        · isplitl [HR]; · iexact HR
          iexact HS
        iexact Hg
      isplitl [Ho]; · iexact Ho
      isplitl [H0]; · iexact H0
      isplitl [H1]; · iexact H1
      isplitl [H2]; · iexact H2
      iexists _; iexact H3

/-- The body's obligation at every point. -/
theorem body_obligation2 (c : Dev nD) : BodyObligation (dat2 (F := F) V c) (defs₀ (F := F)) Variants.none () Set.univ := by
  intro t
  rw [bigSep_W2, bigSep_W2]
  exact sound_body2 V c t

end Cert.Kernel.Hand

end
-- ==== Proof.K.Outs.lean ====
/-
  What the three kernel regions leave in their output arrays, as definitions over the launch memory: region 0's
  product array, region 1's, and region 2's pooled sums, each the array its pipeline's write-backs leave (the
  proof data's array after the last point) over the contents the region is entered with; and the family of
  "contents the regions leave" assembled from them, over which the buffers' contents between @main's items are stated.
-/
import proofs.«416386_j58171037057469_1_alg».proof.Proof.K.Reg0
import proofs.«416386_j58171037057469_1_alg».proof.Proof.K.Reg1
import proofs.«416386_j58171037057469_1_alg».proof.Proof.K.Reg2
import proofs.«416386_j58171037057469_1_alg».proof.Proof.Gen.Kernel.Regions

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

/-- A family of contents the regions leave, from one array per region (any other reference: its launch contents). -/
def outsOf (a : (c : Dev nD) → Buf (Elt F) ((c : Thread nD τ).loc main_v33))
    (b : (c : Dev nD) → Buf (Elt F) ((c : Thread nD τ).loc main_v50))
    (d : (c : Dev nD) → Buf (Elt F) ((c : Thread nD τ).loc main_v78)) : Outs (F := F) :=
  fun _ r c =>
    if h : r = main_v33 then h ▸ a c
    else if h : r = main_v50 then h ▸ b c
    else if h : r = main_v78 then h ▸ d c
    else V0 m c r

theorem outsOf_v33 (a b d) (n : ℕ) (c : Dev nD) : outsOf m a b d n main_v33 c = a c := by
  unfold outsOf; rw [dif_pos rfl]
theorem outsOf_v50 (a b d) (n : ℕ) (c : Dev nD) : outsOf m a b d n main_v50 c = b c := by
  unfold outsOf; rw [dif_neg (by decide), dif_pos rfl]
theorem outsOf_v78 (a b d) (n : ℕ) (c : Dev nD) : outsOf m a b d n main_v78 c = d c := by
  unfold outsOf; rw [dif_neg (by decide), dif_neg (by decide), dif_pos rfl]

/-- The buffers' contents when region 0 is entered, read at the TensorCore's references. -/
abbrev VR5 : (c : Dev nD) → (b : Ref sig .tc) → Buf (Elt F) ((c : Thread nD τ).loc b) := fun c b => V5 m c b
/-- Region 0's output array after the region. -/
def o6 (c : Dev nD) : Buf (Elt F) ((c : Thread nD τ).loc main_v33) := (dat0 (VR5 m) c).arrAt 2 cfg0.N

/-- The buffers' contents when region 1 is entered (they depend on region 0's output only). -/
abbrev VR9 : (c : Dev nD) → (b : Ref sig .tc) → Buf (Elt F) ((c : Thread nD τ).loc b) :=
  fun c b => V9 m (outsOf m (o6 m) (fun c => V0 m c main_v50) (fun c => V0 m c main_v78)) c b
/-- Region 1's output array after the region. -/
def o10 (c : Dev nD) : Buf (Elt F) ((c : Thread nD τ).loc main_v50) := (dat1 (VR9 m) c).arrAt 3 cfg1.N

/-- The buffers' contents when region 2 is entered (they depend on the first two regions' outputs only). -/
abbrev VR15 : (c : Dev nD) → (b : Ref sig .tc) → Buf (Elt F) ((c : Thread nD τ).loc b) :=
  fun c b => V15 m (outsOf m (o6 m) (o10 m) (fun c => V0 m c main_v78)) c b
/-- Region 2's output array after the region. -/
def o16 (c : Dev nD) : Buf (Elt F) ((c : Thread nD τ).loc main_v78) := (dat2 (VR15 m) c).arrAt 3 cfg2.N

/-- What the regions leave. -/
def outsK : Outs (F := F) := outsOf m (o6 m) (o10 m) (o16 m)

theorem outsK_v33 (n : ℕ) (c : Dev nD) : outsK m n main_v33 c = o6 m c := outsOf_v33 m _ _ _ n c
theorem outsK_v50 (n : ℕ) (c : Dev nD) : outsK m n main_v50 c = o10 m c := outsOf_v50 m _ _ _ n c
theorem outsK_v78 (n : ℕ) (c : Dev nD) : outsK m n main_v78 c = o16 m c := outsOf_v78 m _ _ _ n c

/-- The contents region 1 is entered with do not depend on what the later regions leave. -/
theorem V9_outsK (c : Dev nD) : V9 m (outsK m) c = V9 m (outsOf m (o6 m) (fun c => V0 m c main_v50) (fun c => V0 m c main_v78)) c := by
  dsimp only [V9, V8, V7, V6]
  rw [outsK_v33, outsOf_v33]
/-- The contents region 2 is entered with do not depend on what region 2 leaves. -/
theorem V15_outsK (c : Dev nD) : V15 m (outsK m) c = V15 m (outsOf m (o6 m) (o10 m) (fun c => V0 m c main_v78)) c := by
  dsimp only [V15, V14, V13, V12, V11, V10, V9, V8, V7, V6]
  rw [outsK_v33, outsK_v50, outsOf_v33, outsOf_v50]

end Cert.Kernel.Hand

end
-- ==== Proof.K.Run.lean ====
/-
  The run of the whole program: each kernel region as a segment of @main over the thread state "every unscoped buffer
  at the boundary's contents, the generator register at some state, nothing owed" (its arrays split out of the unscoped
  buffers at entry and put back at the exit contents; region 2's invariant carries its scratch between points and gives
  the plain one back at the end), and the launch over all of @main's items: every weakly fair execution terminates with
  the result buffer at the last boundary's contents and the arguments unchanged.
-/
import proofs.«416386_j58171037057469_1_alg».proof.Proof.K.Outs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The launch with the result named -/

set_option backward.isDefEq.respectTransparency.types false in
set_option backward.isDefEq.respectTransparency.types false in
/-- The launch over @main's items with the result named: for any rest states the launch makes on every core and that end owing
    nothing, any contents the regions leave and any proof data, given per region a segment record entered from the thread
    state before it and left at the one after it, every weakly fair execution of @main from memory `m` with zero counters
    terminates, and every final memory holds the result buffer at the last boundary's contents and each argument as launched. -/
theorem value_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V5 m c) ∗ E 0 c) ⊢ R0.pre c)
    (hpost0 : ∀ c : Dev nD, R0.post c ⊢ iprop(StableHlo.held (c : Thread nD τ) (Pipeline.ucRefs τ sig) (V6 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V9 m outs c) ∗ E 1 c) ⊢ R1.pre c)
    (hpost1 : ∀ c : Dev nD, R1.post c ⊢ iprop(StableHlo.held (c : Thread nD τ) (Pipeline.ucRefs τ sig) (V10 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V15 m outs c) ∗ E 2 c) ⊢ R2.pre c)
    (hpost2 : ∀ c : Dev nD, R2.post c ⊢ iprop(StableHlo.held (c : Thread nD τ) (Pipeline.ucRefs τ sig) (V16 m outs c) ∗ E 3 c)) :
    θ_run defs (onTc (τ := τ) (main (F := F))) ⟨m, fun _ => 0, ρ⟩ (fun r => ∀ c : Dev nD,
      r.2.mem ((c.tc : Thread nD τ).loc main_v81) = V17 m outs c main_v81
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          StableHlo.seq hostOps2_1,
          StableHlo.seq hostOps2_2,
          StableHlo.seq hostOps2_3,
          StableHlo.seq hostOps2_4,
          Prog.lift (.customCall (Pipeline.entry 2) ()),
          StableHlo.seq hostOps3 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V17 m outs c))
    (hch := fun c => ⟨.rfl, .rfl, .rfl, .rfl, .rfl, hpre0 c, hpost0 c, .rfl, .rfl, hpre1 c, hpost1 c, .rfl, .rfl, .rfl, .rfl, hpre2 c, hpost2 c, sep_mono .rfl (hE3 c)⟩)
    (hinit := ?_) (QY := fun c s => s.mem ((c.tc : Thread nD τ).loc main_v81) = V17 m outs c main_v81 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V17 m outs c) s') $$ [Hh HSI]
    · isplitl [Hh] <;> iassumption
    icases Hr with ⟨%h, HSI⟩
    imodintro
    isplitr
    · ipureintro
      exact ⟨h (Proc.devRef .tc main_v81) (Finset.mem_filter.mpr ⟨StableHlo.devRef_mem_tcRefs main_v81, by decide⟩),
        (h (Proc.devRef .tc main_arg0) (Finset.mem_filter.mpr ⟨StableHlo.devRef_mem_tcRefs main_arg0, by decide⟩)).trans (V17_main_arg0 m outs c),
        (h (Proc.devRef .tc main_arg1) (Finset.mem_filter.mpr ⟨StableHlo.devRef_mem_tcRefs main_arg1, by decide⟩)).trans (V17_main_arg1 m outs c),
        (h (Proc.devRef .tc main_arg2) (Finset.mem_filter.mpr ⟨StableHlo.devRef_mem_tcRefs main_arg2, by decide⟩)).trans (V17_main_arg2 m outs c),
        (h (Proc.devRef .tc main_arg3) (Finset.mem_filter.mpr ⟨StableHlo.devRef_mem_tcRefs main_arg3, by decide⟩)).trans (V17_main_arg3 m outs c),
        (h (Proc.devRef .tc main_arg4) (Finset.mem_filter.mpr ⟨StableHlo.devRef_mem_tcRefs main_arg4, by decide⟩)).trans (V17_main_arg4 m outs c),
        (h (Proc.devRef .tc main_arg5) (Finset.mem_filter.mpr ⟨StableHlo.devRef_mem_tcRefs main_arg5, by decide⟩)).trans (V17_main_arg5 m outs c),
        (h (Proc.devRef .tc main_arg6) (Finset.mem_filter.mpr ⟨StableHlo.devRef_mem_tcRefs main_arg6, by decide⟩)).trans (V17_main_arg6 m outs c)⟩
    · iexact HSI

/-! ## The proof data family and the thread state -/

/-- Every pipeline's proof data, each at its region's entry contents. -/
def pdats : (p : Fin 3) → (c : Dev nD) → Dat τ (Elt F) Unit ℕ (UR sig nD τ) ℕ (cfgs p) c
  | ⟨0, _⟩ => fun c => dat0 (VR5 m) c
  | ⟨1, _⟩ => fun c => dat1 (VR9 m) c
  | ⟨2, _⟩ => fun c => dat2 (VR15 m) c

/-- No core owes another anything: no level is assigned. -/
abbrev Lev : GSem nD τ sig → Finset Unit := fun _ => ∅
abbrev lvl : GSem nD τ sig → Unit → ℕ := fun _ _ => 0
/-- What rides beside the buffers through every segment: the generator register at some state, and nothing owed. -/
abbrev Rest (c : Dev nD) : sProp 𝕄 := iprop((∃ r, prngReg c r) ∗ ∃ W, owes (c : Thread nD τ) (0 : CellTallies nD τ sig Unit) W)

/-- The buffers' contents at the regions' exits, read at the TensorCore's references. -/
abbrev VR6 : (c : Dev nD) → (b : Ref sig .tc) → Buf (Elt F) ((c : Thread nD τ).loc b) := fun c b => V6 m (outsK m) c b
abbrev VR9' : (c : Dev nD) → (b : Ref sig .tc) → Buf (Elt F) ((c : Thread nD τ).loc b) := fun c b => V9 m (outsK m) c b
abbrev VR10 : (c : Dev nD) → (b : Ref sig .tc) → Buf (Elt F) ((c : Thread nD τ).loc b) := fun c b => V10 m (outsK m) c b
abbrev VR15' : (c : Dev nD) → (b : Ref sig .tc) → Buf (Elt F) ((c : Thread nD τ).loc b) := fun c b => V15 m (outsK m) c b
abbrev VR16 : (c : Dev nD) → (b : Ref sig .tc) → Buf (Elt F) ((c : Thread nD τ).loc b) := fun c b => V16 m (outsK m) c b

theorem VR9'_eq (c : Dev nD) : VR9' m c = VR9 m c := by
  funext b; exact congrFun (V9_outsK m c) _
theorem VR15'_eq (c : Dev nD) : VR15' m c = VR15 m c := by
  funext b; exact congrFun (V15_outsK m c) _

/-! ## Region 0 -/

set_option maxHeartbeats 4000000 in
/-- At region 0's exit each of its arrays holds what the pipeline leaves: an input array what it held at entry, the output
    array what the write-backs left. -/
theorem hF0 (c : Dev nD) : ∀ w : Fin cfg0.W, (pdats m 0 c).arrAt w cfg0.N = VR6 m c (Pipeline.arrRef spec0 w)
  | ⟨0, _⟩ => by
    show (dat0 (VR5 m) c).arrAt 0 cfg0.N = V6 m (outsK m) c main_v31
    rw [(dat0 (VR5 m) c).arrAt_in 0 rfl, A_eq0, V6_of m (outsK m) c main_v31 (by decide)]
  | ⟨1, _⟩ => by
    show (dat0 (VR5 m) c).arrAt 1 cfg0.N = V6 m (outsK m) c main_v32
    rw [(dat0 (VR5 m) c).arrAt_in 1 rfl, A_eq0, V6_of m (outsK m) c main_v32 (by decide)]
  | ⟨2, _⟩ => by
    show (dat0 (VR5 m) c).arrAt 2 cfg0.N = V6 m (outsK m) c main_v33
    dsimp only [V6]
    rw [Function.update_self, outsK_v33]
    rfl
/-- and every other buffer what it held at entry. -/
theorem hrest0 (c : Dev nD) : ∀ b, b ∉ Finset.univ.image (Pipeline.arrRef spec0) → VR6 m c b = VR5 m c b :=
  fun b hb => V6_of m (outsK m) c b fun hmem =>
    hb (by rw [List.mem_singleton.mp hmem]; exact Finset.mem_image.mpr ⟨2, Finset.mem_univ _, rfl⟩)

set_option backward.isDefEq.respectTransparency.types false in
/-- Region 0 over the thread state: entered from every unscoped buffer at the contents before it, left at the contents after
    it. Its arrays are split out of the unscoped buffers and put back at the exit contents; the generator register goes into
    the invariant and comes out; nothing is owed; the kernel has no semaphore of its own. -/
def reg0 : Pipeline.RegionSeg (pcfgs (F := F)) adm (pdats m) () defs₀ Variants.none Lev lvl 0 where
  win := launch0.win.to₀
  block_pos := launch0.block_pos
  stage_whole := launch0.stage_whole
  K := PEmpty
  osem k := k.elim
  ho := Pipeline.OwnSemFacts.none _
  hbody c := (body_obligation0 (VR5 m) c).loose
  hwaits := Pipeline.hwaits_of_owed_zero _ _ _ _ Lev lvl 0 fun _ _ => rfl
  pre c := iprop(StableHlo.held (c : Thread nD τ) (Pipeline.ucRefs τ sig) (V5 m c) ∗ Rest c)
  post c := iprop(StableHlo.held (c : Thread nD τ) (Pipeline.ucRefs τ sig) (V6 m (outsK m) c) ∗ Rest c)
  X c := iprop(∃ r, prngReg c r)
  Y c := iprop(∃ r, prngReg c r)
  Z c := Pipeline.unscopedRest (Ix := Unit) (Name := ℕ) (U := UR sig nD τ) (Lvl := ℕ) spec0 c (VR5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VR5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VR5 m c) (VR6 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

set_option maxHeartbeats 4000000 in
/-- At region 1's exit each of its arrays holds what the pipeline leaves: an input array what it held at entry, the output
    array what the write-backs left. -/
theorem hF1 (c : Dev nD) : ∀ w : Fin cfg1.W, (pdats m 1 c).arrAt w cfg1.N = VR10 m c (Pipeline.arrRef spec1 w)
  | ⟨0, _⟩ => by
    show (dat1 (VR9 m) c).arrAt 0 cfg1.N = V10 m (outsK m) c main_v47
    rw [(dat1 (VR9 m) c).arrAt_in 0 rfl, A_eq1, V10_of m (outsK m) c main_v47 (by decide)]
    rw [V9_outsK]
  | ⟨1, _⟩ => by
    show (dat1 (VR9 m) c).arrAt 1 cfg1.N = V10 m (outsK m) c main_v49
    rw [(dat1 (VR9 m) c).arrAt_in 1 rfl, A_eq1, V10_of m (outsK m) c main_v49 (by decide)]
    rw [V9_outsK]
  | ⟨2, _⟩ => by
    show (dat1 (VR9 m) c).arrAt 2 cfg1.N = V10 m (outsK m) c main_v48
    rw [(dat1 (VR9 m) c).arrAt_in 2 rfl, A_eq1, V10_of m (outsK m) c main_v48 (by decide)]
    rw [V9_outsK]
  | ⟨3, _⟩ => by
    show (dat1 (VR9 m) c).arrAt 3 cfg1.N = V10 m (outsK m) c main_v50
    dsimp only [V10]
    rw [Function.update_self, outsK_v50]
    rfl
/-- and every other buffer what it held at entry. -/
theorem hrest1 (c : Dev nD) : ∀ b, b ∉ Finset.univ.image (Pipeline.arrRef spec1) → VR10 m c b = VR9 m c b :=
  fun b hb => (V10_of m (outsK m) c b fun hmem =>
    hb (by rw [List.mem_singleton.mp hmem]; exact Finset.mem_image.mpr ⟨3, Finset.mem_univ _, rfl⟩)).trans (congrFun (V9_outsK m c) _)

set_option backward.isDefEq.respectTransparency.types false in
/-- Region 1 over the thread state: entered from every unscoped buffer at the contents before it, left at the contents after
    it. Its arrays are split out of the unscoped buffers and put back at the exit contents; the generator register goes into
    the invariant and comes out; nothing is owed; the kernel has no semaphore of its own. -/
def reg1 : Pipeline.RegionSeg (pcfgs (F := F)) adm (pdats m) () defs₀ Variants.none Lev lvl 1 where
  win := launch1.win.to₀
  block_pos := launch1.block_pos
  stage_whole := launch1.stage_whole
  K := PEmpty
  osem k := k.elim
  ho := Pipeline.OwnSemFacts.none _
  hbody c := (body_obligation1 (VR9 m) c).loose
  hwaits := Pipeline.hwaits_of_owed_zero _ _ _ _ Lev lvl 1 fun _ _ => rfl
  pre c := iprop(StableHlo.held (c : Thread nD τ) (Pipeline.ucRefs τ sig) (V9 m (outsOf m (o6 m) (fun c => V0 m c main_v50) (fun c => V0 m c main_v78)) c) ∗ Rest c)
  post c := iprop(StableHlo.held (c : Thread nD τ) (Pipeline.ucRefs τ sig) (V10 m (outsK m) c) ∗ Rest c)
  X c := iprop(∃ r, prngReg c r)
  Y c := iprop(∃ r, prngReg c r)
  Z c := Pipeline.unscopedRest (Ix := Unit) (Name := ℕ) (U := UR sig nD τ) (Lvl := ℕ) spec1 c (VR9 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VR9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VR9 m c) (VR10 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

set_option maxHeartbeats 4000000 in
/-- At region 2's exit each of its arrays holds what the pipeline leaves: an input array what it held at entry, the output
    array what the write-backs left. -/
theorem hF2 (c : Dev nD) : ∀ w : Fin cfg2.W, (pdats m 2 c).arrAt w cfg2.N = VR16 m c (Pipeline.arrRef spec2 w)
  | ⟨0, _⟩ => by
    show (dat2 (VR15 m) c).arrAt 0 cfg2.N = V16 m (outsK m) c main_v64
    rw [(dat2 (VR15 m) c).arrAt_in 0 rfl, A_eq2, V16_of m (outsK m) c main_v64 (by decide)]
    rw [V15_outsK]
  | ⟨1, _⟩ => by
    show (dat2 (VR15 m) c).arrAt 1 cfg2.N = V16 m (outsK m) c main_v77
    rw [(dat2 (VR15 m) c).arrAt_in 1 rfl, A_eq2, V16_of m (outsK m) c main_v77 (by decide)]
    rw [V15_outsK]
  | ⟨2, _⟩ => by
    show (dat2 (VR15 m) c).arrAt 2 cfg2.N = V16 m (outsK m) c main_v76
    rw [(dat2 (VR15 m) c).arrAt_in 2 rfl, A_eq2, V16_of m (outsK m) c main_v76 (by decide)]
    rw [V15_outsK]
  | ⟨3, _⟩ => by
    show (dat2 (VR15 m) c).arrAt 3 cfg2.N = V16 m (outsK m) c main_v78
    dsimp only [V16]
    rw [Function.update_self, outsK_v78]
    rfl
/-- and every other buffer what it held at entry. -/
theorem hrest2 (c : Dev nD) : ∀ b, b ∉ Finset.univ.image (Pipeline.arrRef spec2) → VR16 m c b = VR15 m c b :=
  fun b hb => (V16_of m (outsK m) c b fun hmem =>
    hb (by rw [List.mem_singleton.mp hmem]; exact Finset.mem_image.mpr ⟨3, Finset.mem_univ _, rfl⟩)).trans (congrFun (V15_outsK m c) _)

set_option backward.isDefEq.respectTransparency.types false in
/-- Region 2 over the thread state: entered from every unscoped buffer at the contents before it, left at the contents after
    it. Its arrays are split out of the unscoped buffers and put back at the exit contents; the generator register goes into
    the invariant and comes out; nothing is owed; the kernel has no semaphore of its own. -/
def reg2 : Pipeline.RegionSeg (pcfgs (F := F)) adm (pdats m) () defs₀ Variants.none Lev lvl 2 where
  win := launch2.win.to₀
  block_pos := launch2.block_pos
  stage_whole := launch2.stage_whole
  K := PEmpty
  osem k := k.elim
  ho := Pipeline.OwnSemFacts.none _
  hbody c := (body_obligation2 (VR15 m) c).loose
  hwaits := Pipeline.hwaits_of_owed_zero _ _ _ _ Lev lvl 2 fun c t => owed2 (VR15 m) c t
  pre c := iprop(StableHlo.held (c : Thread nD τ) (Pipeline.ucRefs τ sig) (V15 m (outsOf m (o6 m) (o10 m) (fun c => V0 m c main_v78)) c) ∗ Rest c)
  post c := iprop(StableHlo.held (c : Thread nD τ) (Pipeline.ucRefs τ sig) (V16 m (outsK m) c) ∗ Rest c)
  X c := iprop(∃ r, prngReg c r)
  Y c := iprop(∃ r, prngReg c r)
  Z c := Pipeline.unscopedRest (Ix := Unit) (Name := ℕ) (U := UR sig nD τ) (Lvl := ℕ) spec2 c (VR15 m c)
  hentry c := by
    rw [Pipeline.ownSems0_none]
    have hsplit := Pipeline.arrays_of_unscopedBufs (p := 2) (pcfgs (F := F)) adm (pdats m) launch2.win launch2.arr_whole c
      ((pdats m 2 c).share_full fun w => q2 (VR15 m) c w) (VR15 m c) fun w => A_eq2 (VR15 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from Phi2_zero (VR15 m) c]; unfold Pipeline.ΦA
    iintro ⟨Hp, -, Hr⟩
    isplitl [Hr]; · iexact Hr
    iexact Hp
  hout c := by
    rw [Pipeline.ownSems0_none]
    refine (Phi2_last (VR15 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun w => q2 (VR15 m) c w)
      (VR15 m c) (VR16 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

variable (ρ : Dev nD → PrngReg)

set_option backward.isDefEq.respectTransparency.types false in
/-- Every weakly fair execution of @main terminates, nothing faulting, with the result buffer at the last boundary's
    contents and the argument arrays as launched. -/
theorem run_value : θ_run defs (onTc (τ := τ) (main (F := F))) ⟨m, fun _ => 0, ρ⟩ (fun r => ∀ c : Dev nD,
      r.2.mem ((c.tc : Thread nD τ).loc main_v81) = V17 m (outsK m) c main_v81
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  value_cond m (emb₁ (nD := nD) (τ := τ) (sig := sig) (Ix := Unit) (Val := Elt F) (Name := ℕ) (Lvl := ℕ)) () Variants.none Lev lvl (fun _ _ => rfl) ρ (outsK m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rest c)
    (hE0 := by
      refine Pipeline.initEach Lev lvl fun c => ?_
      iintro ⟨⟨-, HO, -, Hp, -⟩, -⟩
      imodintro
      isplitl [Hp]; · iexists _; iexact Hp
      iexists ∅; iexact HO)
    (hE3 := fun c => by iintro ⟨-, HO⟩; iexact HO)
    (reg0 m) (fun c => .rfl) (fun c => .rfl)
    (reg1 m) (fun c => by rw [V9_outsK]; exact .rfl) (fun c => .rfl)
    (reg2 m) (fun c => by rw [V15_outsK]; exact .rfl) (fun c => .rfl)

/-- The frame claim: the run with the result's value dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_value m ρ)

end Cert.Kernel.Hand

end
-- ==== Proof.KI.Reg0.lean ====
/-
  Region 0 of the program: the row-block matrix product. At each of the 8 grid points the body reads a block of
  6272 rows of the (padded) left operand and the whole 128 x 128 right operand, and stores their product over the
  output block. Stated here: what each window's staging buffer holds after the body at a point, as a function of
  the blocks the point reads; the pipeline's proof data over the contents the region is entered with; and the
  body's obligation at every point.
-/
import proofs.«416386_j58171037057469_1_alg».proof.Proof.Gen.KernelIdeal.Launch
import proofs.«416386_j58171037057469_1_alg».proof.Proof.Gen.KernelIdeal.Skeleton
import proofs.«416386_j58171037057469_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rA0 : Rect S6272x128 := Rect.unit (s := S6272x128) ![0, 0] S6272x128.size inb_S6272x128_S6272x128_0_0
abbrev rW0 : Rect S128x128 := Rect.unit (s := S128x128) ![0, 0] S128x128.size inb_S128x128_S128x128_0_0

/-- The output block after the body: the one store, over the whole block, of the product of the two blocks read. -/
def out0_2 (x0 : Vec F S6272x128 .bf16) (x1 : Vec F S128x128 .bf16) : Vec F S6272x128 .f32 :=
  View.canon [⟨rA0, k0_pay1 (View.ld x0 rA0) (View.ld x1 rW0)⟩]

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## Each input's staging buffer at a point -/

/-- Input window 0's current staging buffer holds its block at every point, for any proof data over the entry
    arrays whose body leaves the block in place: where the window is fetched the fetch puts the block there, and
    where it is not the block index has not moved since the last fetch. The window is uncut and never idle. -/
theorem held0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the whole right operand, block index constant over the grid, fetched at the first point only)
    holds its block at every point, by the same law: past the first point the index has not moved. -/
theorem held0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem held0_0 (c : Dev nD) (t : Fin cfg0.N) (d) : (dat0 V c).before 0 t d = iblk0 V c 0 t :=
  held0_0_of V (dat0 V c) (A_eq0 V c 0) (after0_0 V c) t d
theorem held0_1 (c : Dev nD) (t : Fin cfg0.N) (d) : (dat0 V c).before 1 t d = iblk0 V c 1 t :=
  held0_1_of V (dat0 V c) (A_eq0 V c 1) (after0_1 V c) t d

/-! ## The one store covers the output block -/

/-- The store's rectangle is the whole block: every index of the block lies in it. -/
theorem whole0_2 (p0 : Vec F S6272x128 .f32) (y : S6272x128.Idx) :
    ∃ pc ∈ ([⟨rA0, p0⟩] : List (View.Piece (Elt F) S6272x128 .f32)), y ∈ pc.1.set :=
  View.cover_of_tiled [⟨rA0, p0⟩] S6272x128.size (by rfl) y

/-! ## The body's triple -/

set_option maxHeartbeats 1000000 in
/-- The kernel function on whole staging memrefs, the two inputs' at contents `x0`, `x1` and the output's at
    anything, runs to the continuation with the inputs' as they were and the output's at `out0_2 x0 x1`: two
    loads of whole blocks, a load of the output block whose value is not used, and one store over the whole
    output block of the product. The grid coordinate is not read. -/
theorem kernel_triple0 (c : Dev nD) (E : Set ℕ) (i : grid0.Coords)
    (arg1 : Memref sig .tc .vmem S6272x128 .bf16) (harg1 : arg1.IsWhole)
    (arg2 : Memref sig .tc .vmem S128x128 .bf16) (harg2 : arg2.IsWhole)
    (arg3 : Memref sig .tc .vmem S6272x128 .f32) (harg3 : arg3.IsWhole)
    (x0 : Vec F S6272x128 .bf16) (x1 : Vec F S128x128 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (whole0_2 _)

/-! ## The body obligation, at a generic point -/

/-- What the body is called with at point `t`: the invariant, what the core owes, and each window's current
    staging memref at what the pipeline hands it, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the kernel's triple applies; the invariant
    and what the core owes pass through unread. -/
theorem body_triple0 (c : Dev nD) (t : Fin cfg0.N) :
    pre0 V c t ⊢ wp frame (wpE (defs₀ (F := F)) Variants.none c none) Set.univ (bodyAt0 t) (fun _ => post0 V c t) := by
  unfold pre0 post0 bodyAt0
  simp only [held0_0, held0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (kernel_triple0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation at every point. -/
theorem body_obligation0 (c : Dev nD) : BodyObligation (dat0 (F := F) V c) (defs₀ (F := F)) Variants.none () Set.univ := fun t => by
  rw [bigSep_W0, bigSep_W0]
  exact body_triple0 V c t

end Cert.KernelIdeal.Hand

end
-- ==== Proof.KI.Reg1.lean ====
/-
  Region 1 of the program: bias, rectifier and matrix product, fused. At each of the 8 grid points the body reads a
  block of 6272 rows of the (padded) aggregated features, the 1 x 128 bias row and the whole 128 x 128 weight, and
  stores max(block + bias, 0) times the weight over the output block. Stated here: what each window's staging
  buffer holds after the body at a point, as a function of the blocks the point reads; the pipeline's proof data over
  the contents the region is entered with; and the body's obligation at every point.
-/
import proofs.«416386_j58171037057469_1_alg».proof.Proof.Gen.KernelIdeal.Launch
import proofs.«416386_j58171037057469_1_alg».proof.Proof.Gen.KernelIdeal.Skeleton
import proofs.«416386_j58171037057469_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rA1 : Rect S6272x128 := Rect.unit (s := S6272x128) ![0, 0] S6272x128.size inb_S6272x128_S6272x128_0_0
abbrev rB1 : Rect S1x128 := Rect.unit (s := S1x128) ![0, 0] S1x128.size inb_S1x128_S1x128_0_0
abbrev rW1 : Rect S128x128 := Rect.unit (s := S128x128) ![0, 0] S128x128.size inb_S128x128_S128x128_0_0

/-- The output block after the body: the one store, over the whole block. -/
def out1_3 (x0 : Vec F S6272x128 .f32) (x1 : Vec F S1x128 .f32) (x2 : Vec F S128x128 .bf16) : Vec F S6272x128 .f32 :=
  View.canon [⟨rA1, k1_pay1 (View.ld x0 rA1) (View.ld x1 rB1) (View.ld x2 rW1)⟩]

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-! ## Each input's staging buffer at a point -/

/-- Input window 0's current staging buffer holds its block at every point, for any proof data over the entry
    arrays whose body leaves the block in place: where the window is fetched the fetch puts the block there, and
    where it is not the block index has not moved since the last fetch. The window is uncut and never idle. -/
theorem held1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the bias row, block index constant over the grid, fetched at the first point only) holds its
    block at every point, by the same law: past the first point the index has not moved. -/
theorem held1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the whole weight, block index constant over the grid, fetched at the first point only) holds
    its block at every point, by the same law. -/
theorem held1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem held1_0 (c : Dev nD) (t : Fin cfg1.N) (d) : (dat1 V c).before 0 t d = iblk1 V c 0 t :=
  held1_0_of V (dat1 V c) (A_eq1 V c 0) (after1_0 V c) t d
theorem held1_1 (c : Dev nD) (t : Fin cfg1.N) (d) : (dat1 V c).before 1 t d = iblk1 V c 1 t :=
  held1_1_of V (dat1 V c) (A_eq1 V c 1) (after1_1 V c) t d
theorem held1_2 (c : Dev nD) (t : Fin cfg1.N) (d) : (dat1 V c).before 2 t d = iblk1 V c 2 t :=
  held1_2_of V (dat1 V c) (A_eq1 V c 2) (after1_2 V c) t d

/-! ## The one store covers the output block -/

/-- The store's rectangle is the whole block: every index of the block lies in it. -/
theorem whole1_3 (p0 : Vec F S6272x128 .f32) (y : S6272x128.Idx) :
    ∃ pc ∈ ([⟨rA1, p0⟩] : List (View.Piece (Elt F) S6272x128 .f32)), y ∈ pc.1.set :=
  View.cover_of_tiled [⟨rA1, p0⟩] S6272x128.size (by rfl) y

/-! ## The body's triple -/

set_option maxHeartbeats 1000000 in
/-- The kernel function on whole staging memrefs, the three inputs' at contents `x0`, `x1`, `x2` and the
    output's at anything, runs to the continuation with the inputs' as they were and the output's at
    `out1_3 x0 x1 x2`: three loads of whole blocks, a load of the output block whose value is not used, and one
    store over the whole output block. The grid coordinate is not read. -/
theorem kernel_triple1 (c : Dev nD) (E : Set ℕ) (i : grid1.Coords)
    (arg1 : Memref sig .tc .vmem S6272x128 .f32) (harg1 : arg1.IsWhole)
    (arg2 : Memref sig .tc .vmem S1x128 .f32) (harg2 : arg2.IsWhole)
    (arg3 : Memref sig .tc .vmem S128x128 .bf16) (harg3 : arg3.IsWhole)
    (arg4 : Memref sig .tc .vmem S6272x128 .f32) (harg4 : arg4.IsWhole)
    (x0 : Vec F S6272x128 .f32) (x1 : Vec F S1x128 .f32) (x2 : Vec F S128x128 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__bias_relu_matmul_kernel i arg1 harg1 arg2 harg2 arg3 harg3 arg4 harg4) K := by
  simp only [cc1__bias_relu_matmul_kernel_eq_skeleton]; unfold cc1__bias_relu_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (whole1_3 _)

/-! ## The body obligation, at a generic point -/

/-- What the body is called with at point `t`: the invariant, what the core owes, and each window's current
    staging memref at what the pipeline hands it, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the kernel's triple applies; the invariant
    and what the core owes pass through unread. -/
theorem body_triple1 (c : Dev nD) (t : Fin cfg1.N) :
    pre1 V c t ⊢ wp frame (wpE (defs₀ (F := F)) Variants.none c none) Set.univ (bodyAt1 t) (fun _ => post1 V c t) := by
  unfold pre1 post1 bodyAt1
  simp only [held1_0, held1_1, held1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (kernel_triple1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation at every point. -/
theorem body_obligation1 (c : Dev nD) : BodyObligation (dat1 (F := F) V c) (defs₀ (F := F)) Variants.none () Set.univ := fun t => by
  rw [bigSep_W1, bigSep_W1]
  exact body_triple1 V c t

end Cert.KernelIdeal.Hand

end
-- ==== Proof.KI.Reg2.lean ====
/-
  Region 2 of the program: the pooled sums, accumulated over the 8 grid points in a scratch buffer that the body
  carries from point to point. At point 0 the body first clears the scratch; at every point it adds, to the
  scratch, the product (contracted over the 6272 rows of the block) of the one-hot block with (feature block + bias);
  at the last point it copies the scratch into the output block, which is written back once, there.
  Stated here: the scratch's contents after each point as a recursion over the points (`acc2`), the pipeline's proof
  data (whose invariant holds the scratch at `acc2` of the point before), and the body's obligation at every point.
-/
import proofs.«416386_j58171037057469_1_alg».proof.Proof.Gen.KernelIdeal.Launch
import proofs.«416386_j58171037057469_1_alg».proof.Proof.Gen.KernelIdeal.Skeleton
import proofs.«416386_j58171037057469_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rA2 : Rect S6272x128 := Rect.unit (s := S6272x128) ![0, 0] S6272x128.size inb_S6272x128_S6272x128_0_0
abbrev rB2 : Rect S1x128 := Rect.unit (s := S1x128) ![0, 0] S1x128.size inb_S1x128_S1x128_0_0
abbrev rH2 : Rect S6272x64 := Rect.unit (s := S6272x64) ![0, 0] S6272x64.size inb_S6272x64_S6272x64_0_0
abbrev rO2 : Rect S64x128 := Rect.unit (s := S64x128) ![0, 0] S64x128.size inb_S64x128_S64x128_0_0

/-- The cleared scratch (point 0, before the accumulation). -/
def zero2 : Vec F S64x128 .f32 := View.canon [⟨rO2, k2_pay1 (F := F)⟩]

/-- One point's accumulation: the scratch `acc` plus this point's contribution. -/
def step2 (x0 : Vec F S6272x128 .f32) (x1 : Vec F S1x128 .f32) (x2 : Vec F S6272x64 .bf16) (acc : Vec F S64x128 .f32) :
    Vec F S64x128 .f32 :=
  View.canon [⟨rO2, k2_pay2 (View.ld x0 rA2) (View.ld x1 rB2) (View.ld x2 rH2) (View.ld acc rO2)⟩]

/-- The scratch's contents after point `n`. -/
def acc2 (c : Dev nD) : (n : ℕ) → n < cfg2.N → Vec F S64x128 .f32
  | 0, h => step2 (iblk2 V c 0 ⟨0, h⟩) (iblk2 V c 1 ⟨0, h⟩) (iblk2 V c 2 ⟨0, h⟩) zero2
  | n + 1, h => step2 (iblk2 V c 0 ⟨n + 1, h⟩) (iblk2 V c 1 ⟨n + 1, h⟩) (iblk2 V c 2 ⟨n + 1, h⟩) (acc2 c n (by omega))

/-! ## The recursion, point by point -/

theorem acc2_zero (c : Dev nD) (h : 0 < cfg2.N) :
    acc2 V c 0 h = step2 (iblk2 V c 0 ⟨0, h⟩) (iblk2 V c 1 ⟨0, h⟩) (iblk2 V c 2 ⟨0, h⟩) zero2 := by
  rw [acc2]
theorem acc2_succ (c : Dev nD) (n : ℕ) (h : n + 1 < cfg2.N) :
    acc2 V c (n + 1) h = step2 (iblk2 V c 0 ⟨n + 1, h⟩) (iblk2 V c 1 ⟨n + 1, h⟩) (iblk2 V c 2 ⟨n + 1, h⟩) (acc2 V c n (Nat.lt_of_succ_lt h)) := by
  rw [acc2]

/-- At the first point the accumulation starts from the cleared scratch; -/
theorem acc2_first (c : Dev nD) (t : Fin cfg2.N) (h0 : t.val % 8 = 0) :
    acc2 V c t.val t.isLt = step2 (iblk2 V c 0 t) (iblk2 V c 1 t) (iblk2 V c 2 t) zero2 := by
  obtain ⟨n, hn⟩ := t
  have hN : n < 8 := lt_of_lt_of_eq hn (show cfg2.N = 8 from N_2)
  obtain rfl : n = 0 := by dsimp only at h0; omega
  exact acc2_zero V c hn
/-- at a later point from what the point before left. -/
theorem acc2_later (c : Dev nD) (t : Fin cfg2.N) (h0 : ¬t.val % 8 = 0) :
    acc2 V c t.val t.isLt = step2 (iblk2 V c 0 t) (iblk2 V c 1 t) (iblk2 V c 2 t)
      (acc2 V c (t.val - 1) (Nat.lt_of_le_of_lt (Nat.sub_le _ _) t.isLt)) := by
  obtain ⟨n, hn⟩ := t
  cases n with
  | zero => exact absurd (Nat.zero_mod _) h0
  | succ n => exact acc2_succ V c n hn

/-! ## The body's two conditionals, from the grid coordinates -/

/-- The literal zero offsets are the zero function. -/
theorem hz2 : (![0, 0] : Fin 2 → ℕ) = fun _ => 0 := by funext a; fin_cases a <;> rfl

/-- The first conditional's test (the coordinate is 0): -/
abbrev cond2_0 (i : grid2.Coords) : Prop := (Scalar.cmpi .ne (Scalar.extui (Scalar.cmpi .eq (BitVec.ofNat 32 (i 0).val) 0#32)) 0#32) = 1#1
/-- it holds at point 0 only. -/
theorem hcond2_0 : ∀ t : Fin cfg2.N, cond2_0 (grid2.coords t) ↔ t.val % 8 = 0 :=
  (by decide +kernel : ∀ t : Fin grid2.N, cond2_0 (grid2.coords t) ↔ t.val % 8 = 0)
/-- The second conditional's test (the coordinate is 7): -/
abbrev cond2_1 (i : grid2.Coords) : Prop := k2_cond2 i = 1#1
/-- it holds at point 7 only. -/
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- The output window is idle at every point but the last, and not written back there; -/
theorem idleAt2_3 : ∀ t : Fin cfg2.N, ¬t.val % 8 = 7 → cfg2.idle 3 (grid2.coords t) = true := by decide +kernel
theorem noFlush2_3 : ∀ t : Fin cfg2.N, ¬t.val % 8 = 7 → (cfg2.win 3).flush t = false := by decide +kernel
/-- at the last it is live. -/
theorem liveAt2_3 : ∀ t : Fin cfg2.N, t.val % 8 = 7 → cfg2.idle 3 (grid2.coords t) = false := by decide +kernel

/-! ## The staging memrefs and the scratch -/

abbrev ms2_0 (t : Fin cfg2.N) : Memref sig .tc .vmem S6272x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S6272x64 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S64x128 .f32 := win2_3.stage (cfg2.slots t 3)
abbrev hs2_3 (t : Fin cfg2.N) : (ms2_3 t).IsWhole := hstage2_3 ((cfg2.slots t 3).cast nbuf2_3)
/-- The scratch operand: a whole scoped buffer of the kernel's own, passed beside the windows. -/
abbrev scM2 : Memref sig .tc .vmem S64x128 .f32 := Memref.whole cc2_scratch0

/-! ## The body on any whole memrefs, case by case -/

set_option maxHeartbeats 1000000 in
/-- At point 0: the scratch, at anything, is cleared and then holds the first accumulation; the output's buffer is
    handed back untouched. -/
theorem run2_A (c : Dev nD) (i : grid2.Coords)
    (arg1 : Memref sig .tc .vmem S6272x128 .f32) (harg1 : arg1.IsWhole) (arg2 : Memref sig .tc .vmem S1x128 .f32) (harg2 : arg2.IsWhole)
    (arg3 : Memref sig .tc .vmem S6272x64 .bf16) (harg3 : arg3.IsWhole) (arg4 : Memref sig .tc .vmem S64x128 .f32) (harg4 : arg4.IsWhole)
    (arg5 : Memref sig .tc .vmem S64x128 .f32) (harg5 : arg5.IsWhole) (hc0 : cond2_0 i) (hc1 : ¬cond2_1 i)
    (x0 : Vec F S6272x128 .f32) (x1 : Vec F S1x128 .f32) (x2 : Vec F S6272x64 .bf16) (xi : Vec F S64x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare xi ∗ owns (c : Thread nD τ) arg5 fullShare (step2 x0 x1 x2 zero2)) -∗ K ⟨⟩))
      ⊢ wp frame (wpE (defs₀ (F := F)) Variants.none c none) E (cc2__pool_kernel i arg1 harg1 arg2 harg2 arg3 harg3 arg4 harg4 arg5 harg5) K := by
  simp only [cc2__pool_kernel_eq_skeleton]; unfold cc2__pool_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_words
  rw [View.read_writes_eq_canon _ _ _ (fun y => ⟨_, List.mem_cons_self, View.mem_set_unit_zero hz2 inb_S64x128_S64x128_0_0 y⟩)]
  unfold step2 zero2
  simp only [View.canon_cons_unit_zero (S := S64x128) hz2, View.canon_unit_zero (S := S64x128) hz2, View.readAt_eq_ld,
    View.readCov_unit_zero (S := S64x128) _ hz2, View.ld_unit_zero (S := S64x128) hz2]

set_option maxHeartbeats 1000000 in
/-- At points 1 to 6: the scratch, at what the point before left, holds one more accumulation; the output's buffer is
    handed back untouched. -/
theorem run2_B (c : Dev nD) (i : grid2.Coords)
    (arg1 : Memref sig .tc .vmem S6272x128 .f32) (harg1 : arg1.IsWhole) (arg2 : Memref sig .tc .vmem S1x128 .f32) (harg2 : arg2.IsWhole)
    (arg3 : Memref sig .tc .vmem S6272x64 .bf16) (harg3 : arg3.IsWhole) (arg4 : Memref sig .tc .vmem S64x128 .f32) (harg4 : arg4.IsWhole)
    (arg5 : Memref sig .tc .vmem S64x128 .f32) (harg5 : arg5.IsWhole) (hc0 : ¬cond2_0 i) (hc1 : ¬cond2_1 i)
    (x0 : Vec F S6272x128 .f32) (x1 : Vec F S1x128 .f32) (x2 : Vec F S6272x64 .bf16) (xi : Vec F S64x128 .f32) (xs : Vec F S64x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare xi ∗ owns (c : Thread nD τ) arg5 fullShare (step2 x0 x1 x2 xs)) -∗ K ⟨⟩))
      ⊢ wp frame (wpE (defs₀ (F := F)) Variants.none c none) E (cc2__pool_kernel i arg1 harg1 arg2 harg2 arg3 harg3 arg4 harg4 arg5 harg5) K := by
  simp only [cc2__pool_kernel_eq_skeleton]; unfold cc2__pool_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_words
  rw [View.read_writes_eq_canon _ _ _ (fun y => ⟨_, List.mem_cons_self, View.mem_set_unit_zero hz2 inb_S64x128_S64x128_0_0 y⟩)]
  unfold step2
  simp only [View.canon_cons_unit_zero (S := S64x128) hz2, View.canon_unit_zero (S := S64x128) hz2, View.readAt_eq_ld,
    View.readCov_unit_zero (S := S64x128) _ hz2, View.ld_unit_zero (S := S64x128) hz2]

set_option maxHeartbeats 1000000 in
/-- At point 7: the scratch holds one more accumulation, and the output's buffer, at anything, a copy of it. -/
theorem run2_C (c : Dev nD) (i : grid2.Coords)
    (arg1 : Memref sig .tc .vmem S6272x128 .f32) (harg1 : arg1.IsWhole) (arg2 : Memref sig .tc .vmem S1x128 .f32) (harg2 : arg2.IsWhole)
    (arg3 : Memref sig .tc .vmem S6272x64 .bf16) (harg3 : arg3.IsWhole) (arg4 : Memref sig .tc .vmem S64x128 .f32) (harg4 : arg4.IsWhole)
    (arg5 : Memref sig .tc .vmem S64x128 .f32) (harg5 : arg5.IsWhole) (hc0 : ¬cond2_0 i) (hc1 : cond2_1 i)
    (x0 : Vec F S6272x128 .f32) (x1 : Vec F S1x128 .f32) (x2 : Vec F S6272x64 .bf16) (xs : Vec F S64x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (step2 x0 x1 x2 xs) ∗ owns (c : Thread nD τ) arg5 fullShare (step2 x0 x1 x2 xs)) -∗ K ⟨⟩))
      ⊢ wp frame (wpE (defs₀ (F := F)) Variants.none c none) E (cc2__pool_kernel i arg1 harg1 arg2 harg2 arg3 harg3 arg4 harg4 arg5 harg5) K := by
  simp only [cc2__pool_kernel_eq_skeleton]; unfold cc2__pool_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [View.read_writes_eq_canon _ _ _ (fun y => ⟨_, List.mem_cons_self, View.mem_set_unit_zero hz2 inb_S64x128_S64x128_0_0 y⟩)]
    unfold step2
    simp only [View.canon_cons_unit_zero (S := S64x128) hz2, View.canon_unit_zero (S := S64x128) hz2, View.readAt_eq_ld,
    View.readCov_unit_zero (S := S64x128) _ hz2, View.ld_unit_zero (S := S64x128) hz2]
  iexists _; isplitr
  swap; · iexact HS
  ipureintro
  sl_unfold_words
  rw [View.read_writes_eq_canon _ _ _ (fun y => ⟨_, List.mem_cons_self, View.mem_set_unit_zero hz2 inb_S64x128_S64x128_0_0 y⟩)]
  unfold step2
  simp only [View.canon_cons_unit_zero (S := S64x128) hz2, View.canon_unit_zero (S := S64x128) hz2, View.readAt_eq_ld,
    View.readCov_unit_zero (S := S64x128) _ hz2, View.ld_unit_zero (S := S64x128) hz2]

/-! ## The invariant -/

/-- The core's scoped buffers that are neither a staging buffer of this region nor its scratch, each whole at some
    contents: nothing here reads or writes them. -/
def rest2 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg3_1), ((c : Thread nD τ).loc cc1_stg3_1) ↦{fullShare} f))

/-- The class's plain invariant, with the scratch set apart as a memref owned at some contents. -/
theorem PhiA2_eq (c : Dev nD) :
    (Pipeline.ΦA spec2 c : sProp 𝕄)
      = iprop((rest2 (F := F) c ∗ (∃ d, owns (c : Thread nD τ) scM2 fullShare d)) ∗ (∃ r, prngReg c r)) := by
  unfold Pipeline.ΦA rest2; rw [scopedRest2_eq]; simp only [scM2, owns_whole]
  refine BI.equiv_iff.mp ⟨?_, ?_⟩
  · show (_ : sProp 𝕄) ⊢ (_ : sProp 𝕄)
    iintro ⟨⟨R0, R1, R2, R3, R4, R5, R6, R7, R8, R9, R10, HS⟩, Hg⟩
    isplitr [Hg]
    · isplitr [HS]
      · isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        iexact R10
      · iexact HS
    · iexact Hg
  · show (_ : sProp 𝕄) ⊢ (_ : sProp 𝕄)
    iintro ⟨⟨⟨R0, R1, R2, R3, R4, R5, R6, R7, R8, R9, R10⟩, HS⟩, Hg⟩
    isplitr [Hg]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      iexact HS
    · iexact Hg

/-- The invariant before position `n`: before the first point the class's plain one (the scratch at anything);
    afterwards the scratch at what the point before left in it, beside the other scoped buffers and the generator
    register at some state. -/
def Phi2 (c : Dev nD) : (n : ℕ) → n ≤ cfg2.N → sProp 𝕄
  | 0, _ => Pipeline.ΦA spec2 c
  | n + 1, hn => iprop((rest2 (F := F) c ∗ owns (c : Thread nD τ) scM2 fullShare (acc2 V c n hn)) ∗ (∃ r, prngReg c r))

theorem Phi2_at_zero (c : Dev nD) (n : ℕ) (h : n ≤ cfg2.N) (hz : n = 0) : Phi2 V c n h = Pipeline.ΦA spec2 c := by
  subst hz; rfl
theorem Phi2_succ (c : Dev nD) (n : ℕ) (hn : n < cfg2.N) :
    Phi2 V c (n + 1) hn = iprop((rest2 (F := F) c ∗ owns (c : Thread nD τ) scM2 fullShare (acc2 V c n hn)) ∗ (∃ r, prngReg c r)) := rfl
theorem Phi2_pos (c : Dev nD) (n : ℕ) (h : n ≤ cfg2.N) (hz : n ≠ 0) :
    Phi2 V c n h = iprop((rest2 (F := F) c ∗ owns (c : Thread nD τ) scM2 fullShare (acc2 V c (n - 1) (by omega))) ∗ (∃ r, prngReg c r)) := by
  cases n with
  | zero => exact absurd rfl hz
  | succ n => rfl

/-! ## The pipeline's proof data -/

/-- The proof data of pipeline 2 on core `c`: the arrays as the region finds them; after the body at a point each
    input's buffer at its block, the output's at the scratch's contents there (what the last point copies into it;
    at the other points the window is idle and this is not consulted); the invariant carrying the scratch; nothing
    owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => acc2 V c t.val t.isLt
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = acc2 V c t.val t.isLt := by dsimp only [dat2]
/-- What the output window's staging buffer holds after the last point: the scratch after it. -/
theorem after2_3_last (c : Dev nD) : (dat2 V c).after 3 t2_7 = acc2 V c 7 (by rw [show cfg2.N = grid2.N from rfl, N_2]; decide) := by
  rw [after2_3]; rfl

/-- The invariant at any position, restated at its number. -/
theorem Phi2_at (c : Dev nD) (t : Fin (cfg2.N + 1)) : (dat2 (F := F) V c).Φ t = Phi2 V c t.val (Nat.le_of_lt_succ t.isLt) := by
  dsimp only [dat2]
theorem Phi2_castSucc (c : Dev nD) (t : Fin cfg2.N) : (dat2 (F := F) V c).Φ t.castSucc = Phi2 V c t.val (Nat.le_of_lt t.isLt) := by
  dsimp only [dat2]; simp only [Fin.coe_castSucc]

/-- The invariant before the first point is the class's plain one. -/
theorem Phi2_zero (c : Dev nD) : (dat2 (F := F) V c).Φ 0 = Pipeline.ΦA spec2 c := by
  rw [Phi2_at]; exact Phi2_at_zero V c _ _ rfl
/-- The invariant after the last point gives the plain one back (the scratch's contents forgotten). -/
theorem Phi2_last (c : Dev nD) : (dat2 (F := F) V c).Φ (Fin.last cfg2.N) ⊢ (Pipeline.ΦA spec2 c : sProp 𝕄) := by
  rw [Phi2_at, Phi2_pos V c _ _ (by rw [Fin.val_last]; have : cfg2.N = 8 := N_2; omega), PhiA2_eq]
  iintro ⟨⟨HR, HS⟩, Hg⟩
  isplitl [HR HS]
  · isplitl [HR]; · iexact HR
    iexists _; iexact HS
  iexact Hg
theorem q2 (c : Dev nD) (w : Fin cfg2.W) : (dat2 (F := F) V c).q w = fullShare := by
  dsimp only [dat2]
theorem owed2 (c : Dev nD) (t : Fin (cfg2.N + 1)) : (dat2 (F := F) V c).owed t = 0 := by
  dsimp only [dat2]

/-! ## What the body finds in the input windows' buffers -/

/-- Each input's current staging buffer holds its block at every point, fetched there or not: unfetched, the block
    index has not moved. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

/-- An input window, never idle, is left at its block. -/
theorem leaves2_0 (c : Dev nD) (t : Fin cfg2.N) :
    (dat2 V c).leavesExact 0 t = owns (c : Thread nD τ) (ms2_0 t) fullShare (iblk2 V c 0 t) := by
  rw [show (dat2 V c).leavesExact 0 t = owns (c : Thread nD τ) (ms2_0 t) fullShare ((dat2 V c).after 0 t) from by
    unfold Dat.leavesExact; rw [liveAt2_0 t], after2_0]
theorem leaves2_1 (c : Dev nD) (t : Fin cfg2.N) :
    (dat2 V c).leavesExact 1 t = owns (c : Thread nD τ) (ms2_1 t) fullShare (iblk2 V c 1 t) := by
  rw [show (dat2 V c).leavesExact 1 t = owns (c : Thread nD τ) (ms2_1 t) fullShare ((dat2 V c).after 1 t) from by
    unfold Dat.leavesExact; rw [liveAt2_1 t], after2_1]
theorem leaves2_2 (c : Dev nD) (t : Fin cfg2.N) :
    (dat2 V c).leavesExact 2 t = owns (c : Thread nD τ) (ms2_2 t) fullShare (iblk2 V c 2 t) := by
  rw [show (dat2 V c).leavesExact 2 t = owns (c : Thread nD τ) (ms2_2 t) fullShare ((dat2 V c).after 2 t) from by
    unfold Dat.leavesExact; rw [liveAt2_2 t], after2_2]

set_option maxHeartbeats 4800000 in
/-- The body at any point. The inputs' memrefs hold their blocks; the point's number says which case it is in. At
    point 0 the invariant is the plain one and hands the scratch at anything; afterwards it hands the scratch at what
    the point before left. The invariant takes the scratch back at this point's accumulation (the recursion's equation
    at the point). The output's buffer is handed back as found except at the last point, where it holds the copy of
    the scratch; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = Phi2 V c (t.val + 1) t.isLt from rfl, Phi2_succ]
  rw [leaves2_0, leaves2_1, leaves2_2]
  have hN : t.val < 8 := lt_of_lt_of_eq t.isLt (show cfg2.N = 8 from N_2)
  by_cases h0 : t.val % 8 = 0
  · -- point 0
    have h1 : ¬t.val % 8 = 7 := by omega
    have hz : t.val = 0 := by omega
    rw [Dat.leavesExact_idle (dat2 V c) 3 t (idleAt2_3 t h1) (noFlush2_3 t h1)]
    rw [acc2_first V c t h0]
    rw [Phi2_castSucc V c t, Phi2_at_zero V c _ _ hz, PhiA2_eq]
    iintro ⟨⟨⟨HR, ⟨%ds, HS⟩⟩, Hg⟩, Ho, ⟨%d0, H0⟩, ⟨%d1, H1⟩, ⟨%d2, H2⟩, ⟨%d3, H3⟩⟩
    iapply (run2_A c (grid2.coords t) _ _ _ _ _ _ _ _ _ _ ((hcond2_0 t).mpr h0) (fun h => h1 ((hcond2_1 t).mp h))
      (iblk2 V c 0 t) (iblk2 V c 1 t) (iblk2 V c 2 t) ((dat2 V c).before 3 t d3) Set.univ _)
    isplitl [H0]; · iexact H0
    isplitl [H1]; · iexact H1
    isplitl [H2]; · iexact H2
    isplitl [H3]; · iexact H3
    isplitl [HS]; · iexists _; iexact HS
    iintro ⟨H0, H1, H2, H3, HS⟩
    isplitl [HR HS Hg]
    · isplitl [HR HS]
      · isplitl [HR]; · iexact HR
        iexact HS
      iexact Hg
    isplitl [Ho]; · iexact Ho
    isplitl [H0]; · iexact H0
    isplitl [H1]; · iexact H1
    isplitl [H2]; · iexact H2
    iexists _; iexact H3
  · have hz : t.val ≠ 0 := by omega
    by_cases h1 : t.val % 8 = 7
    · -- point 7
      rw [show (dat2 V c).leavesExact 3 t = owns (c : Thread nD τ) (ms2_3 t) fullShare ((dat2 V c).after 3 t) from by
        unfold Dat.leavesExact; rw [liveAt2_3 t h1], after2_3]
      rw [acc2_later V c t h0]
      rw [Phi2_castSucc V c t, Phi2_pos V c _ _ hz]
      iintro ⟨⟨⟨HR, HS⟩, Hg⟩, Ho, ⟨%d0, H0⟩, ⟨%d1, H1⟩, ⟨%d2, H2⟩, ⟨%d3, H3⟩⟩
      iapply (run2_C c (grid2.coords t) _ _ _ _ _ _ _ _ _ _ (fun h => h0 ((hcond2_0 t).mp h)) ((hcond2_1 t).mpr h1)
        (iblk2 V c 0 t) (iblk2 V c 1 t) (iblk2 V c 2 t) (acc2 V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HR HS Hg]
      · isplitl [HR HS]
        · isplitl [HR]; · iexact HR
          iexact HS
        iexact Hg
      isplitl [Ho]; · iexact Ho
      isplitl [H0]; · iexact H0
      isplitl [H1]; · iexact H1
      isplitl [H2]; · iexact H2
      iexact H3
    · -- points 1 to 6
      rw [Dat.leavesExact_idle (dat2 V c) 3 t (idleAt2_3 t h1) (noFlush2_3 t h1)]
      rw [acc2_later V c t h0]
      rw [Phi2_castSucc V c t, Phi2_pos V c _ _ hz]
      iintro ⟨⟨⟨HR, HS⟩, Hg⟩, Ho, ⟨%d0, H0⟩, ⟨%d1, H1⟩, ⟨%d2, H2⟩, ⟨%d3, H3⟩⟩
      iapply (run2_B c (grid2.coords t) _ _ _ _ _ _ _ _ _ _ (fun h => h0 ((hcond2_0 t).mp h)) (fun h => h1 ((hcond2_1 t).mp h))
        (iblk2 V c 0 t) (iblk2 V c 1 t) (iblk2 V c 2 t) ((dat2 V c).before 3 t d3) (acc2 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HR HS Hg]
      · isplitl [HR HS]
        · isplitl [HR]; · iexact HR
          iexact HS
        iexact Hg
      isplitl [Ho]; · iexact Ho
      isplitl [H0]; · iexact H0
      isplitl [H1]; · iexact H1
      isplitl [H2]; · iexact H2
      iexists _; iexact H3

/-- The body's obligation at every point. -/
theorem body_obligation2 (c : Dev nD) : BodyObligation (dat2 (F := F) V c) (defs₀ (F := F)) Variants.none () Set.univ := by
  intro t
  rw [bigSep_W2, bigSep_W2]
  exact sound_body2 V c t

end Cert.KernelIdeal.Hand

end
-- ==== Proof.KI.Outs.lean ====
/-
  What the three kernel regions leave in their output arrays, as definitions over the launch memory: region 0's
  product array, region 1's, and region 2's pooled sums, each the array its pipeline's write-backs leave (the
  proof data's array after the last point) over the contents the region is entered with; and the family of
  "contents the regions leave" assembled from them, over which the buffers' contents between @main's items are stated.
-/
import proofs.«416386_j58171037057469_1_alg».proof.Proof.KI.Reg0
import proofs.«416386_j58171037057469_1_alg».proof.Proof.KI.Reg1
import proofs.«416386_j58171037057469_1_alg».proof.Proof.KI.Reg2
import proofs.«416386_j58171037057469_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

/-- A family of contents the regions leave, from one array per region (any other reference: its launch contents). -/
def outsOf (a : (c : Dev nD) → Buf (Elt F) ((c : Thread nD τ).loc main_v33))
    (b : (c : Dev nD) → Buf (Elt F) ((c : Thread nD τ).loc main_v50))
    (d : (c : Dev nD) → Buf (Elt F) ((c : Thread nD τ).loc main_v78)) : Outs (F := F) :=
  fun _ r c =>
    if h : r = main_v33 then h ▸ a c
    else if h : r = main_v50 then h ▸ b c
    else if h : r = main_v78 then h ▸ d c
    else V0 m c r

theorem outsOf_v33 (a b d) (n : ℕ) (c : Dev nD) : outsOf m a b d n main_v33 c = a c := by
  unfold outsOf; rw [dif_pos rfl]
theorem outsOf_v50 (a b d) (n : ℕ) (c : Dev nD) : outsOf m a b d n main_v50 c = b c := by
  unfold outsOf; rw [dif_neg (by decide), dif_pos rfl]
theorem outsOf_v78 (a b d) (n : ℕ) (c : Dev nD) : outsOf m a b d n main_v78 c = d c := by
  unfold outsOf; rw [dif_neg (by decide), dif_neg (by decide), dif_pos rfl]

/-- The buffers' contents when region 0 is entered, read at the TensorCore's references. -/
abbrev VR5 : (c : Dev nD) → (b : Ref sig .tc) → Buf (Elt F) ((c : Thread nD τ).loc b) := fun c b => V5 m c b
/-- Region 0's output array after the region. -/
def o6 (c : Dev nD) : Buf (Elt F) ((c : Thread nD τ).loc main_v33) := (dat0 (VR5 m) c).arrAt 2 cfg0.N

/-- The buffers' contents when region 1 is entered (they depend on region 0's output only). -/
abbrev VR9 : (c : Dev nD) → (b : Ref sig .tc) → Buf (Elt F) ((c : Thread nD τ).loc b) :=
  fun c b => V9 m (outsOf m (o6 m) (fun c => V0 m c main_v50) (fun c => V0 m c main_v78)) c b
/-- Region 1's output array after the region. -/
def o10 (c : Dev nD) : Buf (Elt F) ((c : Thread nD τ).loc main_v50) := (dat1 (VR9 m) c).arrAt 3 cfg1.N

/-- The buffers' contents when region 2 is entered (they depend on the first two regions' outputs only). -/
abbrev VR15 : (c : Dev nD) → (b : Ref sig .tc) → Buf (Elt F) ((c : Thread nD τ).loc b) :=
  fun c b => V15 m (outsOf m (o6 m) (o10 m) (fun c => V0 m c main_v78)) c b
/-- Region 2's output array after the region. -/
def o16 (c : Dev nD) : Buf (Elt F) ((c : Thread nD τ).loc main_v78) := (dat2 (VR15 m) c).arrAt 3 cfg2.N

/-- What the regions leave. -/
def outsK : Outs (F := F) := outsOf m (o6 m) (o10 m) (o16 m)

theorem outsK_v33 (n : ℕ) (c : Dev nD) : outsK m n main_v33 c = o6 m c := outsOf_v33 m _ _ _ n c
theorem outsK_v50 (n : ℕ) (c : Dev nD) : outsK m n main_v50 c = o10 m c := outsOf_v50 m _ _ _ n c
theorem outsK_v78 (n : ℕ) (c : Dev nD) : outsK m n main_v78 c = o16 m c := outsOf_v78 m _ _ _ n c

/-- The contents region 1 is entered with do not depend on what the later regions leave. -/
theorem V9_outsK (c : Dev nD) : V9 m (outsK m) c = V9 m (outsOf m (o6 m) (fun c => V0 m c main_v50) (fun c => V0 m c main_v78)) c := by
  dsimp only [V9, V8, V7, V6]
  rw [outsK_v33, outsOf_v33]
/-- The contents region 2 is entered with do not depend on what region 2 leaves. -/
theorem V15_outsK (c : Dev nD) : V15 m (outsK m) c = V15 m (outsOf m (o6 m) (o10 m) (fun c => V0 m c main_v78)) c := by
  dsimp only [V15, V14, V13, V12, V11, V10, V9, V8, V7, V6]
  rw [outsK_v33, outsK_v50, outsOf_v33, outsOf_v50]

end Cert.KernelIdeal.Hand

end
-- ==== Proof.KI.Run.lean ====
/-
  The run of the whole program: each kernel region as a segment of @main over the thread state "every unscoped buffer
  at the boundary's contents, the generator register at some state, nothing owed" (its arrays split out of the unscoped
  buffers at entry and put back at the exit contents; region 2's invariant carries its scratch between points and gives
  the plain one back at the end), and the launch over all of @main's items: every weakly fair execution terminates with
  the result buffer at the last boundary's contents and the arguments unchanged.
-/
import proofs.«416386_j58171037057469_1_alg».proof.Proof.KI.Outs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The launch with the result named -/

set_option backward.isDefEq.respectTransparency.types false in
set_option backward.isDefEq.respectTransparency.types false in
/-- The launch over @main's items with the result named: for any rest states the launch makes on every core and that end owing
    nothing, any contents the regions leave and any proof data, given per region a segment record entered from the thread
    state before it and left at the one after it, every weakly fair execution of @main from memory `m` with zero counters
    terminates, and every final memory holds the result buffer at the last boundary's contents and each argument as launched. -/
theorem value_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V5 m c) ∗ E 0 c) ⊢ R0.pre c)
    (hpost0 : ∀ c : Dev nD, R0.post c ⊢ iprop(StableHlo.held (c : Thread nD τ) (Pipeline.ucRefs τ sig) (V6 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V9 m outs c) ∗ E 1 c) ⊢ R1.pre c)
    (hpost1 : ∀ c : Dev nD, R1.post c ⊢ iprop(StableHlo.held (c : Thread nD τ) (Pipeline.ucRefs τ sig) (V10 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V15 m outs c) ∗ E 2 c) ⊢ R2.pre c)
    (hpost2 : ∀ c : Dev nD, R2.post c ⊢ iprop(StableHlo.held (c : Thread nD τ) (Pipeline.ucRefs τ sig) (V16 m outs c) ∗ E 3 c)) :
    θ_run defs (onTc (τ := τ) (main (F := F))) ⟨m, fun _ => 0, ρ⟩ (fun r => ∀ c : Dev nD,
      r.2.mem ((c.tc : Thread nD τ).loc main_v81) = V17 m outs c main_v81
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          StableHlo.seq hostOps2_1,
          StableHlo.seq hostOps2_2,
          StableHlo.seq hostOps2_3,
          StableHlo.seq hostOps2_4,
          Prog.lift (.customCall (Pipeline.entry 2) ()),
          StableHlo.seq hostOps3 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V17 m outs c))
    (hch := fun c => ⟨.rfl, .rfl, .rfl, .rfl, .rfl, hpre0 c, hpost0 c, .rfl, .rfl, hpre1 c, hpost1 c, .rfl, .rfl, .rfl, .rfl, hpre2 c, hpost2 c, sep_mono .rfl (hE3 c)⟩)
    (hinit := ?_) (QY := fun c s => s.mem ((c.tc : Thread nD τ).loc main_v81) = V17 m outs c main_v81 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V17 m outs c) s') $$ [Hh HSI]
    · isplitl [Hh] <;> iassumption
    icases Hr with ⟨%h, HSI⟩
    imodintro
    isplitr
    · ipureintro
      exact ⟨h (Proc.devRef .tc main_v81) (Finset.mem_filter.mpr ⟨StableHlo.devRef_mem_tcRefs main_v81, by decide⟩),
        (h (Proc.devRef .tc main_arg0) (Finset.mem_filter.mpr ⟨StableHlo.devRef_mem_tcRefs main_arg0, by decide⟩)).trans (V17_main_arg0 m outs c),
        (h (Proc.devRef .tc main_arg1) (Finset.mem_filter.mpr ⟨StableHlo.devRef_mem_tcRefs main_arg1, by decide⟩)).trans (V17_main_arg1 m outs c),
        (h (Proc.devRef .tc main_arg2) (Finset.mem_filter.mpr ⟨StableHlo.devRef_mem_tcRefs main_arg2, by decide⟩)).trans (V17_main_arg2 m outs c),
        (h (Proc.devRef .tc main_arg3) (Finset.mem_filter.mpr ⟨StableHlo.devRef_mem_tcRefs main_arg3, by decide⟩)).trans (V17_main_arg3 m outs c),
        (h (Proc.devRef .tc main_arg4) (Finset.mem_filter.mpr ⟨StableHlo.devRef_mem_tcRefs main_arg4, by decide⟩)).trans (V17_main_arg4 m outs c),
        (h (Proc.devRef .tc main_arg5) (Finset.mem_filter.mpr ⟨StableHlo.devRef_mem_tcRefs main_arg5, by decide⟩)).trans (V17_main_arg5 m outs c),
        (h (Proc.devRef .tc main_arg6) (Finset.mem_filter.mpr ⟨StableHlo.devRef_mem_tcRefs main_arg6, by decide⟩)).trans (V17_main_arg6 m outs c)⟩
    · iexact HSI

/-! ## The proof data family and the thread state -/

/-- Every pipeline's proof data, each at its region's entry contents. -/
def pdats : (p : Fin 3) → (c : Dev nD) → Dat τ (Elt F) Unit ℕ (UR sig nD τ) ℕ (cfgs p) c
  | ⟨0, _⟩ => fun c => dat0 (VR5 m) c
  | ⟨1, _⟩ => fun c => dat1 (VR9 m) c
  | ⟨2, _⟩ => fun c => dat2 (VR15 m) c

/-- No core owes another anything: no level is assigned. -/
abbrev Lev : GSem nD τ sig → Finset Unit := fun _ => ∅
abbrev lvl : GSem nD τ sig → Unit → ℕ := fun _ _ => 0
/-- What rides beside the buffers through every segment: the generator register at some state, and nothing owed. -/
abbrev Rest (c : Dev nD) : sProp 𝕄 := iprop((∃ r, prngReg c r) ∗ ∃ W, owes (c : Thread nD τ) (0 : CellTallies nD τ sig Unit) W)

/-- The buffers' contents at the regions' exits, read at the TensorCore's references. -/
abbrev VR6 : (c : Dev nD) → (b : Ref sig .tc) → Buf (Elt F) ((c : Thread nD τ).loc b) := fun c b => V6 m (outsK m) c b
abbrev VR9' : (c : Dev nD) → (b : Ref sig .tc) → Buf (Elt F) ((c : Thread nD τ).loc b) := fun c b => V9 m (outsK m) c b
abbrev VR10 : (c : Dev nD) → (b : Ref sig .tc) → Buf (Elt F) ((c : Thread nD τ).loc b) := fun c b => V10 m (outsK m) c b
abbrev VR15' : (c : Dev nD) → (b : Ref sig .tc) → Buf (Elt F) ((c : Thread nD τ).loc b) := fun c b => V15 m (outsK m) c b
abbrev VR16 : (c : Dev nD) → (b : Ref sig .tc) → Buf (Elt F) ((c : Thread nD τ).loc b) := fun c b => V16 m (outsK m) c b

theorem VR9'_eq (c : Dev nD) : VR9' m c = VR9 m c := by
  funext b; exact congrFun (V9_outsK m c) _
theorem VR15'_eq (c : Dev nD) : VR15' m c = VR15 m c := by
  funext b; exact congrFun (V15_outsK m c) _

/-! ## Region 0 -/

set_option maxHeartbeats 4000000 in
/-- At region 0's exit each of its arrays holds what the pipeline leaves: an input array what it held at entry, the output
    array what the write-backs left. -/
theorem hF0 (c : Dev nD) : ∀ w : Fin cfg0.W, (pdats m 0 c).arrAt w cfg0.N = VR6 m c (Pipeline.arrRef spec0 w)
  | ⟨0, _⟩ => by
    show (dat0 (VR5 m) c).arrAt 0 cfg0.N = V6 m (outsK m) c main_v31
    rw [(dat0 (VR5 m) c).arrAt_in 0 rfl, A_eq0, V6_of m (outsK m) c main_v31 (by decide)]
  | ⟨1, _⟩ => by
    show (dat0 (VR5 m) c).arrAt 1 cfg0.N = V6 m (outsK m) c main_v32
    rw [(dat0 (VR5 m) c).arrAt_in 1 rfl, A_eq0, V6_of m (outsK m) c main_v32 (by decide)]
  | ⟨2, _⟩ => by
    show (dat0 (VR5 m) c).arrAt 2 cfg0.N = V6 m (outsK m) c main_v33
    dsimp only [V6]
    rw [Function.update_self, outsK_v33]
    rfl
/-- and every other buffer what it held at entry. -/
theorem hrest0 (c : Dev nD) : ∀ b, b ∉ Finset.univ.image (Pipeline.arrRef spec0) → VR6 m c b = VR5 m c b :=
  fun b hb => V6_of m (outsK m) c b fun hmem =>
    hb (by rw [List.mem_singleton.mp hmem]; exact Finset.mem_image.mpr ⟨2, Finset.mem_univ _, rfl⟩)

set_option backward.isDefEq.respectTransparency.types false in
/-- Region 0 over the thread state: entered from every unscoped buffer at the contents before it, left at the contents after
    it. Its arrays are split out of the unscoped buffers and put back at the exit contents; the generator register goes into
    the invariant and comes out; nothing is owed; the kernel has no semaphore of its own. -/
def reg0 : Pipeline.RegionSeg (pcfgs (F := F)) adm (pdats m) () defs₀ Variants.none Lev lvl 0 where
  win := launch0.win.to₀
  block_pos := launch0.block_pos
  stage_whole := launch0.stage_whole
  K := PEmpty
  osem k := k.elim
  ho := Pipeline.OwnSemFacts.none _
  hbody c := (body_obligation0 (VR5 m) c).loose
  hwaits := Pipeline.hwaits_of_owed_zero _ _ _ _ Lev lvl 0 fun _ _ => rfl
  pre c := iprop(StableHlo.held (c : Thread nD τ) (Pipeline.ucRefs τ sig) (V5 m c) ∗ Rest c)
  post c := iprop(StableHlo.held (c : Thread nD τ) (Pipeline.ucRefs τ sig) (V6 m (outsK m) c) ∗ Rest c)
  X c := iprop(∃ r, prngReg c r)
  Y c := iprop(∃ r, prngReg c r)
  Z c := Pipeline.unscopedRest (Ix := Unit) (Name := ℕ) (U := UR sig nD τ) (Lvl := ℕ) spec0 c (VR5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VR5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VR5 m c) (VR6 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

set_option maxHeartbeats 4000000 in
/-- At region 1's exit each of its arrays holds what the pipeline leaves: an input array what it held at entry, the output
    array what the write-backs left. -/
theorem hF1 (c : Dev nD) : ∀ w : Fin cfg1.W, (pdats m 1 c).arrAt w cfg1.N = VR10 m c (Pipeline.arrRef spec1 w)
  | ⟨0, _⟩ => by
    show (dat1 (VR9 m) c).arrAt 0 cfg1.N = V10 m (outsK m) c main_v47
    rw [(dat1 (VR9 m) c).arrAt_in 0 rfl, A_eq1, V10_of m (outsK m) c main_v47 (by decide)]
    rw [V9_outsK]
  | ⟨1, _⟩ => by
    show (dat1 (VR9 m) c).arrAt 1 cfg1.N = V10 m (outsK m) c main_v49
    rw [(dat1 (VR9 m) c).arrAt_in 1 rfl, A_eq1, V10_of m (outsK m) c main_v49 (by decide)]
    rw [V9_outsK]
  | ⟨2, _⟩ => by
    show (dat1 (VR9 m) c).arrAt 2 cfg1.N = V10 m (outsK m) c main_v48
    rw [(dat1 (VR9 m) c).arrAt_in 2 rfl, A_eq1, V10_of m (outsK m) c main_v48 (by decide)]
    rw [V9_outsK]
  | ⟨3, _⟩ => by
    show (dat1 (VR9 m) c).arrAt 3 cfg1.N = V10 m (outsK m) c main_v50
    dsimp only [V10]
    rw [Function.update_self, outsK_v50]
    rfl
/-- and every other buffer what it held at entry. -/
theorem hrest1 (c : Dev nD) : ∀ b, b ∉ Finset.univ.image (Pipeline.arrRef spec1) → VR10 m c b = VR9 m c b :=
  fun b hb => (V10_of m (outsK m) c b fun hmem =>
    hb (by rw [List.mem_singleton.mp hmem]; exact Finset.mem_image.mpr ⟨3, Finset.mem_univ _, rfl⟩)).trans (congrFun (V9_outsK m c) _)

set_option backward.isDefEq.respectTransparency.types false in
/-- Region 1 over the thread state: entered from every unscoped buffer at the contents before it, left at the contents after
    it. Its arrays are split out of the unscoped buffers and put back at the exit contents; the generator register goes into
    the invariant and comes out; nothing is owed; the kernel has no semaphore of its own. -/
def reg1 : Pipeline.RegionSeg (pcfgs (F := F)) adm (pdats m) () defs₀ Variants.none Lev lvl 1 where
  win := launch1.win.to₀
  block_pos := launch1.block_pos
  stage_whole := launch1.stage_whole
  K := PEmpty
  osem k := k.elim
  ho := Pipeline.OwnSemFacts.none _
  hbody c := (body_obligation1 (VR9 m) c).loose
  hwaits := Pipeline.hwaits_of_owed_zero _ _ _ _ Lev lvl 1 fun _ _ => rfl
  pre c := iprop(StableHlo.held (c : Thread nD τ) (Pipeline.ucRefs τ sig) (V9 m (outsOf m (o6 m) (fun c => V0 m c main_v50) (fun c => V0 m c main_v78)) c) ∗ Rest c)
  post c := iprop(StableHlo.held (c : Thread nD τ) (Pipeline.ucRefs τ sig) (V10 m (outsK m) c) ∗ Rest c)
  X c := iprop(∃ r, prngReg c r)
  Y c := iprop(∃ r, prngReg c r)
  Z c := Pipeline.unscopedRest (Ix := Unit) (Name := ℕ) (U := UR sig nD τ) (Lvl := ℕ) spec1 c (VR9 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VR9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VR9 m c) (VR10 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

set_option maxHeartbeats 4000000 in
/-- At region 2's exit each of its arrays holds what the pipeline leaves: an input array what it held at entry, the output
    array what the write-backs left. -/
theorem hF2 (c : Dev nD) : ∀ w : Fin cfg2.W, (pdats m 2 c).arrAt w cfg2.N = VR16 m c (Pipeline.arrRef spec2 w)
  | ⟨0, _⟩ => by
    show (dat2 (VR15 m) c).arrAt 0 cfg2.N = V16 m (outsK m) c main_v64
    rw [(dat2 (VR15 m) c).arrAt_in 0 rfl, A_eq2, V16_of m (outsK m) c main_v64 (by decide)]
    rw [V15_outsK]
  | ⟨1, _⟩ => by
    show (dat2 (VR15 m) c).arrAt 1 cfg2.N = V16 m (outsK m) c main_v77
    rw [(dat2 (VR15 m) c).arrAt_in 1 rfl, A_eq2, V16_of m (outsK m) c main_v77 (by decide)]
    rw [V15_outsK]
  | ⟨2, _⟩ => by
    show (dat2 (VR15 m) c).arrAt 2 cfg2.N = V16 m (outsK m) c main_v76
    rw [(dat2 (VR15 m) c).arrAt_in 2 rfl, A_eq2, V16_of m (outsK m) c main_v76 (by decide)]
    rw [V15_outsK]
  | ⟨3, _⟩ => by
    show (dat2 (VR15 m) c).arrAt 3 cfg2.N = V16 m (outsK m) c main_v78
    dsimp only [V16]
    rw [Function.update_self, outsK_v78]
    rfl
/-- and every other buffer what it held at entry. -/
theorem hrest2 (c : Dev nD) : ∀ b, b ∉ Finset.univ.image (Pipeline.arrRef spec2) → VR16 m c b = VR15 m c b :=
  fun b hb => (V16_of m (outsK m) c b fun hmem =>
    hb (by rw [List.mem_singleton.mp hmem]; exact Finset.mem_image.mpr ⟨3, Finset.mem_univ _, rfl⟩)).trans (congrFun (V15_outsK m c) _)

set_option backward.isDefEq.respectTransparency.types false in
/-- Region 2 over the thread state: entered from every unscoped buffer at the contents before it, left at the contents after
    it. Its arrays are split out of the unscoped buffers and put back at the exit contents; the generator register goes into
    the invariant and comes out; nothing is owed; the kernel has no semaphore of its own. -/
def reg2 : Pipeline.RegionSeg (pcfgs (F := F)) adm (pdats m) () defs₀ Variants.none Lev lvl 2 where
  win := launch2.win.to₀
  block_pos := launch2.block_pos
  stage_whole := launch2.stage_whole
  K := PEmpty
  osem k := k.elim
  ho := Pipeline.OwnSemFacts.none _
  hbody c := (body_obligation2 (VR15 m) c).loose
  hwaits := Pipeline.hwaits_of_owed_zero _ _ _ _ Lev lvl 2 fun c t => owed2 (VR15 m) c t
  pre c := iprop(StableHlo.held (c : Thread nD τ) (Pipeline.ucRefs τ sig) (V15 m (outsOf m (o6 m) (o10 m) (fun c => V0 m c main_v78)) c) ∗ Rest c)
  post c := iprop(StableHlo.held (c : Thread nD τ) (Pipeline.ucRefs τ sig) (V16 m (outsK m) c) ∗ Rest c)
  X c := iprop(∃ r, prngReg c r)
  Y c := iprop(∃ r, prngReg c r)
  Z c := Pipeline.unscopedRest (Ix := Unit) (Name := ℕ) (U := UR sig nD τ) (Lvl := ℕ) spec2 c (VR15 m c)
  hentry c := by
    rw [Pipeline.ownSems0_none]
    have hsplit := Pipeline.arrays_of_unscopedBufs (p := 2) (pcfgs (F := F)) adm (pdats m) launch2.win launch2.arr_whole c
      ((pdats m 2 c).share_full fun w => q2 (VR15 m) c w) (VR15 m c) fun w => A_eq2 (VR15 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from Phi2_zero (VR15 m) c]; unfold Pipeline.ΦA
    iintro ⟨Hp, -, Hr⟩
    isplitl [Hr]; · iexact Hr
    iexact Hp
  hout c := by
    rw [Pipeline.ownSems0_none]
    refine (Phi2_last (VR15 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun w => q2 (VR15 m) c w)
      (VR15 m c) (VR16 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

variable (ρ : Dev nD → PrngReg)

set_option backward.isDefEq.respectTransparency.types false in
/-- Every weakly fair execution of @main terminates, nothing faulting, with the result buffer at the last boundary's
    contents and the argument arrays as launched. -/
theorem run_value : θ_run defs (onTc (τ := τ) (main (F := F))) ⟨m, fun _ => 0, ρ⟩ (fun r => ∀ c : Dev nD,
      r.2.mem ((c.tc : Thread nD τ).loc main_v81) = V17 m (outsK m) c main_v81
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  value_cond m (emb₁ (nD := nD) (τ := τ) (sig := sig) (Ix := Unit) (Val := Elt F) (Name := ℕ) (Lvl := ℕ)) () Variants.none Lev lvl (fun _ _ => rfl) ρ (outsK m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rest c)
    (hE0 := by
      refine Pipeline.initEach Lev lvl fun c => ?_
      iintro ⟨⟨-, HO, -, Hp, -⟩, -⟩
      imodintro
      isplitl [Hp]; · iexists _; iexact Hp
      iexists ∅; iexact HO)
    (hE3 := fun c => by iintro ⟨-, HO⟩; iexact HO)
    (reg0 m) (fun c => .rfl) (fun c => .rfl)
    (reg1 m) (fun c => by rw [V9_outsK]; exact .rfl) (fun c => .rfl)
    (reg2 m) (fun c => by rw [V15_outsK]; exact .rfl) (fun c => .rfl)

/-- The frame claim: the run with the result's value dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_value m ρ)

end Cert.KernelIdeal.Hand

end
-- ==== Proof.KI.HostK.lean ====
/-
  The host operations of the kernel's program, read stretch by stretch: what each kernel region's operand arrays and
  the program's result hold, as terms over the program's arguments and over what the earlier regions left. The index
  chains (edge endpoints with the self-loops appended, the symmetric normalisation) are the same operations as the
  reference's, so they are stated as the reference's stage functions of the edge list.
-/
import proofs.«416386_j58171037057469_1_alg».proof.Proof.KI.Outs
import proofs.«416386_j58171037057469_1_alg».proof.Proof.RefReadP
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem
open Cert.ReferenceIdeal.ReadP (val_main_v3 val_main_v6 val_main_v30)

variable {F : FTy → Type} [FloatOps F]
variable (m : (ℓ : Loc nD τ sig) → Buf (Elt F) ℓ) (outs : Outs (F := F))

/-- The program's arguments on core `c`. -/
abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)
abbrev a3 (c : Dev nD) := m ((c.tc : Thread nD τ).loc main_arg3)
abbrev a4 (c : Dev nD) := m ((c.tc : Thread nD τ).loc main_arg4)
abbrev a5 (c : Dev nD) := m ((c.tc : Thread nD τ).loc main_arg5)
abbrev a6 (c : Dev nD) := m ((c.tc : Thread nD τ).loc main_arg6)

/-- The zero the padding fills with. -/
abbrev padZero : FVec F S_ .f32 := sitofp .f32 (constantI S_ 32 0#32)

/-- A source-endpoint list wrapped for a table of 50176 rows (a negative index counts from the end), as an index column. -/
abbrev wrap176 (s : IVec S850000 32) : IVec S850000x1 32 :=
  broadcastInDim S850000x1 ![0] bcast_S850000_S850000x1_0
    (select (cmpi .slt s (broadcastInDim S850000 ![] bcast_S_S850000 (constantI S_ 32 0#32)))
      (addi s (broadcastInDim S850000 ![] bcast_S_S850000 (constantI S_ 32 50176#32))) s)

/-- One aggregation of the kernel's program: gather the rows of the (padded) projection `P` at the sources, scale each by the
    edge's normalisation, and add them up at the destinations. -/
abbrev aggK (P : FVec F S50176x128 .f32) (s d : IVec S850000 32) (nrm : FVec F S850000 .f32) : FVec F S50000x128 .f32 :=
  Host.scatterAdd scatter_S50000x128_S850000x1_S850000x128_1_0_0_1
    (broadcastInDim S50000x128 ![] bcast_S_S50000x128 (constant S_ .f32 0x00000000#32))
    (broadcastInDim S850000x1 ![0] bcast_S850000_S850000x1_0 d)
    (mulf (Host.gather gather_S50176x128_S850000x1_S850000x128_1_0_n_n_0_1_1128 P (wrap176 s))
      (broadcastInDim S850000x128 ![0, 1] bcast_S850000x1_S850000x128_0_1 (broadcastInDim S850000x1 ![0] bcast_S850000_S850000x1_0 nrm)))

/-! ## Before region 0 -/

/-! ## Reading an argument back through the fold -/

/-- No stretch before region 0 writes an argument. -/
private theorem V4_arg3 (c : Dev nD) : V4 m c main_arg3 = a3 m c :=
  (V4_of m c main_arg3 (by decide)).trans <| (V3_of m c main_arg3 (by decide)).trans <|
    (V2_of m c main_arg3 (by decide)).trans <| (V1_of m c main_arg3 (by decide))

/-! ## The stretches before region 0, each over any contents -/

private theorem s04_v31 (V : Valuation τ sig (Elt F)) :
    StableHlo.after hostOps0_4 V main_v31 = truncf .bf16 (V main_v30) bitsLt_bf16_f32 := by
  after_results

private theorem s04_v32 (V : Valuation τ sig (Elt F)) :
    StableHlo.after hostOps0_4 V main_v32 = truncf .bf16 (V main_arg3) bitsLt_bf16_f32 := by
  after_results

private theorem s03_v30 (V : Valuation τ sig (Elt F)) :
    StableHlo.after hostOps0_3 V main_v30
      = pad S50176x128 ![0, 0] ![176, 0] ![0, 0] (V main_arg0) (sitofp .f32 (V main_c_6)) pads_S50000x128_S50176x128_01760_000 h_S_ := by
  after_results
  simp only [TRef.ofBuf, TRef.toBuf, cast_eq]

private theorem s02_c6 (V : Valuation τ sig (Elt F)) :
    StableHlo.after hostOps0_2 V main_c_6 = constantI S_ 32 0#32 := by
  after_results

/-! ## The first stretch against the reference's stages: the same operations on the edge list -/

private theorem s0_v3 (V : Valuation τ sig (Elt F)) :
    StableHlo.after hostOps0 V main_v3 = val_main_v3 (F := F) (V main_arg1) := by
  after_results
  unfold val_main_v3 Cert.ReferenceIdeal.ReadP.val_main_v2 Cert.ReferenceIdeal.ReadP.val_main_v1 Cert.ReferenceIdeal.ReadP.val_main_v0
  rfl

private theorem s0_v6 (V : Valuation τ sig (Elt F)) :
    StableHlo.after hostOps0 V main_v6 = val_main_v6 (F := F) (V main_arg1) := by
  after_results
  unfold val_main_v6 Cert.ReferenceIdeal.ReadP.val_main_v5 Cert.ReferenceIdeal.ReadP.val_main_v4 Cert.ReferenceIdeal.ReadP.val_main_v0
  rfl

private theorem s0_v12 (V : Valuation τ sig (Elt F)) :
    StableHlo.after hostOps0 V main_v12 = Cert.ReferenceIdeal.ReadP.val_main_v13 (F := F) (V main_arg1) := by
  after_results
  unfold Cert.ReferenceIdeal.ReadP.val_main_v13 Cert.ReferenceIdeal.ReadP.val_main_v12 Cert.ReferenceIdeal.ReadP.val_main_cst_1
    Cert.ReferenceIdeal.ReadP.val_main_v11 Cert.ReferenceIdeal.ReadP.val_main_v10 Cert.ReferenceIdeal.ReadP.val_main_v9
    Cert.ReferenceIdeal.ReadP.val_main_cst_0 Cert.ReferenceIdeal.ReadP.val_main_v8 Cert.ReferenceIdeal.ReadP.val_main_cst
    val_main_v6 Cert.ReferenceIdeal.ReadP.val_main_v5 Cert.ReferenceIdeal.ReadP.val_main_v4 Cert.ReferenceIdeal.ReadP.val_main_v0
  rfl

private theorem s0_v13 (V : Valuation τ sig (Elt F)) :
    StableHlo.after hostOps0 V main_v13 = Cert.ReferenceIdeal.ReadP.val_main_v14 (F := F) (V main_arg1) := by
  after_results
  unfold Cert.ReferenceIdeal.ReadP.val_main_v14
    Cert.ReferenceIdeal.ReadP.val_main_v11 Cert.ReferenceIdeal.ReadP.val_main_v10 Cert.ReferenceIdeal.ReadP.val_main_v9
    Cert.ReferenceIdeal.ReadP.val_main_cst_0 Cert.ReferenceIdeal.ReadP.val_main_v8 Cert.ReferenceIdeal.ReadP.val_main_cst
    val_main_v6 Cert.ReferenceIdeal.ReadP.val_main_v5 Cert.ReferenceIdeal.ReadP.val_main_v4 Cert.ReferenceIdeal.ReadP.val_main_v0
  rfl

private theorem s0_cst2 (V : Valuation τ sig (Elt F)) :
    StableHlo.after hostOps0 V main_cst_2 = constant S_ .f32 0x00000000#32 := by
  after_results

/-- The inlined selection: where the degree is positive its inverse root, elsewhere the fill value. -/
private theorem s01_v14 (V : Valuation τ sig (Elt F)) :
    StableHlo.after hostOps0_1 V main_v14
      = select (V main_v12) (V main_v13) (broadcastInDim S50000 ![] bcast_S_S50000 (id (V main_cst_2))) := by
  after_results
  simp only [TRef.ofBuf, TRef.toBuf, cast_eq]

/-- The normalisation's stretch: the inverse roots gathered at the (wrapped) sources and destinations, multiplied. -/
private theorem s02_v29 (V : Valuation τ sig (Elt F)) :
    StableHlo.after hostOps0_2 V main_v29
      = mulf
          (Host.gather gather_S50000_S850000x1_S850000_n_0_n_n_0_1_1 (V main_v14)
            (broadcastInDim S850000x1 ![0] bcast_S850000_S850000x1_0
              (select (cmpi .slt (V main_v3) (broadcastInDim S850000 ![] bcast_S_S850000 (constantI S_ 32 0#32)))
                (addi (V main_v3) (broadcastInDim S850000 ![] bcast_S_S850000 (constantI S_ 32 50000#32))) (V main_v3))))
          (Host.gather gather_S50000_S850000x1_S850000_n_0_n_n_0_1_1 (V main_v14)
            (broadcastInDim S850000x1 ![0] bcast_S850000_S850000x1_0
              (select (cmpi .slt (V main_v6) (broadcastInDim S850000 ![] bcast_S_S850000 (constantI S_ 32 0#32)))
                (addi (V main_v6) (broadcastInDim S850000 ![] bcast_S_S850000 (constantI S_ 32 50000#32))) (V main_v6)))) := by
  after_results_simp

theorem V5_v3 (c : Dev nD) : V5 m c main_v3 = val_main_v3 (F := F) (a1 m c) := by
  rw [V5_of m c main_v3 (by decide), V4_of m c main_v3 (by decide), V3_of m c main_v3 (by decide), V2_of m c main_v3 (by decide)]
  exact s0_v3 (V0 m c)
theorem V5_v6 (c : Dev nD) : V5 m c main_v6 = val_main_v6 (F := F) (a1 m c) := by
  rw [V5_of m c main_v6 (by decide), V4_of m c main_v6 (by decide), V3_of m c main_v6 (by decide), V2_of m c main_v6 (by decide)]
  exact s0_v6 (V0 m c)
theorem V5_v29 (c : Dev nD) : V5 m c main_v29 = val_main_v30 (F := F) (a1 m c) := by
  have h3 : V1 m c main_v3 = val_main_v3 (F := F) (a1 m c) := s0_v3 (V0 m c)
  have h6 : V1 m c main_v6 = val_main_v6 (F := F) (a1 m c) := s0_v6 (V0 m c)
  have h12 : V1 m c main_v12 = Cert.ReferenceIdeal.ReadP.val_main_v13 (F := F) (a1 m c) := s0_v12 (V0 m c)
  have h13 : V1 m c main_v13 = Cert.ReferenceIdeal.ReadP.val_main_v14 (F := F) (a1 m c) := s0_v13 (V0 m c)
  have hc2 : V1 m c main_cst_2 = constant S_ .f32 0x00000000#32 := s0_cst2 (V0 m c)
  have h14 : V2 m c main_v14
      = select (V1 m c main_v12) (V1 m c main_v13) (broadcastInDim S50000 ![] bcast_S_S50000 (id (V1 m c main_cst_2))) :=
    s01_v14 (V1 m c)
  rw [V5_of m c main_v29 (by decide), V4_of m c main_v29 (by decide)]
  show StableHlo.after hostOps0_2 (V2 m c) main_v29 = _
  rw [s02_v29, V2_of m c main_v3 (by decide), V2_of m c main_v6 (by decide), h14, h3, h6, h12, h13, hc2]
  unfold val_main_v30 Cert.ReferenceIdeal.ReadP.val_main_v22 Cert.ReferenceIdeal.ReadP.val_main_v29
    Cert.ReferenceIdeal.ReadP.val_main_v21 Cert.ReferenceIdeal.ReadP.val_main_v28
    Cert.ReferenceIdeal.ReadP.val_main_v20 Cert.ReferenceIdeal.ReadP.val_main_v27
    Cert.ReferenceIdeal.ReadP.val_main_v17 Cert.ReferenceIdeal.ReadP.val_main_v19
    Cert.ReferenceIdeal.ReadP.val_main_v24 Cert.ReferenceIdeal.ReadP.val_main_v26
    Cert.ReferenceIdeal.ReadP.val_main_v16 Cert.ReferenceIdeal.ReadP.val_main_v18
    Cert.ReferenceIdeal.ReadP.val_main_v23 Cert.ReferenceIdeal.ReadP.val_main_v25
    Cert.ReferenceIdeal.ReadP.val_main_c Cert.ReferenceIdeal.ReadP.val_main_c_3
    Cert.ReferenceIdeal.ReadP.val_main_c_4 Cert.ReferenceIdeal.ReadP.val_main_c_5
    Cert.ReferenceIdeal.ReadP.val_main_v15 Cert.ReferenceIdeal.ReadP.val_main_call0_v1
    Cert.ReferenceIdeal.ReadP.val_main_call0_v0 Cert.ReferenceIdeal.ReadP.val_main_cst_2
  rfl
theorem V5_v31 (c : Dev nD) : V5 m c main_v31
    = truncf .bf16 (pad S50176x128 ![0, 0] ![176, 0] ![0, 0] (a0 m c) (padZero (F := F)) pads_S50000x128_S50176x128_01760_000 h_S_) bitsLt_bf16_f32 := by
  show StableHlo.after hostOps0_4 (V4 m c) main_v31 = _
  rw [s04_v31]
  show truncf .bf16 (StableHlo.after hostOps0_3 (V3 m c) main_v30) _ = _
  rw [s03_v30, V3_of m c main_arg0 (by decide), V2_of m c main_arg0 (by decide), V1_of m c main_arg0 (by decide)]
  show truncf .bf16 (pad _ _ _ _ _ (sitofp .f32 (StableHlo.after hostOps0_2 (V2 m c) main_c_6)) _ _) _ = _
  rw [s02_c6]
  rfl
theorem V5_v32 (c : Dev nD) : V5 m c main_v32 = truncf .bf16 (a3 m c) bitsLt_bf16_f32 := by
  show StableHlo.after hostOps0_4 (V4 m c) main_v32 = _
  rw [s04_v32, V4_arg3]

/-! ## Between regions 0 and 1 -/

/-! The stretches between regions 0 and 1, each over any contents. -/

private theorem s1_c10 (V : Valuation τ sig (Elt F)) :
    StableHlo.after hostOps1 V main_c_10 = constantI S_ 32 0#32 := by
  after_results

private theorem s11_v47 (V : Valuation τ sig (Elt F)) :
    StableHlo.after hostOps1_1 V main_v47
      = pad S50176x128 ![0, 0] ![176, 0] ![0, 0] (V main_v46) (sitofp .f32 (V main_c_10)) pads_S50000x128_S50176x128_01760_000 h_S_ := by
  after_results
  simp only [TRef.ofBuf, TRef.toBuf, cast_eq]

private theorem s12_v48 (V : Valuation τ sig (Elt F)) :
    StableHlo.after hostOps1_2 V main_v48 = truncf .bf16 (V main_arg5) bitsLt_bf16_f32 := by
  after_results

private theorem s12_v49 (V : Valuation τ sig (Elt F)) :
    StableHlo.after hostOps1_2 V main_v49 = shapeCast S1x128 (V main_arg4) shapeCasts_S128_S1x128 := by
  after_results
  rfl

/-- One aggregation's stretch, over any contents: the aggregation of the projection at the index chains. -/
private theorem s1_v46 (V : Valuation τ sig (Elt F)) :
    StableHlo.after hostOps1 V main_v46 = aggK (F := F) (V main_v33) (V main_v3) (V main_v6) (V main_v29) := by
  after_results_simp

/-- Region 0's output array is what the region left; region 1's likewise. -/
private theorem V6_v33 (c : Dev nD) : V6 m outs c main_v33 = outs 6 main_v33 c := by
  show Function.update (V5 m c) main_v33 (outs 6 main_v33 c) main_v33 = _
  rw [Function.update_self]

/-- No item up to region 1 writes an argument. -/
private theorem V8_arg4 (c : Dev nD) : V8 m outs c main_arg4 = a4 m c :=
  (V8_of m outs c main_arg4 (by decide)).trans <| (V7_of m outs c main_arg4 (by decide)).trans <|
    (V6_of m outs c main_arg4 (by decide)).trans <| (V5_of m c main_arg4 (by decide)).trans <|
    (V4_of m c main_arg4 (by decide)).trans <| (V3_of m c main_arg4 (by decide)).trans <|
    (V2_of m c main_arg4 (by decide)).trans <| (V1_of m c main_arg4 (by decide))

private theorem V8_arg5 (c : Dev nD) : V8 m outs c main_arg5 = a5 m c :=
  (V8_of m outs c main_arg5 (by decide)).trans <| (V7_of m outs c main_arg5 (by decide)).trans <|
    (V6_of m outs c main_arg5 (by decide)).trans <| (V5_of m c main_arg5 (by decide)).trans <|
    (V4_of m c main_arg5 (by decide)).trans <| (V3_of m c main_arg5 (by decide)).trans <|
    (V2_of m c main_arg5 (by decide)).trans <| (V1_of m c main_arg5 (by decide))

theorem V9_v46 (c : Dev nD) : V9 m outs c main_v46
    = aggK (outs 6 main_v33 c) (val_main_v3 (F := F) (a1 m c)) (val_main_v6 (F := F) (a1 m c)) (val_main_v30 (F := F) (a1 m c)) := by
  rw [V9_of m outs c main_v46 (by decide), V8_of m outs c main_v46 (by decide)]
  show StableHlo.after hostOps1 (V6 m outs c) main_v46 = _
  rw [s1_v46, V6_v33, V6_of m outs c main_v3 (by decide), V6_of m outs c main_v6 (by decide), V6_of m outs c main_v29 (by decide),
    V5_v3, V5_v6, V5_v29]
theorem V9_v47 (c : Dev nD) : V9 m outs c main_v47
    = pad S50176x128 ![0, 0] ![176, 0] ![0, 0] (V9 m outs c main_v46) (padZero (F := F)) pads_S50000x128_S50176x128_01760_000 h_S_ := by
  rw [V9_of m outs c main_v47 (by decide), V9_of m outs c main_v46 (by decide), V8_of m outs c main_v46 (by decide)]
  show StableHlo.after hostOps1_1 (V7 m outs c) main_v47 = _
  rw [s11_v47]
  show pad _ _ _ _ _ (sitofp .f32 (StableHlo.after hostOps1 (V6 m outs c) main_c_10)) _ _ = _
  rw [s1_c10]
theorem V9_v48 (c : Dev nD) : V9 m outs c main_v48 = truncf .bf16 (a5 m c) bitsLt_bf16_f32 := by
  show StableHlo.after hostOps1_2 (V8 m outs c) main_v48 = _
  rw [s12_v48, V8_arg5]
theorem V9_v49 (c : Dev nD) : V9 m outs c main_v49 = shapeCast S1x128 (a4 m c) shapeCasts_S128_S1x128 := by
  show StableHlo.after hostOps1_2 (V8 m outs c) main_v49 = _
  rw [s12_v49, V8_arg4]

/-! ## Between regions 1 and 2 -/

/-! The stretches between regions 1 and 2, each over any contents. -/

private theorem s2_v63 (V : Valuation τ sig (Elt F)) :
    StableHlo.after hostOps2 V main_v63 = aggK (F := F) (V main_v50) (V main_v3) (V main_v6) (V main_v29) := by
  after_results_simp

private theorem s2_c14 (V : Valuation τ sig (Elt F)) :
    StableHlo.after hostOps2 V main_c_14 = constantI S_ 32 0#32 := by
  after_results

private theorem s21_v64 (V : Valuation τ sig (Elt F)) :
    StableHlo.after hostOps2_1 V main_v64
      = pad S50176x128 ![0, 0] ![176, 0] ![0, 0] (V main_v63) (sitofp .f32 (V main_c_14)) pads_S50000x128_S50176x128_01760_000 h_S_ := by
  after_results
  simp only [TRef.ofBuf, TRef.toBuf, cast_eq]

private theorem V10_v50 (c : Dev nD) : V10 m outs c main_v50 = outs 10 main_v50 c := by
  show Function.update (V9 m outs c) main_v50 (outs 10 main_v50 c) main_v50 = _
  rw [Function.update_self]

/-- A buffer that no item between region 0's entry and region 2's writes holds what region 0 was entered with. -/
private theorem V10_of5 (c : Dev nD) (r : Ref sig .tc) (h1 : r ∉ hostOps1_W) (h2 : r ∉ hostOps1_1_W) (h3 : r ∉ hostOps1_2_W)
    (h4 : r ∉ ([main_v33] : List (Ref sig .tc))) (h5 : r ∉ ([main_v50] : List (Ref sig .tc))) :
    V10 m outs c r = V5 m c r :=
  (V10_of m outs c r h5).trans <| (V9_of m outs c r h3).trans <| (V8_of m outs c r h2).trans <|
    (V7_of m outs c r h1).trans <| (V6_of m outs c r h4)

/-- No item up to region 2 writes an argument. -/
private theorem V12_arg2 (c : Dev nD) : V12 m outs c main_arg2 = a2 m c :=
  (V12_of m outs c main_arg2 (by decide)).trans <| (V11_of m outs c main_arg2 (by decide)).trans <|
    (V10_of5 m outs c main_arg2 (by decide) (by decide) (by decide) (by decide) (by decide)).trans <|
    (V5_of m c main_arg2 (by decide)).trans <|
    (V4_of m c main_arg2 (by decide)).trans <| (V3_of m c main_arg2 (by decide)).trans <|
    (V2_of m c main_arg2 (by decide)).trans <| (V1_of m c main_arg2 (by decide))

private theorem V14_arg6 (c : Dev nD) : V14 m outs c main_arg6 = a6 m c :=
  (V14_of m outs c main_arg6 (by decide)).trans <| (V13_of m outs c main_arg6 (by decide)).trans <|
    (V12_of m outs c main_arg6 (by decide)).trans <| (V11_of m outs c main_arg6 (by decide)).trans <|
    (V10_of5 m outs c main_arg6 (by decide) (by decide) (by decide) (by decide) (by decide)).trans <|
    (V5_of m c main_arg6 (by decide)).trans <|
    (V4_of m c main_arg6 (by decide)).trans <| (V3_of m c main_arg6 (by decide)).trans <|
    (V2_of m c main_arg6 (by decide)).trans <| (V1_of m c main_arg6 (by decide))

theorem V15_v63 (c : Dev nD) : V15 m outs c main_v63
    = aggK (outs 10 main_v50 c) (val_main_v3 (F := F) (a1 m c)) (val_main_v6 (F := F) (a1 m c)) (val_main_v30 (F := F) (a1 m c)) := by
  rw [V15_of m outs c main_v63 (by decide), V14_of m outs c main_v63 (by decide), V13_of m outs c main_v63 (by decide),
    V12_of m outs c main_v63 (by decide)]
  show StableHlo.after hostOps2 (V10 m outs c) main_v63 = _
  rw [s2_v63, V10_v50,
    V10_of5 m outs c main_v3 (by decide) (by decide) (by decide) (by decide) (by decide),
    V10_of5 m outs c main_v6 (by decide) (by decide) (by decide) (by decide) (by decide),
    V10_of5 m outs c main_v29 (by decide) (by decide) (by decide) (by decide) (by decide),
    V5_v3, V5_v6, V5_v29]
theorem V15_v64 (c : Dev nD) : V15 m outs c main_v64
    = pad S50176x128 ![0, 0] ![176, 0] ![0, 0] (V15 m outs c main_v63) (padZero (F := F)) pads_S50000x128_S50176x128_01760_000 h_S_ := by
  rw [V15_of m outs c main_v64 (by decide), V14_of m outs c main_v64 (by decide), V13_of m outs c main_v64 (by decide),
    V15_of m outs c main_v63 (by decide), V14_of m outs c main_v63 (by decide), V13_of m outs c main_v63 (by decide),
    V12_of m outs c main_v63 (by decide)]
  show StableHlo.after hostOps2_1 (V11 m outs c) main_v64 = _
  rw [s21_v64]
  show pad _ _ _ _ _ (sitofp .f32 (StableHlo.after hostOps2 (V10 m outs c) main_c_14)) _ _ = _
  rw [s2_c14]
/-- The one-hot membership table of the nodes' graph ids, as floats. -/
abbrev onehotK (b : IVec S50000 32) : FVec F S50000x64 .f32 :=
  uitofp .f32 (cmpi .eq
    (broadcastInDim S50000x64 ![0, 1] bcast_S50000x1_S50000x64_0_1 (broadcastInDim S50000x1 ![0] bcast_S50000_S50000x1_0 b))
    (broadcastInDim S50000x64 ![0, 1] bcast_S1x64_S50000x64_0_1 (broadcastInDim S1x64 ![1] bcast_S64_S1x64_1 (iotaInDim S64 32 0))))
/-- The membership table's stretch. -/
private theorem s22_v71 (V : Valuation τ sig (Elt F)) :
    StableHlo.after hostOps2_2 V main_v71 = onehotK (F := F) (V main_arg2) := by
  after_results

private theorem s22_v74 (V : Valuation τ sig (Elt F)) :
    StableHlo.after hostOps2_2 V main_v74
      = maximumf (Host.reduceAdd (onehotK (F := F) (V main_arg2)) (constant S_ .f32 0x00000000#32) reducesTo_S50000x64_S64_d0 h_S_)
          (broadcastInDim S64 ![] bcast_S_S64 (constant S_ .f32 0x3F800000#32)) := by
  after_results

private theorem s22_c17 (V : Valuation τ sig (Elt F)) :
    StableHlo.after hostOps2_2 V main_c_17 = constantI S_ 32 0#32 := by
  after_results

private theorem s23_v75 (V : Valuation τ sig (Elt F)) :
    StableHlo.after hostOps2_3 V main_v75
      = pad S50176x64 ![0, 0] ![176, 0] ![0, 0] (V main_v71) (sitofp .f32 (V main_c_17)) pads_S50000x64_S50176x64_01760_000 h_S_ := by
  after_results
  simp only [TRef.ofBuf, TRef.toBuf, cast_eq]

private theorem s24_v76 (V : Valuation τ sig (Elt F)) :
    StableHlo.after hostOps2_4 V main_v76 = truncf .bf16 (V main_v75) bitsLt_bf16_f32 := by
  after_results

private theorem s24_v77 (V : Valuation τ sig (Elt F)) :
    StableHlo.after hostOps2_4 V main_v77 = shapeCast S1x128 (V main_arg6) shapeCasts_S128_S1x128 := by
  after_results
  rfl

theorem V15_v74 (c : Dev nD) : V15 m outs c main_v74
    = maximumf (Host.reduceAdd (onehotK (F := F) (a2 m c)) (constant S_ .f32 0x00000000#32) reducesTo_S50000x64_S64_d0 h_S_)
        (broadcastInDim S64 ![] bcast_S_S64 (constant S_ .f32 0x3F800000#32)) := by
  rw [V15_of m outs c main_v74 (by decide), V14_of m outs c main_v74 (by decide)]
  show StableHlo.after hostOps2_2 (V12 m outs c) main_v74 = _
  rw [s22_v74, V12_arg2]
theorem V15_v76 (c : Dev nD) : V15 m outs c main_v76
    = truncf .bf16 (pad S50176x64 ![0, 0] ![176, 0] ![0, 0] (onehotK (F := F) (a2 m c)) (padZero (F := F)) pads_S50000x64_S50176x64_01760_000 h_S_) bitsLt_bf16_f32 := by
  show StableHlo.after hostOps2_4 (V14 m outs c) main_v76 = _
  rw [s24_v76]
  show truncf .bf16 (StableHlo.after hostOps2_3 (V13 m outs c) main_v75) _ = _
  rw [s23_v75]
  show truncf .bf16 (pad _ _ _ _ (StableHlo.after hostOps2_2 (V12 m outs c) main_v71)
    (sitofp .f32 (StableHlo.after hostOps2_2 (V12 m outs c) main_c_17)) _ _) _ = _
  rw [s22_v71, s22_c17, V12_arg2]
  rfl
theorem V15_v77 (c : Dev nD) : V15 m outs c main_v77 = shapeCast S1x128 (a6 m c) shapeCasts_S128_S1x128 := by
  show StableHlo.after hostOps2_4 (V14 m outs c) main_v77 = _
  rw [s24_v77, V14_arg6]

/-! ## After region 2 -/

private theorem s3_v81 (V : Valuation τ sig (Elt F)) :
    StableHlo.after hostOps3 V main_v81
      = Host.divf (V main_v78)
          (broadcastInDim S64x128 ![0, 1] bcast_S64x1_S64x128_0_1 (broadcastInDim S64x1 ![0] bcast_S64_S64x1_0 (V main_v74))) := by
  after_results

theorem V17_v81 (c : Dev nD) : V17 m outs c main_v81
    = Host.divf (outs 16 main_v78 c)
        (broadcastInDim S64x128 ![0, 1] bcast_S64x1_S64x128_0_1 (broadcastInDim S64x1 ![0] bcast_S64_S64x1_0 (V15 m outs c main_v74))) := by
  show StableHlo.after hostOps3 (V16 m outs c) main_v81 = _
  rw [s3_v81, V16_of m outs c main_v74 (by decide)]
  show Host.divf (Function.update (V15 m outs c) main_v78 (outs 16 main_v78 c) main_v78) _ = _
  rw [Function.update_self]

end Cert.KernelIdeal.Hand

end
-- ==== Proof.KI.BridgeA.lean ====
/-
  One aggregation layer, kernel against reference, over the extended reals. The kernel gathers rows of a table of 50176
  rows (the projection of the padded features) at the source endpoints, the reference rows of the table of 50000 rows;
  a negative endpoint counts from the end of the table it indexes, so the two differ outside [0, 50000). Where every
  source endpoint lies in [0, 50000) and the two tables agree on their first 50000 rows, the two gathers are the same
  array; the scaling by the edge normalisation and the scatter-add at the destinations are the same operations on both
  sides. The second layer's index and normalisation stages of the reference are the first layer's recomputed.
-/
import proofs.«416386_j58171037057469_1_alg».proof.Proof.KI.HostK
import Idealize.ShloMosaic.Lib.ValueIdx
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem
open Cert.ReferenceIdeal.ReadP

/-! ## A row gather read at an index

The gather of whole rows of a table `[N, C]` at a column `[E, 1]` of start indices (offset axis 1, collapsed axis 0, start index map
[0], index vector on axis 1, slices `[1, C]`): result element `(e, q)` is the table at row `idx[e, 0]`, read signed and clamped into
`[0, N − 1]`, column `q`. -/

/-- The dimension numbers of a row gather. -/
private abbrev rowDims (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, q)`: the table at the start index `idx[e, 0]`, read signed and clamped into `[0, N − 1]`, column `q`. -/
private theorem gather_row_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowDims N E C wf) x idx (ValueIdx.ix2 e q)
      = x (ValueIdx.ix2 (⟨min (idx (ValueIdx.ix2 e (0 : Fin 1))).toInt.toNat (N - 1), by omega⟩ : Fin N) q) := by
  unfold Host.gather
  congr 1
  funext a
  refine Fin.ext ?_
  match a with
  | ⟨0, _⟩ =>
    show (rowDims N E C wf).start (ValueIdx.ix2 e q) idx 0 + (rowDims N E C wf).batchCoord (ValueIdx.ix2 e q) 0
      + (rowDims N E C wf).offCoord (ValueIdx.ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    have hsi : (rowDims N E C wf).siIdx (ValueIdx.ix2 e q) ⟨List.idxOf (0 : Fin 2) (rowDims N E C wf).startIndexMap,
        List.idxOf_lt_length_iff.2 (List.mem_singleton.mpr rfl)⟩ = ValueIdx.ix2 e (0 : Fin 1) := by
      funext b; refine Fin.ext ?_
      match b with
      | ⟨0, _⟩ => rfl
      | ⟨1, _⟩ => rfl
    rw [hsi]
    rfl
  | ⟨1, _⟩ =>
    show (rowDims N E C wf).start (ValueIdx.ix2 e q) idx 1 + (rowDims N E C wf).batchCoord (ValueIdx.ix2 e q) 1
      + (rowDims N E C wf).offCoord (ValueIdx.ix2 e q) 1 = q.val
    rw [GatherDims.batchCoord_eq_zero _ _ _ List.not_mem_nil]
    unfold GatherDims.start
    rw [dif_neg (show ¬ (1 : Fin 2) ∈ (rowDims N E C wf).startIndexMap from (by decide : (1 : Fin 2) ∉ ([0] : List (Fin 2))))]
    simp only [Nat.add_zero, Nat.zero_add]
    unfold GatherDims.offCoord
    rw [dif_pos (show (1 : Fin 2) ∈ (rowDims N E C wf).sKept from (GatherDims.mem_sKept _ _).mpr ⟨(by decide : (1 : Fin 2) ∉ ([0] : List (Fin 2))), List.not_mem_nil⟩)]
    rfl

/-- Two rank-2 indices with the same column agree when their rows do. -/
private theorem ix2_row_congr {n m : Nat} {a b : Fin n} (q : Fin m) (h : a.val = b.val) : ValueIdx.ix2 a q = ValueIdx.ix2 b q := by
  have hab : a = b := Fin.ext h
  rw [hab]

/-! ## The index columns where the sources are nonnegative -/

/-- A nonnegative word is not below zero in the signed order. -/
private theorem slt_zero_of_nonneg (s : BitVec 32) (h : 0 ≤ s.toInt) : IntOp.cmpi .slt s 0#32 = 0#1 := by
  show BitVec.ofBool (s.slt 0#32) = 0#1
  have h0 : s.slt 0#32 = false := by
    rw [BitVec.slt]
    exact decide_eq_false (by rw [BitVec.toInt_zero]; omega)
  rw [h0]; rfl

/-- The kernel's wrapped index column reads the source itself where it is nonnegative. -/
private theorem wrap176_apply (s : IVec S850000 32) (e : Fin 850000) (h : 0 ≤ (s (ValueIdx.ix1 e)).toInt) :
    wrap176 s (ValueIdx.ix2 e (0 : Fin 1)) = s (ValueIdx.ix1 e) := by
  unfold wrap176
  rw [broadcastInDim_apply _ bcast_S850000_S850000x1_0 _ (ValueIdx.ix2 e (0 : Fin 1)) (ValueIdx.ix1 e) (fun a => match a with
    | ⟨0, _⟩ => by show e.val = if (850000 : Nat) = 1 then 0 else e.val; rw [if_neg (by decide)])]
  show Scalar.select (IntOp.cmpi .slt (s (ValueIdx.ix1 e)) 0#32) _ (s (ValueIdx.ix1 e)) = _
  rw [slt_zero_of_nonneg _ h, ValueIdx.select_zero]

/-- So does the reference's. -/
private theorem v36_apply (x1 : (⟨Cert.ReferenceIdeal.S2x800000, .i32⟩ : BufTy).Contents (Elt Ideal)) (e : Fin 850000)
    (h : 0 ≤ (val_main_v3 (F := Ideal) x1 (ValueIdx.ix1 e)).toInt) :
    val_main_v36 (F := Ideal) x1 (ValueIdx.ix2 e (0 : Fin 1)) = val_main_v3 (F := Ideal) x1 (ValueIdx.ix1 e) := by
  have hi : idx_main_v36 (ValueIdx.ix2 e (0 : Fin 1)) = ValueIdx.ix1 e := by
    funext a; match a with | ⟨0, _⟩ => rfl
  rw [val_main_v36_apply, hi, val_main_v35_apply, val_main_v32_apply, val_main_v31_apply, val_main_c_6_apply,
    slt_zero_of_nonneg _ h, ValueIdx.select_zero]

/-- Every source endpoint (the edges' then the self-loops') lies in [0, 50000). -/
def SrcOK (x1 : (⟨Cert.ReferenceIdeal.S2x800000, .i32⟩ : BufTy).Contents (Elt Ideal)) : Prop :=
  ∀ e : Fin 850000, 0 ≤ (val_main_v3 (F := Ideal) x1 (ValueIdx.ix1 e)).toInt ∧ (val_main_v3 (F := Ideal) x1 (ValueIdx.ix1 e)).toInt < 50000

/-- One layer of the reference over a table `H` of 50000 rows: gather at the (wrapped) sources, scale, scatter-add at the destinations. -/
abbrev layerR (H : (⟨Cert.ReferenceIdeal.S50000x128, .f32⟩ : BufTy).Contents (Elt Ideal))
    (x1 : (⟨Cert.ReferenceIdeal.S2x800000, .i32⟩ : BufTy).Contents (Elt Ideal)) : (⟨Cert.ReferenceIdeal.S50000x128, .f32⟩ : BufTy).Contents (Elt Ideal) :=
  Host.scatterAdd (F := Ideal) (φ := .f32) Cert.ReferenceIdeal.scatter_S50000x128_S850000x1_S850000x128_1_0_0_1 (val_main_v41 (F := Ideal)) (val_main_v42 (F := Ideal) x1)
    (mulf (F := Ideal) (φ := .f32) (Host.gather Cert.ReferenceIdeal.gather_S50000x128_S850000x1_S850000x128_1_0_n_n_0_1_1128 H (val_main_v36 (F := Ideal) x1)) (val_main_v39 (F := Ideal) x1))

/-! ## The reference's second layer recomputes the first layer's index and normalisation stages -/

section Recomputed
variable {F : FTy → Type} [FloatOps F]

/-- The second layer's index column is the first layer's. -/
private theorem v77_eq (x1 : (⟨Cert.ReferenceIdeal.S2x800000, .i32⟩ : BufTy).Contents (Elt F)) :
    val_main_v77 (F := F) x1 = val_main_v36 (F := F) x1 := rfl
/-- The second layer's edge normalisation is the first layer's. -/
private theorem v71_eq (x1 : (⟨Cert.ReferenceIdeal.S2x800000, .i32⟩ : BufTy).Contents (Elt F)) :
    val_main_v71 (F := F) x1 = val_main_v30 (F := F) x1 := rfl
/-- So is its broadcast along the rows. -/
private theorem v80_eq (x1 : (⟨Cert.ReferenceIdeal.S2x800000, .i32⟩ : BufTy).Contents (Elt F)) :
    val_main_v80 (F := F) x1 = val_main_v39 (F := F) x1 := by
  unfold val_main_v80 val_main_v79 val_main_v39 val_main_v38
  rw [v71_eq]
/-- The zero tables are the same. -/
private theorem v82_eq : val_main_v82 (F := F) = val_main_v41 (F := F) := rfl
/-- The destination columns are the same. -/
private theorem v83_eq (x1 : (⟨Cert.ReferenceIdeal.S2x800000, .i32⟩ : BufTy).Contents (Elt F)) :
    val_main_v83 (F := F) x1 = val_main_v42 (F := F) x1 := rfl

end Recomputed

/-- The reference's first aggregation is a layer over its first projection. -/
theorem val_main_v43_layer (x0 x1 x3) : val_main_v43 (F := Ideal) x0 x1 x3 = layerR (val_main_v7 (F := Ideal) x0 x3) x1 := by
  unfold val_main_v43 val_main_v40 val_main_v37
  rfl
/-- The reference's second aggregation is the same layer over its second projection (its index and normalisation stages are recomputed, equal). -/
theorem val_main_v84_layer (x0 x1 x3 x4 x5) : val_main_v84 (F := Ideal) x0 x1 x3 x4 x5 = layerR (val_main_v48 (F := Ideal) x0 x1 x3 x4 x5) x1 := by
  unfold val_main_v84 val_main_v81 val_main_v78
  rw [v77_eq, v80_eq, v82_eq, v83_eq]

/-- The two gathers agree: in-range sources, tables agreeing on the first 50000 rows. -/
theorem gather_rows (x1) (hs : SrcOK x1) (P : FVec Ideal S50176x128 .f32) (H : (⟨Cert.ReferenceIdeal.S50000x128, .f32⟩ : BufTy).Contents (Elt Ideal))
    (hPH : ∀ (p : Fin 50000) (q : Fin 128), P (ValueIdx.ix2 (⟨p.val, by omega⟩ : Fin 50176) q) = H (ValueIdx.ix2 p q)) :
    Host.gather gather_S50176x128_S850000x1_S850000x128_1_0_n_n_0_1_1128 P (wrap176 (val_main_v3 (F := Ideal) x1))
      = Host.gather Cert.ReferenceIdeal.gather_S50000x128_S850000x1_S850000x128_1_0_n_n_0_1_1128 H (val_main_v36 (F := Ideal) x1) := by
  funext j
  obtain ⟨e, q, rfl⟩ : ∃ (e : Fin 850000) (q : Fin 128), j = ValueIdx.ix2 e q := ⟨j 0, j 1, ValueIdx.eq_ix2 j⟩
  obtain ⟨h0, h1⟩ := hs e
  have hK : gather_S50176x128_S850000x1_S850000x128_1_0_n_n_0_1_1128
      = rowDims 50176 850000 128 Facts₀.gather_S50176x128_S850000x1_S850000x128_1_0_n_n_0_1_1128_wf := rfl
  have hR : Cert.ReferenceIdeal.gather_S50000x128_S850000x1_S850000x128_1_0_n_n_0_1_1128
      = rowDims 50000 850000 128 Cert.ReferenceIdeal.Facts₀.gather_S50000x128_S850000x1_S850000x128_1_0_n_n_0_1_1128_wf := rfl
  rw [hK, hR, gather_row_apply (by decide), gather_row_apply (by decide)]
  have hk : (val_main_v3 (F := Ideal) x1 (ValueIdx.ix1 e)).toInt.toNat < 50000 := by omega
  refine Eq.trans (congrArg P ?_) (Eq.trans (hPH ⟨_, hk⟩ q) (congrArg H ?_))
  · refine ix2_row_congr q ?_
    show min (wrap176 (val_main_v3 (F := Ideal) x1) (ValueIdx.ix2 e (0 : Fin 1))).toInt.toNat (50176 - 1) = _
    rw [wrap176_apply _ _ h0]
    show min _ _ = (val_main_v3 (F := Ideal) x1 (ValueIdx.ix1 e)).toInt.toNat
    omega
  · refine ix2_row_congr q ?_
    show (val_main_v3 (F := Ideal) x1 (ValueIdx.ix1 e)).toInt.toNat = min (val_main_v36 (F := Ideal) x1 (ValueIdx.ix2 e (0 : Fin 1))).toInt.toNat (50000 - 1)
    rw [v36_apply _ _ h0]
    omega

/-- One layer, kernel against reference. -/
theorem agg_layer (x1) (hs : SrcOK x1) (P : FVec Ideal S50176x128 .f32) (H : (⟨Cert.ReferenceIdeal.S50000x128, .f32⟩ : BufTy).Contents (Elt Ideal))
    (hPH : ∀ (p : Fin 50000) (q : Fin 128), P (ValueIdx.ix2 (⟨p.val, by omega⟩ : Fin 50176) q) = H (ValueIdx.ix2 p q)) :
    aggK P (val_main_v3 (F := Ideal) x1) (val_main_v6 (F := Ideal) x1) (val_main_v30 (F := Ideal) x1) = layerR H x1 := by
  unfold aggK layerR
  rw [gather_rows x1 hs P H hPH]
  -- the zero table, the destination column, the scaling and the scatter-add are the same operations on both sides,
  -- over the two programs' own (equal) shapes and dimension records
  rfl

end Cert.KernelIdeal.Hand

end
-- ==== Proof.KI.PoolLib.lean ====
/-
  The pooled sums, kernel against reference, over the extended reals. The kernel multiplies the one-hot membership
  table of the nodes' graph ids (entry (r, g) is 1 when node r's id is g, else 0) against the node features and sums
  over the nodes; the reference adds each node's features into the row its id names and drops a node whose id names no
  row. Since 1 * y = y and 0 * y = 0 for every extended real y, the two are the same sum; likewise the column sums of
  the one-hot table are the reference's per-graph node counts.
-/
import proofs.«416386_j58171037057469_1_alg».proof.Proof.KI.HostK
import Idealize.ShloMosaic.Lib.ValueIdx
import Idealize.ShloMosaic.Lib.ValueIdxRank1
import Idealize.ShloMosaic.Lib.IdealHost
import Idealize.ShloMosaic.Lib.Pipeline.Value
import Idealize.ShloMosaic.PureOps.Ideal.Laws
set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem
open Cert.ReferenceIdeal.ReadP
open Idealize.ShloMosaic.ValueIdx

/-! ## Where the two segment scatters land an update

Both scatters read ONE start coordinate per update, the graph id in the index column's row, signed and not clamped, and
put it on the operand's row axis; the count scatter's update has no window axis, the pooled scatter's update carries the
feature axis as its window. So update `r` (or `(r, q')`) lands on row `g` (or on `(g, q)`) exactly when the id read signed is
`g` (and `q' = q`), and lands nowhere when the id is outside the rows. -/

/-- The count scatter's dimension numbers. -/
private abbrev D1 := Cert.ReferenceIdeal.scatter_S64_S50000x1_S50000_n_0_0_1
/-- The pooled scatter's dimension numbers. -/
private abbrev D2 := Cert.ReferenceIdeal.scatter_S64x128_S50000x1_S50000x128_1_0_0_1

/-- The count scatter reads update `r`'s start index at `(r, 0)` of the index column. -/
private theorem D1_siIdx (r : Fin 50000) (c : Fin D1.scatterDimsToOperandDims.length) :
    D1.siIdx (ix1 r) c = ix2 r (0 : Fin 1) := by
  funext a
  match a with
  | ⟨0, _⟩ => rfl
  | ⟨1, _⟩ => exact Fin.ext (by show c.val = 0; have : c.val < 1 := c.isLt; omega)

/-- Its start on the row axis is that entry read signed. -/
private theorem D1_start {w : Nat} (r : Fin 50000) (idx : IVec S50000x1 w) :
    D1.start (ix1 r) idx (0 : Fin 1) = (idx (ix2 r (0 : Fin 1))).toInt := by
  unfold ScatterDims.start
  rw [dif_pos (by decide)]
  rw [D1_siIdx]

/-- The row axis is inserted: no window coordinate on it. -/
private theorem D1_window (r : Fin 50000) : D1.window (ix1 r) (0 : Fin 1) = 0 := by
  unfold ScatterDims.window
  rw [dif_neg (by decide)]

/-- The pooled scatter reads update `(r, q)`'s start index at `(r, 0)` of the index column. -/
private theorem D2_siIdx (r : Fin 50000) (q : Fin 128) (c : Fin D2.scatterDimsToOperandDims.length) :
    D2.siIdx (ix2 r q) c = ix2 r (0 : Fin 1) := by
  funext a
  match a with
  | ⟨0, _⟩ => rfl
  | ⟨1, _⟩ => exact Fin.ext (by show c.val = 0; have : c.val < 1 := c.isLt; omega)

/-- Its start on the row axis is that entry read signed … -/
private theorem D2_start0 {w : Nat} (r : Fin 50000) (q : Fin 128) (idx : IVec S50000x1 w) :
    D2.start (ix2 r q) idx (0 : Fin 2) = (idx (ix2 r (0 : Fin 1))).toInt := by
  unfold ScatterDims.start
  rw [dif_pos (by decide)]
  rw [D2_siIdx]

/-- … and zero on the feature axis, which the index does not name. -/
private theorem D2_start1 {w : Nat} (r : Fin 50000) (q : Fin 128) (idx : IVec S50000x1 w) :
    D2.start (ix2 r q) idx (1 : Fin 2) = 0 := by
  unfold ScatterDims.start
  rw [dif_neg (by decide)]

/-- The row axis is inserted: no window coordinate on it … -/
private theorem D2_window0 (r : Fin 50000) (q : Fin 128) : D2.window (ix2 r q) (0 : Fin 2) = 0 := by
  unfold ScatterDims.window
  rw [dif_neg (by decide)]

/-- … and the feature axis carries the update's feature coordinate. -/
private theorem D2_window1 (r : Fin 50000) (q : Fin 128) : D2.window (ix2 r q) (1 : Fin 2) = q.val := by
  unfold ScatterDims.window
  rw [dif_pos (by decide)]
  rfl

/-- Update `r` of the count scatter lands on row `g` exactly when its id, read signed, is `g`. -/
private theorem D1_resultIdx_iff {w : Nat} (r : Fin 50000) (g : Fin 64) (idx : IVec S50000x1 w) :
    D1.resultIdx? (ix1 r) idx = some (ix1 g) ↔ (idx (ix2 r (0 : Fin 1))).toInt = (g.val : Int) := by
  have hg := g.isLt
  unfold ScatterDims.resultIdx?
  split
  · next h =>
    have h0 := h (0 : Fin 1)
    rw [D1_start, D1_window] at h0
    rw [Option.some.injEq]
    constructor
    · intro e
      have e0 := congrArg (fun f => (f (0 : Fin 1)).val) e
      simp only [D1_start, D1_window] at e0
      change _ = g.val at e0
      omega
    · intro e
      funext a
      match a with
      | ⟨0, _⟩ =>
        refine Fin.ext ?_
        show (D1.start (ix1 r) idx (0 : Fin 1) + (D1.window (ix1 r) (0 : Fin 1) : Int)).toNat = g.val
        rw [D1_start, D1_window]; omega
  · next h =>
    constructor
    · intro e; exact absurd e (by simp)
    · intro e
      exfalso; apply h
      intro a
      match a with
      | ⟨0, _⟩ =>
        show 0 ≤ D1.start (ix1 r) idx (0 : Fin 1) + (D1.window (ix1 r) (0 : Fin 1) : Int) ∧ D1.start (ix1 r) idx (0 : Fin 1) + (D1.window (ix1 r) (0 : Fin 1) : Int) < ((64 : Nat) : Int)
        rw [D1_start, D1_window]; omega

/-- Update `(r, q')` of the pooled scatter lands on `(g, q)` exactly when its id, read signed, is `g` and `q' = q`. -/
private theorem D2_resultIdx_iff {w : Nat} (r : Fin 50000) (q' : Fin 128) (g : Fin 64) (q : Fin 128) (idx : IVec S50000x1 w) :
    D2.resultIdx? (ix2 r q') idx = some (ix2 g q) ↔ ((idx (ix2 r (0 : Fin 1))).toInt = (g.val : Int) ∧ q' = q) := by
  have hg := g.isLt
  have hq := q.isLt
  have hq' := q'.isLt
  unfold ScatterDims.resultIdx?
  split
  · next h =>
    have h0 := h (0 : Fin 2)
    rw [D2_start0, D2_window0] at h0
    rw [Option.some.injEq]
    constructor
    · intro e
      have e0 := congrArg (fun f => (f (0 : Fin 2)).val) e
      have e1 := congrArg (fun f => (f (1 : Fin 2)).val) e
      simp only [D2_start0, D2_window0] at e0
      simp only [D2_start1, D2_window1] at e1
      change _ = g.val at e0
      change _ = q.val at e1
      exact ⟨by omega, Fin.ext (by omega)⟩
    · rintro ⟨e, rfl⟩
      funext a
      match a with
      | ⟨0, _⟩ =>
        refine Fin.ext ?_
        show (D2.start (ix2 r q') idx (0 : Fin 2) + (D2.window (ix2 r q') (0 : Fin 2) : Int)).toNat = g.val
        rw [D2_start0, D2_window0]; omega
      | ⟨1, _⟩ =>
        refine Fin.ext ?_
        show (D2.start (ix2 r q') idx (1 : Fin 2) + (D2.window (ix2 r q') (1 : Fin 2) : Int)).toNat = q'.val
        rw [D2_start1, D2_window1]; omega
  · next h =>
    constructor
    · intro e; exact absurd e (by simp)
    · rintro ⟨e, rfl⟩
      exfalso; apply h
      intro a
      match a with
      | ⟨0, _⟩ =>
        show 0 ≤ D2.start (ix2 r q') idx (0 : Fin 2) + (D2.window (ix2 r q') (0 : Fin 2) : Int) ∧ D2.start (ix2 r q') idx (0 : Fin 2) + (D2.window (ix2 r q') (0 : Fin 2) : Int) < ((64 : Nat) : Int)
        rw [D2_start0, D2_window0]; omega
      | ⟨1, _⟩ =>
        show 0 ≤ D2.start (ix2 r q') idx (1 : Fin 2) + (D2.window (ix2 r q') (1 : Fin 2) : Int) ∧ D2.start (ix2 r q') idx (1 : Fin 2) + (D2.window (ix2 r q') (1 : Fin 2) : Int) < ((128 : Nat) : Int)
        rw [D2_start1, D2_window1]; omega

/-! ## The one-hot table and the index column at an index -/

/-- A graph id read signed is `g` exactly when the word is `g`'s. -/
private theorem toInt_eq_iff (x : BitVec 32) (g : Fin 64) : x.toInt = (g.val : Int) ↔ x = BitVec.ofNat 32 g.val := by
  have hg := g.isLt
  have hx := x.isLt
  constructor
  · intro e
    apply BitVec.eq_of_toNat_eq
    rw [BitVec.toNat_ofNat]
    rw [BitVec.toInt_eq_toNat_cond] at e
    split at e <;> omega
  · intro e
    subst e
    rw [BitVec.toInt_eq_toNat_cond, BitVec.toNat_ofNat]
    split <;> omega

/-- Entry `(r, g)` of the one-hot table is 1 when node `r`'s id is the word `g`, else 0. -/
private theorem onehot_apply (b : IVec S50000 32) (r : Fin 50000) (g : Fin 64) :
    onehotK (F := Ideal) b (ix2 r g) = if b (ix1 r) = BitVec.ofNat 32 g.val then (1 : EReal) else 0 := by
  have hX : broadcastInDim S50000x64 ![0, 1] bcast_S50000x1_S50000x64_0_1 (broadcastInDim S50000x1 ![0] bcast_S50000_S50000x1_0 b) (ix2 r g) = b (ix1 r) := by
    rw [broadcastInDim_apply _ bcast_S50000x1_S50000x64_0_1 _ (ix2 r g) (ix2 r (0 : Fin 1)) (fun a => match a with
      | ⟨0, _⟩ => rfl
      | ⟨1, _⟩ => rfl)]
    rw [broadcastInDim_apply _ bcast_S50000_S50000x1_0 b (ix2 r (0 : Fin 1)) (ix1 r) (fun a => match a with
      | ⟨0, _⟩ => rfl)]
  have hY : broadcastInDim S50000x64 ![0, 1] bcast_S1x64_S50000x64_0_1 (broadcastInDim S1x64 ![1] bcast_S64_S1x64_1 (iotaInDim S64 32 0)) (ix2 r g) = BitVec.ofNat 32 g.val := by
    rw [broadcastInDim_apply _ bcast_S1x64_S50000x64_0_1 _ (ix2 r g) (ix2 (0 : Fin 1) g) (fun a => match a with
      | ⟨0, _⟩ => rfl
      | ⟨1, _⟩ => rfl)]
    rw [broadcastInDim_apply _ bcast_S64_S1x64_1 _ (ix2 (0 : Fin 1) g) (ix1 g) (fun a => match a with
      | ⟨0, _⟩ => rfl)]
    rfl
  show FloatOps.uitofp (F := Ideal) .f32 (IntOp.cmpi .eq _ _) = _
  rw [hX, hY]
  show (((BitVec.ofBool (b (ix1 r) == BitVec.ofNat 32 g.val)).toNat : ℝ) : EReal) = _
  by_cases h : b (ix1 r) = BitVec.ofNat 32 g.val
  · rw [if_pos h, beq_iff_eq.2 h]; simp
  · rw [if_neg h, beq_eq_false_iff_ne.2 h]; simp

/-- The index column of the graph ids reads node `r`'s id at `(r, 0)`. -/
private theorem idxcol_apply (b : IVec S50000 32) (r : Fin 50000) :
    broadcastInDim S50000x1 ![0] bcast_S50000_S50000x1_0 b (ix2 r (0 : Fin 1)) = b (ix1 r) :=
  broadcastInDim_apply _ bcast_S50000_S50000x1_0 b (ix2 r (0 : Fin 1)) (ix1 r) (fun a => match a with
      | ⟨0, _⟩ => rfl)

/-! ## The node counts -/

/-- The reference's count of graph `g`: the zero it starts from plus a one for every node whose id is `g`. -/
private theorem count_rhs (b : IVec S50000 32) (g : Fin 64) :
    val_main_v91 (F := Ideal) b (ix1 g) = ∑ r : Fin 50000, if b (ix1 r) = BitVec.ofNat 32 g.val then (1 : EReal) else 0 := by
  unfold val_main_v91
  show Ideal.hostScatterAdd D1 (val_main_v89 (F := Ideal)) (val_main_v90 (F := Ideal) b) (val_main_v88 (F := Ideal)) (ix1 g) = _
  unfold Ideal.hostScatterAdd
  have h0 : val_main_v89 (F := Ideal) (ix1 g) = 0 := by
    rw [val_main_v89_apply, val_main_cst_21_apply]; exact Ideal.ofBits_zero_f32
  rw [h0, zero_add, Finset.sum_filter]
  rw [← Equiv.sum_comp (idxEquiv1 (n := 50000)).symm]
  refine Finset.sum_congr rfl fun r _ => ?_
  have h1 : val_main_v88 (F := Ideal) ((idxEquiv1 (n := 50000)).symm r) = 1 := by
    rw [val_main_v88_apply, val_main_cst_20_apply]; exact Ideal.ofBits_one_f32
  rw [h1]
  show (if D1.resultIdx? (ix1 r) (val_main_v90 (F := Ideal) b) = some (ix1 g) then (1 : EReal) else 0) = _
  refine if_congr ?_ rfl rfl
  rw [D1_resultIdx_iff, ← toInt_eq_iff]
  unfold val_main_v90
  rw [idxcol_apply]

/-- The kernel's count of graph `g`: the zero it starts from plus column `g` of the one-hot table summed over the nodes. -/
private theorem count_lhs (b : IVec S50000 32) (g : Fin 64) :
    Host.reduceAdd (onehotK (F := Ideal) b) (constant S_ .f32 0x00000000#32) reducesTo_S50000x64_S64_d0 h_S_ (ix1 g)
      = ∑ r : Fin 50000, if b (ix1 r) = BitVec.ofNat 32 g.val then (1 : EReal) else 0 := by
  have hR : S50000x64.Reduces [0] S64 := by decide
  rw [hostReduceAdd_apply, Ideal.hostReduceAdd_single reducesTo_S50000x64_S64_d0 hR]
  rw [constant_apply, Ideal.ofBits_zero_f32, zero_add]
  show ∑ r : Fin 50000, onehotK (F := Ideal) b (hR.lift (ix1 g) r) = _
  refine Finset.sum_congr rfl fun r _ => ?_
  have hl : hR.lift (ix1 g) r = ix2 r g := by
    funext a
    match a with
    | ⟨0, _⟩ => exact Fin.ext rfl
    | ⟨1, _⟩ => exact Fin.ext rfl
  rw [hl, onehot_apply]

/-- The column sums of the one-hot table are the reference's per-graph node counts. -/
theorem count_eq (b : IVec S50000 32) :
    Host.reduceAdd (onehotK (F := Ideal) b) (constant S_ .f32 0x00000000#32) reducesTo_S50000x64_S64_d0 h_S_ = val_main_v91 (F := Ideal) b := by
  funext j
  obtain ⟨g, rfl⟩ : ∃ g : Fin 64, j = ix1 g := ⟨j 0, eq_ix1 j⟩
  rw [count_lhs, count_rhs]

/-! ## The pooled sums -/

/-- One row of the pooled scatter's sum: of node `r`'s features only coordinate `q` lands on `(g, q)`, and only when the node's id is `g`. -/
private theorem pool_row (b : IVec S50000 32) (Y : (⟨Cert.ReferenceIdeal.S50000x128, .f32⟩ : BufTy).Contents (Elt Ideal)) (g : Fin 64) (q : Fin 128) (r : Fin 50000) :
    (∑ q' : Fin 128, if D2.resultIdx? (ix2 r q') (val_main_v93 (F := Ideal) b) = some (ix2 g q) then Y (ix2 r q') else 0)
      = if b (ix1 r) = BitVec.ofNat 32 g.val then Y (ix2 r q) else 0 := by
  have hP : ∀ q' : Fin 128, (D2.resultIdx? (ix2 r q') (val_main_v93 (F := Ideal) b) = some (ix2 g q)) ↔ (b (ix1 r) = BitVec.ofNat 32 g.val ∧ q' = q) := by
    intro q'
    rw [D2_resultIdx_iff, ← toInt_eq_iff]
    unfold val_main_v93
    rw [idxcol_apply]
  simp only [hP]
  by_cases hA : b (ix1 r) = BitVec.ofNat 32 g.val
  · simp only [hA, true_and, if_true]
    rw [Finset.sum_ite_eq' Finset.univ q (fun q' => Y (ix2 r q')), if_pos (Finset.mem_univ q)]
  · simp only [hA, false_and, if_false]
    exact Finset.sum_const_zero

/-- The one-hot table against a table `Y` of node features, summed over the nodes, is the reference's segment sum of `Y` by graph id. -/
theorem pool_eq (b : IVec S50000 32) (Y : (⟨Cert.ReferenceIdeal.S50000x128, .f32⟩ : BufTy).Contents (Elt Ideal)) (g : Fin 64) (q : Fin 128) :
    ∑ r : Fin 50000, onehotK (F := Ideal) b (ValueIdx.ix2 r g) * Y (ValueIdx.ix2 r q)
      = Host.scatterAdd Cert.ReferenceIdeal.scatter_S64x128_S50000x1_S50000x128_1_0_0_1 (val_main_v92 (F := Ideal)) (val_main_v93 (F := Ideal) b) Y (ValueIdx.ix2 g q) := by
  show _ = Ideal.hostScatterAdd D2 (val_main_v92 (F := Ideal)) (val_main_v93 (F := Ideal) b) Y (ix2 g q)
  unfold Ideal.hostScatterAdd
  have h0 : val_main_v92 (F := Ideal) (ix2 g q) = 0 := by
    rw [val_main_v92_apply, val_main_cst_22_apply]; exact Ideal.ofBits_zero_f32
  rw [h0, zero_add, Finset.sum_filter, sum_idx2]
  refine Finset.sum_congr rfl fun r _ => ?_
  rw [pool_row, onehot_apply]
  by_cases hA : b (ix1 r) = BitVec.ofNat 32 g.val
  · rw [if_pos hA, if_pos hA, one_mul]
  · rw [if_neg hA, if_neg hA, zero_mul]

end Cert.KernelIdeal.Hand

end
-- ==== Proof.KI.Val01.lean ====
/-
  The values of regions 0 and 1 at the extended reals: what the output array of each region holds after the region,
  element by element, as a plain sum.

  Region 0 is the row-block matrix product: each of the 8 grid points reads 6272 rows of the left array and the whole
  right array and writes their product back over the same 6272 rows of the output. Region 1 is the same product with
  the left operand first biased and rectified: max(features + bias, 0) times the weight. For each region: the body's
  payload read at an index (a matrix product into the zero accumulator is the sum over the contraction coordinate);
  each input block read at an index as the array at the row offset of the point; what a point writes back as its
  block of ONE function of the arrays; the 8 blocks cover the array; so the array ends holding that function.
-/
import proofs.«416386_j58171037057469_1_alg».proof.Proof.KI.Reg0
import proofs.«416386_j58171037057469_1_alg».proof.Proof.KI.Reg1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx
open scoped BigOperators

-- the TensorCore's buffer contents when the region is entered, at the extended reals
variable (V : (c : Dev nD) → (b : Ref sig .tc) → Buf (Elt Ideal) ((c : Thread nD τ).loc b))

/-! ## The contraction's operand indices -/

/-- The product's dimension numbers at an output index and a contraction index: the left operand is read at
    (row of the output, contraction coordinate), -/
theorem dotL_0 (i : S6272x128.Idx) (r : dot_S6272x128_S128x128_S6272x128_1_0_0_1_n_n.contr.Idx) :
    (dot_S6272x128_S128x128_S6272x128_1_0_0_1_n_n.lhsIdx i r 0).val = (i 0).val := by
  unfold DotDims.lhsIdx
  rw [dif_neg (show ¬(0 : Fin S6272x128.rank) ∈ dot_S6272x128_S128x128_S6272x128_1_0_0_1_n_n.lhsBatch by decide),
    dif_pos (show (0 : Fin S6272x128.rank) ∈ dot_S6272x128_S128x128_S6272x128_1_0_0_1_n_n.lhsNonContracting by decide)]
  rfl
theorem dotL_1 (i : S6272x128.Idx) (r : dot_S6272x128_S128x128_S6272x128_1_0_0_1_n_n.contr.Idx) :
    (dot_S6272x128_S128x128_S6272x128_1_0_0_1_n_n.lhsIdx i r 1).val = (r ⟨0, by decide⟩).val :=
  dot_S6272x128_S128x128_S6272x128_1_0_0_1_n_n.lhsIdx_val_of_single rfl i r
/-- and the right operand at (contraction coordinate, column of the output). -/
theorem dotR_0 (i : S6272x128.Idx) (r : dot_S6272x128_S128x128_S6272x128_1_0_0_1_n_n.contr.Idx) :
    (dot_S6272x128_S128x128_S6272x128_1_0_0_1_n_n.rhsIdx i r 0).val = (r ⟨0, by decide⟩).val :=
  dot_S6272x128_S128x128_S6272x128_1_0_0_1_n_n.rhsIdx_val_of_single rfl i r
theorem dotR_1 (i : S6272x128.Idx) (r : dot_S6272x128_S128x128_S6272x128_1_0_0_1_n_n.contr.Idx) :
    (dot_S6272x128_S128x128_S6272x128_1_0_0_1_n_n.rhsIdx i r 1).val = (i 1).val := by
  unfold DotDims.rhsIdx
  rw [dif_neg (show ¬(1 : Fin S128x128.rank) ∈ dot_S6272x128_S128x128_S6272x128_1_0_0_1_n_n.rhsBatch by decide),
    dif_pos (show (1 : Fin S128x128.rank) ∈ dot_S6272x128_S128x128_S6272x128_1_0_0_1_n_n.rhsNonContracting by decide)]
  rfl

/-- The matrix product into the zero accumulator, read at an index (r, q): the sum over the 128 contraction
    coordinates of the left operand at (r, k) times the right at (k, q). -/
theorem matmul0_apply (a : FVec Ideal S6272x128 .bf16) (b : FVec Ideal S128x128 .bf16) (j : S6272x128.Idx) :
    matmul dot_S6272x128_S128x128_S6272x128_1_0_0_1_n_n none a b (constant S6272x128 .f32 0x00000000#32) j
      = ∑ k : Fin 128, a (ix2 (n0 := 6272) (j 0) k) * b (ix2 (n1 := 128) k (j 1)) := by
  show FloatOps.matmul _ _ a b _ _ = _
  rw [Ideal.matmul_constant_zero_apply,
    ← Equiv.sum_comp (contrEquiv1 dot_S6272x128_S128x128_S6272x128_1_0_0_1_n_n 128 rfl rfl).symm]
  refine Finset.sum_congr rfl fun k _ => ?_
  have hk := contrEquiv1_symm_val dot_S6272x128_S128x128_S6272x128_1_0_0_1_n_n 128 rfl rfl k
  have el : dot_S6272x128_S128x128_S6272x128_1_0_0_1_n_n.lhsIdx j
      ((contrEquiv1 dot_S6272x128_S128x128_S6272x128_1_0_0_1_n_n 128 rfl rfl).symm k) = ix2 (n0 := 6272) (j 0) k :=
    funext fun ax => Fin.ext (by
      match ax with
      | ⟨0, _⟩ => exact dotL_0 _ _
      | ⟨1, _⟩ => exact (dotL_1 _ _).trans hk)
  have er : dot_S6272x128_S128x128_S6272x128_1_0_0_1_n_n.rhsIdx j
      ((contrEquiv1 dot_S6272x128_S128x128_S6272x128_1_0_0_1_n_n 128 rfl rfl).symm k) = ix2 (n1 := 128) k (j 1) :=
    funext fun ax => Fin.ext (by
      match ax with
      | ⟨0, _⟩ => exact (dotR_0 _ _).trans hk
      | ⟨1, _⟩ => exact dotR_1 _ _)
  rw [el, er]

/-! ## The payloads at an index -/

/-- Region 0's payload at an index: the two shape casts are to the same shape, and the product accumulates into zero. -/
theorem pay0_apply (x0 : Vec Ideal S6272x128 .bf16) (x1 : Vec Ideal S128x128 .bf16) (j : S6272x128.Idx) :
    k0_pay1 x0 x1 j = ∑ k : Fin 128, x0 (ix2 (n0 := 6272) (j 0) k) * x1 (ix2 (n1 := 128) k (j 1)) := by
  unfold k0_pay1
  simp only [shapeCast_self]
  exact matmul0_apply x0 x1 j

/-- Region 1's payload at an index: the casts are to the same shapes, the bias row is broadcast over the rows, the
    rectifier is the maximum with zero, the change of format is the identity, and the product accumulates into zero. -/
theorem pay1_apply (x0 : Vec Ideal S6272x128 .f32) (x1 : Vec Ideal S1x128 .f32) (x2 : Vec Ideal S128x128 .bf16)
    (j : S6272x128.Idx) :
    k1_pay1 x0 x1 x2 j
      = ∑ k : Fin 128, max (x0 (ix2 (n0 := 6272) (j 0) k) + x1 (ix2 (0 : Fin 1) k)) 0 * x2 (ix2 (n1 := 128) k (j 1)) := by
  unfold k1_pay1
  simp only [shapeCast_self]
  rw [matmul0_apply]
  refine Finset.sum_congr rfl fun k _ => ?_
  have hb : broadcastTo S6272x128 x1 broadcasts_S1x128_S6272x128 (ix2 (n0 := 6272) (j 0) k) = x1 (ix2 (0 : Fin 1) k) :=
    broadcastTo_1b_ab_apply x1 broadcasts_S1x128_S6272x128 (j 0) k
  have hc : (Ideal.ofBits .f32 0x00000000#32 : EReal) = 0 := Ideal.ofBits_zero_f32
  exact congrArg₂ (fun z w => max (x0 (ix2 (n0 := 6272) (j 0) k) + z) w * x2 (ix2 (n1 := 128) k (j 1))) hb hc

/-! ## Region 0: what each point writes back, the cover, the array -/

theorem hz2 : (![0, 0] : Fin 2 → Nat) = fun _ => 0 := funext fun a => by fin_cases a <;> rfl

/-- What region 0's output array ends holding: at (p, q), row p of the left array times column q of the right. -/
def G0 (c : Dev nD) : S50176x128.Idx → EReal := fun i =>
  ∑ k : Fin 128, HMul.hMul (α := EReal) (β := EReal) (V c main_v31 (ix2 (n0 := 50176) (i 0) k)) (V c main_v32 (ix2 (n1 := 128) k (i 1)))

/-- The index maps over the 8 grid points: the left operand's and the output's row block is the point, their column
    block 0; the right operand's block is (0, 0) at every point. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t, read at x, is the left array at (6272 t + row of x, column of x). -/
theorem iblk0_0_apply (c : Dev nD) (t : Fin cfg0.N) (x : S6272x128.Idx) (y : S50176x128.Idx)
    (h0 : (y 0).val = t.val * 6272 + (x 0).val) (h1 : (y 1).val = (x 1).val) :
    iblk0 V c 0 t x = V c main_v31 y := by
  obtain ⟨e0, e1, -⟩ := idx_facts0 t
  unfold iblk0
  rw [View.read_apply]
  show V c main_v31 _ = V c main_v31 y
  congr 1
  funext a
  apply Fin.ext
  match a with
  | ⟨0, _⟩ => show win0_0.index t 0 * 6272 + 1 * (x 0).val = (y 0).val; rw [e0, h0]; omega
  | ⟨1, _⟩ => show win0_0.index t 1 * 128 + 1 * (x 1).val = (y 1).val; rw [e1, h1]; omega

/-- The right operand's one block, read at x, is the right array at x. -/
theorem iblk0_1_apply (c : Dev nD) (t : Fin cfg0.N) (x : S128x128.Idx) :
    iblk0 V c 1 t x = V c main_v32 x := by
  obtain ⟨-, -, e2, e3, -⟩ := idx_facts0 t
  unfold iblk0
  rw [View.read_apply]
  show V c main_v32 _ = V c main_v32 x
  congr 1
  funext a
  apply Fin.ext
  match a with
  | ⟨0, _⟩ => show win0_1.index t 0 * 128 + 1 * (x 0).val = (x 0).val; rw [e2]; omega
  | ⟨1, _⟩ => show win0_1.index t 1 * 128 + 1 * (x 1).val = (x 1).val; rw [e3]; omega

/-- What point t writes back is block t of `G0`. -/
theorem flushed0_eq (c : Dev nD) (t : Fin cfg0.N) :
    (dat0 (F := Ideal) V c).flushed 2 t = ((cfg0.win 2).blk t).view.read (Elt Ideal) (G0 V c) := by
  show (cfg0.win 2).cut (grid0.coords t) ((dat0 (F := Ideal) V c).after 2 t) = _
  rw [after0_2]
  unfold out0_2
  rw [View.canon_unit_zero hz2]
  simp only [View.ld_unit_zero (S := S6272x128) hz2, View.ld_unit_zero (S := S128x128) hz2]
  obtain ⟨-, -, -, -, e4, e5⟩ := idx_facts0 t
  funext j
  show k0_pay1 (iblk0 V c 0 t) (iblk0 V c 1 t) ((cfg0.win 2).xinj (grid0.coords t) j) = G0 V c (((cfg0.win 2).blk t).view.emb j)
  rw [pay0_apply]
  unfold G0
  refine Finset.sum_congr rfl fun k _ => ?_
  rw [iblk0_1_apply]
  rw [iblk0_0_apply V c t _ (ix2 (n0 := 50176) ((((cfg0.win 2).blk t).view.emb j) 0) k)
    (by show win0_2.index t 0 * 6272 + 1 * (j 0).val = t.val * 6272 + (j 0).val; rw [e4]; omega) rfl]
  congr 2
  funext a
  apply Fin.ext
  match a with
  | ⟨0, _⟩ => rfl
  | ⟨1, _⟩ => show (j 1).val = win0_2.index t 1 * 128 + 1 * (j 1).val; rw [e5]; omega

/-- An index of the output array is in point t's block iff each coordinate is in the block's range on its axis. -/
theorem mem_blk0 (t : Fin cfg0.N) (i : S50176x128.Idx) :
    i ∈ ((cfg0.win 2).blk t).view.set ↔ ∀ a : Fin 2, win0_2.index t a * S6272x128.size a ≤ (i a).val
      ∧ (i a).val < win0_2.index t a * S6272x128.size a + S6272x128.size a := by
  show i ∈ ((View.whole main_v33).slice (win0_2.rect t)).set ↔ _
  rw [View.set_slice_whole, Rect.mem_set_unit]
  exact Iff.rfl

/-- Row p lies in the block of point p / 6272 (8 × 6272 = 50176): the 8 blocks cover the array. -/
theorem cover0 (i : S50176x128.Idx) :
    ∃ t : Fin cfg0.N, (cfg0.win 2).flush t = true ∧ i ∈ ((cfg0.win 2).blk t).view.set := by
  have hi0 : (i 0).val < 50176 := (i 0).isLt
  have hi1 : (i 1).val < 128 := (i 1).isLt
  have hN : cfg0.N = 8 := N_0
  refine ⟨⟨(i 0).val / 6272, by rw [hN]; omega⟩, flush0_2 _, ?_⟩
  rw [mem_blk0]
  obtain ⟨-, -, -, -, e4, e5⟩ := idx_facts0 ⟨(i 0).val / 6272, by rw [hN]; omega⟩
  intro a
  match a with
  | ⟨0, _⟩ =>
    show win0_2.index _ 0 * 6272 ≤ (i 0).val ∧ (i 0).val < win0_2.index _ 0 * 6272 + 6272
    rw [e4]; show (i 0).val / 6272 * 6272 ≤ (i 0).val ∧ (i 0).val < (i 0).val / 6272 * 6272 + 6272; omega
  | ⟨1, _⟩ =>
    show win0_2.index _ 1 * 128 ≤ (i 1).val ∧ (i 1).val < win0_2.index _ 1 * 128 + 128
    rw [e5]; omega

/-- Region 0's output array after the region is `G0`. -/
theorem arr0_eq (c : Dev nD) : (dat0 (F := Ideal) V c).arrAt 2 cfg0.N = G0 V c :=
  (dat0 (F := Ideal) V c).arrAt_eq_of_cover 2 (G0 V c) (fun t _ => flushed0_eq V c t) cover0

/-- Region 0: row p of the output array is row p of the left array times the right array. -/
theorem final0 (c : Dev nD) (p : Fin 50176) (q : Fin 128) :
    @Eq EReal ((dat0 (F := Ideal) V c).arrAt 2 cfg0.N (ix2 p q))
      (∑ k : Fin 128, HMul.hMul (α := EReal) (β := EReal) (V c main_v31 (ix2 p k)) (V c main_v32 (ix2 k q))) := by
  rw [arr0_eq]
  rfl

/-! ## Region 1: what each point writes back, the cover, the array -/

/-- What region 1's output array ends holding: at (p, q), row p of max(features + bias, 0) times column q of the
    weight. -/
def G1 (c : Dev nD) : S50176x128.Idx → EReal := fun i =>
  ∑ k : Fin 128, HMul.hMul (α := EReal) (β := EReal)
    (max (HAdd.hAdd (α := EReal) (β := EReal) (V c main_v47 (ix2 (n0 := 50176) (i 0) k)) (V c main_v49 (ix2 (0 : Fin 1) k))) 0)
    (V c main_v48 (ix2 (n1 := 128) k (i 1)))

/-- The index maps over the 8 grid points: the features' and the output's row block is the point, their column block
    0; the bias row's and the weight's block is (0, 0) at every point. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The features' block at point t, read at x, is the features array at (6272 t + row of x, column of x). -/
theorem iblk1_0_apply (c : Dev nD) (t : Fin cfg1.N) (x : S6272x128.Idx) (y : S50176x128.Idx)
    (h0 : (y 0).val = t.val * 6272 + (x 0).val) (h1 : (y 1).val = (x 1).val) :
    iblk1 V c 0 t x = V c main_v47 y := by
  obtain ⟨e0, e1, -⟩ := idx_facts1 t
  unfold iblk1
  rw [View.read_apply]
  show V c main_v47 _ = V c main_v47 y
  congr 1
  funext a
  apply Fin.ext
  match a with
  | ⟨0, _⟩ => show win1_0.index t 0 * 6272 + 1 * (x 0).val = (y 0).val; rw [e0, h0]; omega
  | ⟨1, _⟩ => show win1_0.index t 1 * 128 + 1 * (x 1).val = (y 1).val; rw [e1, h1]; omega

/-- The bias row's one block, read at x, is the bias array at x. -/
theorem iblk1_1_apply (c : Dev nD) (t : Fin cfg1.N) (x : S1x128.Idx) :
    iblk1 V c 1 t x = V c main_v49 x := by
  obtain ⟨-, -, e2, e3, -⟩ := idx_facts1 t
  unfold iblk1
  rw [View.read_apply]
  show V c main_v49 _ = V c main_v49 x
  congr 1
  funext a
  apply Fin.ext
  match a with
  | ⟨0, _⟩ => show win1_1.index t 0 * 1 + 1 * (x 0).val = (x 0).val; rw [e2]; omega
  | ⟨1, _⟩ => show win1_1.index t 1 * 128 + 1 * (x 1).val = (x 1).val; rw [e3]; omega

/-- The weight's one block, read at x, is the weight array at x. -/
theorem iblk1_2_apply (c : Dev nD) (t : Fin cfg1.N) (x : S128x128.Idx) :
    iblk1 V c 2 t x = V c main_v48 x := by
  obtain ⟨-, -, -, -, e4, e5, -⟩ := idx_facts1 t
  unfold iblk1
  rw [View.read_apply]
  show V c main_v48 _ = V c main_v48 x
  congr 1
  funext a
  apply Fin.ext
  match a with
  | ⟨0, _⟩ => show win1_2.index t 0 * 128 + 1 * (x 0).val = (x 0).val; rw [e4]; omega
  | ⟨1, _⟩ => show win1_2.index t 1 * 128 + 1 * (x 1).val = (x 1).val; rw [e5]; omega

/-- What point t writes back is block t of `G1`. -/
theorem flushed1_eq (c : Dev nD) (t : Fin cfg1.N) :
    (dat1 (F := Ideal) V c).flushed 3 t = ((cfg1.win 3).blk t).view.read (Elt Ideal) (G1 V c) := by
  show (cfg1.win 3).cut (grid1.coords t) ((dat1 (F := Ideal) V c).after 3 t) = _
  rw [after1_3]
  unfold out1_3
  rw [View.canon_unit_zero hz2]
  simp only [View.ld_unit_zero (S := S6272x128) hz2, View.ld_unit_zero (S := S1x128) hz2, View.ld_unit_zero (S := S128x128) hz2]
  obtain ⟨-, -, -, -, -, -, e6, e7⟩ := idx_facts1 t
  funext j
  show k1_pay1 (iblk1 V c 0 t) (iblk1 V c 1 t) (iblk1 V c 2 t) ((cfg1.win 3).xinj (grid1.coords t) j)
    = G1 V c (((cfg1.win 3).blk t).view.emb j)
  rw [pay1_apply]
  unfold G1
  refine Finset.sum_congr rfl fun k _ => ?_
  rw [iblk1_1_apply, iblk1_2_apply]
  rw [iblk1_0_apply V c t _ (ix2 (n0 := 50176) ((((cfg1.win 3).blk t).view.emb j) 0) k)
    (by show win1_3.index t 0 * 6272 + 1 * (j 0).val = t.val * 6272 + (j 0).val; rw [e6]; omega) rfl]
  congr 2
  funext a
  apply Fin.ext
  match a with
  | ⟨0, _⟩ => rfl
  | ⟨1, _⟩ => show (j 1).val = win1_3.index t 1 * 128 + 1 * (j 1).val; rw [e7]; omega

/-- An index of the output array is in point t's block iff each coordinate is in the block's range on its axis. -/
theorem mem_blk1 (t : Fin cfg1.N) (i : S50176x128.Idx) :
    i ∈ ((cfg1.win 3).blk t).view.set ↔ ∀ a : Fin 2, win1_3.index t a * S6272x128.size a ≤ (i a).val
      ∧ (i a).val < win1_3.index t a * S6272x128.size a + S6272x128.size a := by
  show i ∈ ((View.whole main_v50).slice (win1_3.rect t)).set ↔ _
  rw [View.set_slice_whole, Rect.mem_set_unit]
  exact Iff.rfl

/-- Row p lies in the block of point p / 6272: the 8 blocks cover the array. -/
theorem cover1 (i : S50176x128.Idx) :
    ∃ t : Fin cfg1.N, (cfg1.win 3).flush t = true ∧ i ∈ ((cfg1.win 3).blk t).view.set := by
  have hi0 : (i 0).val < 50176 := (i 0).isLt
  have hi1 : (i 1).val < 128 := (i 1).isLt
  have hN : cfg1.N = 8 := N_1
  refine ⟨⟨(i 0).val / 6272, by rw [hN]; omega⟩, flush1_3 _, ?_⟩
  rw [mem_blk1]
  obtain ⟨-, -, -, -, -, -, e6, e7⟩ := idx_facts1 ⟨(i 0).val / 6272, by rw [hN]; omega⟩
  intro a
  match a with
  | ⟨0, _⟩ =>
    show win1_3.index _ 0 * 6272 ≤ (i 0).val ∧ (i 0).val < win1_3.index _ 0 * 6272 + 6272
    rw [e6]; show (i 0).val / 6272 * 6272 ≤ (i 0).val ∧ (i 0).val < (i 0).val / 6272 * 6272 + 6272; omega
  | ⟨1, _⟩ =>
    show win1_3.index _ 1 * 128 ≤ (i 1).val ∧ (i 1).val < win1_3.index _ 1 * 128 + 128
    rw [e7]; omega

/-- Region 1's output array after the region is `G1`. -/
theorem arr1_eq (c : Dev nD) : (dat1 (F := Ideal) V c).arrAt 3 cfg1.N = G1 V c :=
  (dat1 (F := Ideal) V c).arrAt_eq_of_cover 3 (G1 V c) (fun t _ => flushed1_eq V c t) cover1

/-- Region 1: row p of the output array is max(row p of the features + bias, 0) times the weight. -/
theorem final1 (c : Dev nD) (p : Fin 50176) (q : Fin 128) :
    @Eq EReal ((dat1 (F := Ideal) V c).arrAt 3 cfg1.N (ix2 p q))
      (∑ k : Fin 128, HMul.hMul (α := EReal) (β := EReal)
        (max (HAdd.hAdd (α := EReal) (β := EReal) (V c main_v47 (ix2 p k)) (V c main_v49 (ix2 (0 : Fin 1) k))) 0)
        (V c main_v48 (ix2 k q))) := by
  rw [arr1_eq]
  rfl

end Cert.KernelIdeal.Hand

end
-- ==== Proof.KI.Rows.lean ====
/-
  Rows of the two product regions' output arrays against the reference's stages. Region 0's output array at a row
  p < 50000 is the reference's first projection at row p: the region's operands are the features padded with zero rows
  to 50176 and the weight, each through a change of format that is the identity on the extended reals, and the padded
  array read at a row inside the features is the features there; both sides are then the same sum over the contraction
  coordinate. Region 1's output array at such a row is the reference's second projection: the region's first operand
  is the first aggregation padded the same way, its second the bias as one row, its third the second weight; the
  reference adds the broadcast bias, takes the maximum with the zero array and multiplies by the weight.
-/
import proofs.«416386_j58171037057469_1_alg».proof.Proof.KI.Val01
import proofs.«416386_j58171037057469_1_alg».proof.Proof.KI.HostK
import Idealize.ShloMosaic.Lib.KernelVsHost

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.ValueIdx
open Cert.ReferenceIdeal.ReadP
open scoped BigOperators

-- the launch memory, at the extended reals
variable (m : (ℓ : Loc nD τ sig) → Buf (Elt Ideal) ℓ)

/-! ## Region 0 against the first projection -/

/-- Region 0's left operand at a row of the features: the features there. -/
theorem v31_row (c : Dev nD) (p : Fin 50000) (k : Fin 128) :
    @Eq EReal (V5 m c main_v31 (ix2 (⟨p.val, by omega⟩ : Fin 50176) k)) (a0 m c (ix2 p k)) := by
  rw [V5_v31]
  show pad S50176x128 ![0, 0] ![176, 0] ![0, 0] (a0 m c) (padZero (F := Ideal)) pads_S50000x128_S50176x128_01760_000 h_S_
    (ix2 (⟨p.val, by omega⟩ : Fin 50176) k) = _
  exact pad_apply_of_inside _ _ _ (a0 m c) _ pads_S50000x128_S50176x128_01760_000 h_S_ _ (ix2 p k) (fun a => by
    match a with
    | ⟨0, _⟩ => show p.val = 0 + p.val * (0 + 1); omega
    | ⟨1, _⟩ => show k.val = 0 + k.val * (0 + 1); omega)

/-- Region 0's right operand: the weight. -/
theorem v32_at (c : Dev nD) (i : S128x128.Idx) : @Eq EReal (V5 m c main_v32 i) (a3 m c i) := by
  rw [V5_v32]
  rfl

/-- Region 0's output array at a row p < 50000 is the reference's first projection at row p. -/
theorem o6_rows (c : Dev nD) (p : Fin 50000) (q : Fin 128) :
    @Eq EReal (o6 m c (ix2 (⟨p.val, by omega⟩ : Fin 50176) q)) (val_main_v7 (F := Ideal) (a0 m c) (a3 m c) (ix2 p q)) := by
  unfold o6
  rw [final0 (VR5 m) c ⟨p.val, by omega⟩ q, val_main_v7_apply]
  refine Finset.sum_congr rfl fun k _ => ?_
  have hL : @Eq EReal (V5 m c main_v31 (ix2 (⟨p.val, by omega⟩ : Fin 50176) k)) (a0 m c (lidx_main_v7 (ix2 p q) k)) :=
    (v31_row m c p k).trans (congrArg (a0 m c) (funext fun a => Fin.ext (by match a with | ⟨0, _⟩ => rfl | ⟨1, _⟩ => rfl)))
  have hR : @Eq EReal (V5 m c main_v32 (ix2 k q)) (a3 m c (ridx_main_v7 (ix2 p q) k)) :=
    (v32_at m c _).trans (congrArg (a3 m c) (funext fun a => Fin.ext (by match a with | ⟨0, _⟩ => rfl | ⟨1, _⟩ => rfl)))
  exact congrArg₂ (fun x y : EReal => x * y) hL hR

/-! ## Region 1 against the second projection -/

/-- Region 1's first operand at a row of the first aggregation: the aggregation there. -/
theorem v47_row (c : Dev nD)
    (hagg : V9 m (outsK m) c main_v46 = val_main_v43 (F := Ideal) (a0 m c) (a1 m c) (a3 m c))
    (p : Fin 50000) (k : Fin 128) :
    @Eq EReal (VR9 m c main_v47 (ix2 (⟨p.val, by omega⟩ : Fin 50176) k))
      (val_main_v43 (F := Ideal) (a0 m c) (a1 m c) (a3 m c) (ix2 p k)) := by
  show @Eq EReal (V9 m (outsOf m (o6 m) (fun c => V0 m c main_v50) (fun c => V0 m c main_v78)) c main_v47 _) _
  rw [← V9_outsK m c, V9_v47, hagg]
  exact pad_apply_of_inside _ _ _ (val_main_v43 (F := Ideal) (a0 m c) (a1 m c) (a3 m c)) _
    pads_S50000x128_S50176x128_01760_000 h_S_ _ (ix2 p k) (fun a => by
      match a with
      | ⟨0, _⟩ => show p.val = 0 + p.val * (0 + 1); omega
      | ⟨1, _⟩ => show k.val = 0 + k.val * (0 + 1); omega)

/-- Region 1's second operand, the bias as one row, at column k: the bias at k. -/
theorem v49_at (c : Dev nD) (k : Fin 128) :
    @Eq EReal (VR9 m c main_v49 (ix2 (0 : Fin 1) k)) (a4 m c (ix1 k)) := by
  show @Eq EReal (V9 m (outsOf m (o6 m) (fun c => V0 m c main_v50) (fun c => V0 m c main_v78)) c main_v49 _) _
  rw [← V9_outsK m c, V9_v49]
  exact shapeCast_a_1a_apply (a4 m c) shapeCasts_S128_S1x128 0 k

/-- Region 1's third operand: the second weight. -/
theorem v48_at (c : Dev nD) (i : S128x128.Idx) : @Eq EReal (VR9 m c main_v48 i) (a5 m c i) := by
  show @Eq EReal (V9 m (outsOf m (o6 m) (fun c => V0 m c main_v50) (fun c => V0 m c main_v78)) c main_v48 _) _
  rw [← V9_outsK m c, V9_v48]
  rfl

/-- The reference's rectified stage at (p, k): the maximum with zero of the aggregation there plus the bias at k. -/
theorem ref47_at (c : Dev nD) (p : Fin 50000) (k : Fin 128) :
    @Eq EReal (val_main_v47 (F := Ideal) (a0 m c) (a1 m c) (a3 m c) (a4 m c) (ix2 p k))
      (max (HAdd.hAdd (α := EReal) (β := EReal) (val_main_v43 (F := Ideal) (a0 m c) (a1 m c) (a3 m c) (ix2 p k)) (a4 m c (ix1 k))) 0) := by
  have hi : idx_main_v44 (idx_main_v45 (ix2 p k)) = ix1 k :=
    funext fun a => Fin.ext (by match a with | ⟨0, _⟩ => rfl)
  rw [val_main_v47_apply, val_main_v46_apply, val_main_v45_apply, val_main_v44_apply, val_main_call1_v0_apply,
    val_main_call1_cst_apply, hi, Ideal.maximumf_def, Ideal.addf_def, Ideal.ofBits_def, Ideal.ofBits_zero_f32]

/-- Region 1's output array at a row p < 50000 is the reference's second projection at row p, given that the
    first aggregation the region is entered with is the reference's. -/
theorem o10_rows (c : Dev nD)
    (hagg : V9 m (outsK m) c main_v46 = val_main_v43 (F := Ideal) (a0 m c) (a1 m c) (a3 m c))
    (p : Fin 50000) (q : Fin 128) :
    @Eq EReal (o10 m c (ix2 (⟨p.val, by omega⟩ : Fin 50176) q))
      (val_main_v48 (F := Ideal) (a0 m c) (a1 m c) (a3 m c) (a4 m c) (a5 m c) (ix2 p q)) := by
  unfold o10
  rw [final1 (VR9 m) c ⟨p.val, by omega⟩ q, val_main_v48_apply]
  refine Finset.sum_congr rfl fun k _ => ?_
  have hi : lidx_main_v48 (ix2 p q) k = ix2 p k :=
    funext fun a => Fin.ext (by match a with | ⟨0, _⟩ => rfl | ⟨1, _⟩ => rfl)
  have hL : @Eq EReal
      (max (HAdd.hAdd (α := EReal) (β := EReal) (VR9 m c main_v47 (ix2 (⟨p.val, by omega⟩ : Fin 50176) k))
        (VR9 m c main_v49 (ix2 (0 : Fin 1) k))) 0)
      (val_main_v47 (F := Ideal) (a0 m c) (a1 m c) (a3 m c) (a4 m c) (lidx_main_v48 (ix2 p q) k)) := by
    rw [hi, ref47_at, v47_row m c hagg p k, v49_at]
  have hR : @Eq EReal (VR9 m c main_v48 (ix2 k q)) (a5 m c (ridx_main_v48 (ix2 p q) k)) :=
    (v48_at m c _).trans (congrArg (a5 m c) (funext fun a => Fin.ext (by match a with | ⟨0, _⟩ => rfl | ⟨1, _⟩ => rfl)))
  exact congrArg₂ (fun x y : EReal => x * y) hL hR

end Cert.KernelIdeal.Hand

end
-- ==== Proof.KI.Val2.lean ====
/-
  The VALUE of region 2 (the pooling kernel) over the extended reals: what its [64,128] output array holds after the
  region, element by element, as ONE sum over all 50176 rows.

  One point of the grid adds to the scratch, at (g, q), the sum over the 6272 rows j of its block of
  one-hot(j, g) · (features(j, q) + bias(q)): the product contracts the rows of both operands, a change of float format
  is the identity, the zero splat is 0 and the bias row is broadcast down the rows (`step2_apply`). The block of point t
  is rows 6272·t + j of the arrays (`iblk2_0_apply`, `iblk2_1_apply`, `iblk2_2_apply`). By induction on the point the
  scratch after point n is the sum of the contributions of the points 0 … n, the cleared scratch being 0 (`acc2_apply`).
  The eight blocks' rows are all the rows, 8 · 6272 = 50176, and addition on the extended reals is commutative and
  associative, so the double sum is one sum over the rows (`Val2.sum_rows`). Only the last point writes the output
  window back, and its one block is the whole array, so the array ends holding the scratch after the last point
  (`arrAt2_3`): `final2`.
-/
import proofs.«416386_j58171037057469_1_alg».proof.Proof.KI.Reg2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat)
open scoped BigOperators

variable (V : (c : Dev nD) → (b : Ref sig .tc) → Buf (Elt Ideal) ((c : Thread nD τ).loc b))

open ValueIdx

namespace Val2

/-- The pooling product's dimension numbers. -/
abbrev D : DotDims S6272x64 S6272x128 S64x128 := dot_S6272x64_S6272x128_S64x128_0_0_1_1_n_n

/-- The zero offsets, as the constant function. -/
theorem hz : (![0, 0] : Fin 2 → Nat) = fun _ => 0 := funext fun a => by fin_cases a <;> rfl

/-! ## The contraction's operand indices

The product contracts the ROWS of both operands: the left operand [6272, 64] on axis 0, the right [6272, 128] on axis 0;
the left's free axis (the 64 groups) is the result's axis 0, the right's free axis (the 128 features) the result's axis 1. -/

theorem lhs_0 (i : S64x128.Idx) (k : D.contr.Idx) : (D.lhsIdx i k 0).val = (k ⟨0, by decide⟩).val :=
  D.lhsIdx_val_of_single rfl i k
theorem lhs_1 (i : S64x128.Idx) (k : D.contr.Idx) : (D.lhsIdx i k 1).val = (i 0).val := by
  unfold DotDims.lhsIdx
  rw [dif_neg (show ¬(1 : Fin S6272x64.rank) ∈ D.lhsBatch by decide), dif_pos (show (1 : Fin S6272x64.rank) ∈ D.lhsNonContracting by decide)]
  rfl
theorem rhs_0 (i : S64x128.Idx) (k : D.contr.Idx) : (D.rhsIdx i k 0).val = (k ⟨0, by decide⟩).val :=
  D.rhsIdx_val_of_single rfl i k
theorem rhs_1 (i : S64x128.Idx) (k : D.contr.Idx) : (D.rhsIdx i k 1).val = (i 1).val := by
  unfold DotDims.rhsIdx
  rw [dif_neg (show ¬(1 : Fin S6272x128.rank) ∈ D.rhsBatch by decide), dif_pos (show (1 : Fin S6272x128.rank) ∈ D.rhsNonContracting by decide)]
  rfl

/-! ## One point's accumulation at an index -/

/-- The accumulating payload at (g, q): the scratch there plus the sum, over the block's 6272 rows j, of
    one-hot(j, g) times (features(j, q) + bias(q)). A change of float format is the identity on the extended reals,
    the zero splat is 0, and the bias row is broadcast down the rows. -/
theorem pay2_apply (x0 : Vec Ideal S6272x128 .f32) (x1 : Vec Ideal S1x128 .f32) (x2 : Vec Ideal S6272x64 .bf16)
    (acc : Vec Ideal S64x128 .f32) (g : Fin 64) (q : Fin 128) :
    k2_pay2 x0 x1 x2 acc (ix2 g q)
      = acc (ix2 g q) + ∑ j : Fin 6272, x2 (ix2 j g) * (x0 (ix2 j q) + x1 (ix2 (0 : Fin 1) q)) := by
  unfold k2_pay2
  simp only [shapeCast_self, matmul]
  rw [addf_apply, Ideal.matmul_constant_zero_apply, ← Equiv.sum_comp (contrEquiv1 D 6272 rfl rfl).symm]
  refine congrArg (acc (ix2 g q) + ·) (Finset.sum_congr rfl fun j _ => ?_)
  have hk := contrEquiv1_symm_val D 6272 rfl rfl j
  have el : D.lhsIdx (ix2 g q) ((contrEquiv1 D 6272 rfl rfl).symm j) = ix2 j g := funext fun a => Fin.ext (by
    match a with
    | ⟨0, _⟩ => exact (lhs_0 _ _).trans hk
    | ⟨1, _⟩ => exact lhs_1 _ _)
  have er : D.rhsIdx (ix2 g q) ((contrEquiv1 D 6272 rfl rfl).symm j) = ix2 j q := funext fun a => Fin.ext (by
    match a with
    | ⟨0, _⟩ => exact (rhs_0 _ _).trans hk
    | ⟨1, _⟩ => exact rhs_1 _ _)
  rw [el, er, truncf_apply, addf_apply,
    broadcastTo_apply x1 broadcasts_S1x128_S6272x128 (ix2 j q) (ix2 (0 : Fin 1) q) (fun a => by
      match a with
      | ⟨0, _⟩ => rfl
      | ⟨1, _⟩ => rfl)]

/-- The clearing payload is the zero block. -/
theorem pay1_apply (i : S64x128.Idx) : k2_pay1 (F := Ideal) i = 0 := by
  unfold k2_pay1
  simp only [shapeCast_self]
  exact Ideal.ofBits_zero_f32

end Val2

open Val2

/-- The cleared scratch is zero everywhere. -/
theorem zero2_apply (i : S64x128.Idx) : zero2 (F := Ideal) i = 0 := by
  unfold zero2
  rw [View.canon_unit_zero (S := S64x128) hz]
  exact pay1_apply i

/-- One point's accumulation at (g, q): the scratch there plus the block's contribution. -/
theorem step2_apply (x0 : Vec Ideal S6272x128 .f32) (x1 : Vec Ideal S1x128 .f32) (x2 : Vec Ideal S6272x64 .bf16)
    (acc : Vec Ideal S64x128 .f32) (g : Fin 64) (q : Fin 128) :
    step2 x0 x1 x2 acc (ix2 g q)
      = acc (ix2 g q) + ∑ j : Fin 6272, x2 (ix2 j g) * (x0 (ix2 j q) + x1 (ix2 (0 : Fin 1) q)) := by
  unfold step2
  rw [View.canon_unit_zero (S := S64x128) hz, View.ld_unit_zero (S := S6272x128) hz, View.ld_unit_zero (S := S1x128) hz,
    View.ld_unit_zero (S := S6272x64) hz, View.ld_unit_zero (S := S64x128) hz]
  exact pay2_apply x0 x1 x2 acc g q

namespace Val2

/-! ## The blocks, read at a row

The feature and one-hot windows walk down the rows, one block of 6272 rows per point; the bias window and the output
window stay at block (0, 0). Decided over the grid's eight points. -/

theorem index_0 : ∀ t : Fin cfg2.N, win2_0.index t 0 = t.val ∧ win2_0.index t 1 = 0 :=
  (by decide +kernel : ∀ t : Fin grid2.N, win2_0.index t 0 = t.val ∧ win2_0.index t 1 = 0)
theorem index_1 : ∀ t : Fin cfg2.N, win2_1.index t 0 = 0 ∧ win2_1.index t 1 = 0 :=
  (by decide +kernel : ∀ t : Fin grid2.N, win2_1.index t 0 = 0 ∧ win2_1.index t 1 = 0)
theorem index_2 : ∀ t : Fin cfg2.N, win2_2.index t 0 = t.val ∧ win2_2.index t 1 = 0 :=
  (by decide +kernel : ∀ t : Fin grid2.N, win2_2.index t 0 = t.val ∧ win2_2.index t 1 = 0)
theorem index_3 : ∀ t : Fin cfg2.N, win2_3.index t 0 = 0 ∧ win2_3.index t 1 = 0 :=
  (by decide +kernel : ∀ t : Fin grid2.N, win2_3.index t 0 = 0 ∧ win2_3.index t 1 = 0)

/-- Row j of point t's block is row 6272·t + j of the array. -/
def row (t : Fin cfg2.N) (j : Fin 6272) : Fin 50176 :=
  ⟨6272 * t.val + j.val, by have h := t.isLt; have e : cfg2.N = 8 := N_2; omega⟩

end Val2

section Blocks

variable (c : Dev nD) (oh : Vec Ideal S50176x64 .bf16) (x : Vec Ideal S50176x128 .f32) (b : Vec Ideal S1x128 .f32)

/-- The feature block of point t at (j, q) is the feature array at (6272·t + j, q). -/
theorem iblk2_0_apply (hx : V c main_v64 = x) (t : Fin cfg2.N) (j : Fin 6272) (q : Fin 128) :
    (iblk2 V c 0 t : Vec Ideal S6272x128 .f32) (ix2 j q) = x (ix2 (row t j) q) := by
  subst hx
  unfold iblk2
  rw [View.read_apply]
  show V c main_v64 _ = V c main_v64 _
  congr 1
  funext a
  apply Fin.ext
  match a with
  | ⟨0, _⟩ => show win2_0.index t 0 * 6272 + 1 * j.val = 6272 * t.val + j.val; rw [(index_0 t).1]; omega
  | ⟨1, _⟩ => show win2_0.index t 1 * 128 + 1 * q.val = q.val; rw [(index_0 t).2]; omega

/-- The bias block at every point is the bias row. -/
theorem iblk2_1_apply (hb : V c main_v77 = b) (t : Fin cfg2.N) (q : Fin 128) :
    (iblk2 V c 1 t : Vec Ideal S1x128 .f32) (ix2 (0 : Fin 1) q) = b (ix2 (0 : Fin 1) q) := by
  subst hb
  unfold iblk2
  rw [View.read_apply]
  show V c main_v77 _ = V c main_v77 _
  congr 1
  funext a
  apply Fin.ext
  match a with
  | ⟨0, _⟩ => show win2_1.index t 0 * 1 + 1 * 0 = 0; rw [(index_1 t).1]
  | ⟨1, _⟩ => show win2_1.index t 1 * 128 + 1 * q.val = q.val; rw [(index_1 t).2]; omega

/-- The one-hot block of point t at (j, g) is the one-hot array at (6272·t + j, g). -/
theorem iblk2_2_apply (hoh : V c main_v76 = oh) (t : Fin cfg2.N) (j : Fin 6272) (g : Fin 64) :
    (iblk2 V c 2 t : Vec Ideal S6272x64 .bf16) (ix2 j g) = oh (ix2 (row t j) g) := by
  subst hoh
  unfold iblk2
  rw [View.read_apply]
  show V c main_v76 _ = V c main_v76 _
  congr 1
  funext a
  apply Fin.ext
  match a with
  | ⟨0, _⟩ => show win2_2.index t 0 * 6272 + 1 * j.val = 6272 * t.val + j.val; rw [(index_2 t).1]; omega
  | ⟨1, _⟩ => show win2_2.index t 1 * 64 + 1 * g.val = g.val; rw [(index_2 t).2]; omega

end Blocks

namespace Val2

/-- One point's contribution at (g, q), off the arrays: the sum over the rows of that point's block. -/
def term (oh : Vec Ideal S50176x64 .bf16) (x : Vec Ideal S50176x128 .f32) (b : Vec Ideal S1x128 .f32)
    (t : Fin cfg2.N) (g : Fin 64) (q : Fin 128) : EReal :=
  ∑ j : Fin 6272, oh (ix2 (row t j) g) * (x (ix2 (row t j) q) + b (ix2 (0 : Fin 1) q))

end Val2

section Acc

variable (c : Dev nD) (oh : Vec Ideal S50176x64 .bf16) (x : Vec Ideal S50176x128 .f32) (b : Vec Ideal S1x128 .f32)

/-- One point's accumulation on the blocks of point t, at (g, q), off the arrays. -/
theorem step2_blocks_apply (hoh : V c main_v76 = oh) (hx : V c main_v64 = x) (hb : V c main_v77 = b)
    (t : Fin cfg2.N) (acc : Vec Ideal S64x128 .f32) (g : Fin 64) (q : Fin 128) :
    step2 (iblk2 V c 0 t) (iblk2 V c 1 t) (iblk2 V c 2 t) acc (ix2 g q) = acc (ix2 g q) + term oh x b t g q := by
  refine (step2_apply (iblk2 V c 0 t) (iblk2 V c 1 t) (iblk2 V c 2 t) acc g q).trans ?_
  refine congrArg (acc (ix2 g q) + ·) (Finset.sum_congr rfl fun j _ => ?_)
  rw [iblk2_2_apply V c oh hoh t j g, iblk2_0_apply V c x hx t j q, iblk2_1_apply V c b hb t q]

/-- The scratch after point n at (g, q): the contributions of the points 0 … n, summed. By induction on the point;
    the cleared scratch is 0 and 0 + a = a. -/
theorem acc2_apply (hoh : V c main_v76 = oh) (hx : V c main_v64 = x) (hb : V c main_v77 = b) :
    ∀ (n : ℕ) (h : n < cfg2.N) (g : Fin 64) (q : Fin 128),
      acc2 V c n h (ix2 g q) = ∑ k : Fin (n + 1), term oh x b ⟨k.val, by have := k.isLt; omega⟩ g q
  | 0, h, g, q => by
    rw [acc2]
    refine (step2_blocks_apply V c oh x b hoh hx hb ⟨0, h⟩ zero2 g q).trans ?_
    rw [zero2_apply, zero_add, Fin.sum_univ_one]
    rfl
  | n + 1, h, g, q => by
    rw [acc2]
    refine (step2_blocks_apply V c oh x b hoh hx hb ⟨n + 1, h⟩ _ g q).trans ?_
    rw [acc2_apply hoh hx hb n (by omega) g q]
    exact (Fin.sum_univ_castSucc (fun k : Fin (n + 1 + 1) => term oh x b ⟨k.val, by have := k.isLt; omega⟩ g q)).symm

end Acc

namespace Val2

/-- The rows of the eight blocks are all the rows: 8 × 6272 = 50176, and every row is 6272·t + j for exactly one
    point t and one row j of its block. The extended reals are a commutative monoid under +, so the double sum regroups. -/
theorem sum_rows (f : Fin 50176 → EReal) :
    ∑ t : Fin 8, ∑ j : Fin 6272, f ⟨6272 * t.val + j.val, by have := t.isLt; have := j.isLt; omega⟩ = ∑ r : Fin 50176, f r := by
  rw [← Equiv.sum_comp (finProdFinEquiv : Fin 8 × Fin 6272 ≃ Fin 50176) f, Fintype.sum_prod_type]
  refine Finset.sum_congr rfl fun t _ => Finset.sum_congr rfl fun j _ => congrArg f (Fin.ext ?_)
  show 6272 * t.val + j.val = j.val + 6272 * t.val
  omega

end Val2

section Final

variable (c : Dev nD) (oh : Vec Ideal S50176x64 .bf16) (x : Vec Ideal S50176x128 .f32) (b : Vec Ideal S1x128 .f32)

/-- The scratch after the last point, as contents of the output array (its one block IS the array). -/
abbrev result2 (c : Dev nD) : Buf (Elt Ideal) ((c : Thread nD τ).loc main_v78) :=
  acc2 V c 7 (by rw [show cfg2.N = grid2.N from rfl, N_2]; decide)

/-- The one write-back, at the last point, writes it: block (0, 0) of the [64,128] array read through zero offsets is the array. -/
theorem flushed2_eq (t : Fin cfg2.N) (hf : (cfg2.win 3).flush t = true) :
    (dat2 (F := Ideal) V c).flushed 3 t = ((cfg2.win 3).blk t).view.read (Elt Ideal) (result2 V c) := by
  have hN : cfg2.N = 8 := N_2
  have h7 : t.val = 7 := by have := (flush2_3 t).mp hf; have := t.isLt; omega
  obtain rfl : t = t2_7 := Fin.ext h7
  show (cfg2.win 3).cut (grid2.coords t2_7) ((dat2 (F := Ideal) V c).after 3 t2_7) = _
  rw [after2_3_last]
  have hz' : (fun a => win2_3.index t2_7 a * main_v78.ty.shape.size a) = fun _ => 0 := funext fun a => by
    match a with
    | ⟨0, _⟩ => show win2_3.index t2_7 0 * 64 = 0; rw [(index_3 t2_7).1]
    | ⟨1, _⟩ => show win2_3.index t2_7 1 * 128 = 0; rw [(index_3 t2_7).2]
  exact (Memref.read_access_unit_zero (Elt Ideal) main_v78 hz' (fun a => by rw [congrFun hz' a]; simp) (result2 V c)).symm

/-- So the output array ends holding the scratch after the last point: that point's block covers every index. -/
theorem arrAt2_3 : (dat2 (F := Ideal) V c).arrAt 3 cfg2.N = result2 V c :=
  (dat2 (F := Ideal) V c).arrAt_eq_of_cover 3 (result2 V c) (flushed2_eq V c) fun i =>
    ⟨t2_7, (flush2_3 t2_7).mpr rfl, by
      show i ∈ ((View.whole main_v78).slice (win2_3.rect t2_7)).set
      rw [View.set_slice_whole, Rect.mem_set_unit]
      intro a
      have h0 : (i 0 : Nat) < 64 := (i 0).isLt
      have h1 : (i 1 : Nat) < 128 := (i 1).isLt
      match a with
      | ⟨0, _⟩ =>
        show win2_3.index t2_7 0 * win2_3.size 0 ≤ (i 0 : Nat) ∧ (i 0 : Nat) < win2_3.index t2_7 0 * win2_3.size 0 + win2_3.xsize (grid2.coords t2_7) 0
        rw [(index_3 t2_7).1, show win2_3.xsize (grid2.coords t2_7) 0 = 64 from by decide +kernel]; omega
      | ⟨1, _⟩ =>
        show win2_3.index t2_7 1 * win2_3.size 1 ≤ (i 1 : Nat) ∧ (i 1 : Nat) < win2_3.index t2_7 1 * win2_3.size 1 + win2_3.xsize (grid2.coords t2_7) 1
        rw [(index_3 t2_7).2, show win2_3.xsize (grid2.coords t2_7) 1 = 128 from by decide +kernel]; omega⟩

/-- Region 2: entry (g, q) of the output array is the sum over ALL rows r of one-hot(r, g) times (features(r, q) + bias(q)).
    The three arrays enter as vectors of their literal types, equal to what the region finds. -/
theorem final2 (hoh : V c main_v76 = oh) (hx : V c main_v64 = x) (hb : V c main_v77 = b) (g : Fin 64) (q : Fin 128) :
    (dat2 (F := Ideal) V c).arrAt 3 cfg2.N (ix2 g q)
      = ∑ r : Fin 50176, oh (ix2 r g) * (x (ix2 r q) + b (ix2 (0 : Fin 1) q)) := by
  rw [arrAt2_3 V c]
  refine (acc2_apply V c oh x b hoh hx hb 7 _ g q).trans ?_
  exact sum_rows fun r => oh (ix2 r g) * (x (ix2 r q) + b (ix2 (0 : Fin 1) q))

end Final

end Cert.KernelIdeal.Hand

end
-- ==== Proof.KI.Pooled.lean ====
/-
  Region 2's output array against the reference's pooled sums, over the extended reals.

  Entry (g, q) of the region's output is the sum over the 50176 rows r of one-hot(r, g) · (features(r, q) + bias(q)).
  The one-hot table and the feature table the region finds are the 50000-row tables padded with 176 rows of the value 0
  (the integer 0 read as a float), a change of float format being the identity; the bias is the bias vector as a one-row
  matrix. A padding row contributes 0 · y = 0, so the sum is over the tables' 50000 rows (`Pooled.pooled_sum`). The
  reference adds the bias to every node's aggregated features and then adds each node's row into the row its graph id
  names: that segment sum is the one-hot table against the same rows (`Pooled.ref_sum`).
-/
import proofs.«416386_j58171037057469_1_alg».proof.Proof.KI.Val2
import proofs.«416386_j58171037057469_1_alg».proof.Proof.KI.HostK
import proofs.«416386_j58171037057469_1_alg».proof.Proof.KI.PoolLib
import Idealize.ShloMosaic.Lib.KernelVsHost
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem
open Idealize.ShloMosaic.Pipeline (Dat)
open Cert.ReferenceIdeal.ReadP
open Idealize.ShloMosaic.ValueIdx
open scoped BigOperators

variable (m : (ℓ : Loc nD τ sig) → Buf (Elt Ideal) ℓ)

namespace Pooled

/-! ## The arrays region 2 finds, at an index -/

/-- The padding value is the real 0: the integer 0 read as a float. -/
theorem padZero_apply (i : S_.Idx) : padZero (F := Ideal) i = 0 := by
  show (((0#32 : BitVec 32).toInt : ℝ) : EReal) = 0
  simp

/-- A row of the table, among the padded table's rows. -/
abbrev rowIn (r : Fin 50000) : Fin 50176 := ⟨r.val, by have := r.isLt; omega⟩
/-- A padding row. -/
abbrev rowPad (k : Fin 176) : Fin 50176 := ⟨50000 + k.val, by have := k.isLt; omega⟩

/-- 50176 rows: the table's 50000 rows, then 176 rows of padding. -/
theorem sum_split (f : Fin 50176 → EReal) :
    ∑ r : Fin 50176, f r = ∑ r : Fin 50000, f (rowIn r) + ∑ k : Fin 176, f (rowPad k) := by
  have h : 50000 + 176 = 50176 := by norm_num
  rw [← Equiv.sum_comp (finCongr h) f, Fin.sum_univ_add]
  exact congrArg₂ (· + ·) (Finset.sum_congr rfl fun r _ => congrArg f (Fin.ext rfl)) (Finset.sum_congr rfl fun k _ => congrArg f (Fin.ext rfl))

/-- The padded one-hot table, in the kernel's float format. -/
abbrev ohPad (bI : IVec S50000 32) : FVec Ideal S50176x64 .bf16 :=
  truncf .bf16 (pad S50176x64 ![0, 0] ![176, 0] ![0, 0] (onehotK (F := Ideal) bI) (padZero (F := Ideal)) pads_S50000x64_S50176x64_01760_000 h_S_) bitsLt_bf16_f32
/-- The padded feature table. -/
abbrev xPad (A : FVec Ideal S50000x128 .f32) : FVec Ideal S50176x128 .f32 :=
  pad S50176x128 ![0, 0] ![176, 0] ![0, 0] A (padZero (F := Ideal)) pads_S50000x128_S50176x128_01760_000 h_S_
/-- The bias as a one-row matrix. -/
abbrev bRow (x6 : FVec Ideal S128 .f32) : FVec Ideal S1x128 .f32 := shapeCast S1x128 x6 shapeCasts_S128_S1x128

/-- The padded one-hot table at a row of the table is the table there (a change of float format is the identity). -/
theorem oh_row (bI : IVec S50000 32) (r : Fin 50000) (g : Fin 64) :
    ohPad bI (ix2 (rowIn r) g) = onehotK (F := Ideal) bI (ix2 r g) := by
  show pad S50176x64 ![0, 0] ![176, 0] ![0, 0] (onehotK (F := Ideal) bI) (padZero (F := Ideal)) pads_S50000x64_S50176x64_01760_000 h_S_ (ix2 (rowIn r) g) = _
  exact pad_apply_of_inside (s := S50000x64) (t := S50176x64) ![0, 0] ![176, 0] ![0, 0] (onehotK (F := Ideal) bI) (padZero (F := Ideal))
    pads_S50000x64_S50176x64_01760_000 h_S_ (ix2 (rowIn r) g) (ix2 r g) (fun a => by
    match a with
    | ⟨0, _⟩ => show r.val = 0 + r.val * (0 + 1); omega
    | ⟨1, _⟩ => show g.val = 0 + g.val * (0 + 1); omega)

/-- The padded one-hot table at a padding row is 0. -/
theorem oh_pad (bI : IVec S50000 32) (k : Fin 176) (g : Fin 64) : ohPad bI (ix2 (rowPad k) g) = 0 := by
  show pad S50176x64 ![0, 0] ![176, 0] ![0, 0] (onehotK (F := Ideal) bI) (padZero (F := Ideal)) pads_S50000x64_S50176x64_01760_000 h_S_ (ix2 (rowPad k) g) = _
  refine (pad_apply_of_not_inside (s := S50000x64) (t := S50176x64) ![0, 0] ![176, 0] ![0, 0] (onehotK (F := Ideal) bI) (padZero (F := Ideal))
    pads_S50000x64_S50176x64_01760_000 h_S_ (ix2 (rowPad k) g) (0 : Fin 2) (fun h => ?_)).trans (padZero_apply _)
  have h3 : (50000 + k.val - 0) / (0 + 1) < 50000 := h.2.2
  omega

/-- The padded feature table at a row of the table is the table there. -/
theorem x_row (A : FVec Ideal S50000x128 .f32) (r : Fin 50000) (q : Fin 128) : xPad A (ix2 (rowIn r) q) = A (ix2 r q) :=
  pad_apply_of_inside (s := S50000x128) (t := S50176x128) ![0, 0] ![176, 0] ![0, 0] A (padZero (F := Ideal))
    pads_S50000x128_S50176x128_01760_000 h_S_ (ix2 (rowIn r) q) (ix2 r q) (fun a => by
    match a with
    | ⟨0, _⟩ => show r.val = 0 + r.val * (0 + 1); omega
    | ⟨1, _⟩ => show q.val = 0 + q.val * (0 + 1); omega)

/-- The bias as a one-row matrix reads the bias vector. -/
theorem b_row (x6 : FVec Ideal S128 .f32) (q : Fin 128) : bRow x6 (ix2 (0 : Fin 1) q) = x6 (ix1 q) :=
  shapeCast_apply x6 shapeCasts_S128_S1x128 (ix2 (0 : Fin 1) q) (ix1 q) (by
    rw [Shape.rowMajor_val_one, Shape.rowMajor_val_two]; show q.val = 0 * 128 + q.val; omega)

/-- The kernel's sum over the 50176 padded rows is the sum over the table's 50000 rows: a padding row contributes 0 · y = 0. -/
theorem pooled_sum (bI : IVec S50000 32) (A : FVec Ideal S50000x128 .f32) (x6 : FVec Ideal S128 .f32) (g : Fin 64) (q : Fin 128) :
    ∑ r : Fin 50176, ohPad bI (ix2 r g) * (xPad A (ix2 r q) + bRow x6 (ix2 (0 : Fin 1) q))
      = ∑ r : Fin 50000, onehotK (F := Ideal) bI (ix2 r g) * (A (ix2 r q) + x6 (ix1 q)) := by
  rw [sum_split fun r => ohPad bI (ix2 r g) * (xPad A (ix2 r q) + bRow x6 (ix2 (0 : Fin 1) q))]
  have hpad : ∑ k : Fin 176, ohPad bI (ix2 (rowPad k) g) * (xPad A (ix2 (rowPad k) q) + bRow x6 (ix2 (0 : Fin 1) q)) = 0 :=
    Finset.sum_eq_zero fun k _ => by rw [oh_pad, zero_mul]
  rw [hpad, add_zero]
  refine Finset.sum_congr rfl fun r _ => ?_
  rw [oh_row, x_row, b_row]

/-- The reference's features plus bias at (r, q): the aggregated features there plus the bias at q. -/
theorem v87_row (x0 : (⟨Cert.ReferenceIdeal.S50000x128, .f32⟩ : BufTy).Contents (Elt Ideal)) (x1 : (⟨Cert.ReferenceIdeal.S2x800000, .i32⟩ : BufTy).Contents (Elt Ideal))
    (x3 : (⟨Cert.ReferenceIdeal.S128x128, .f32⟩ : BufTy).Contents (Elt Ideal)) (x4 : (⟨Cert.ReferenceIdeal.S128, .f32⟩ : BufTy).Contents (Elt Ideal))
    (x5 : (⟨Cert.ReferenceIdeal.S128x128, .f32⟩ : BufTy).Contents (Elt Ideal)) (x6 : (⟨Cert.ReferenceIdeal.S128, .f32⟩ : BufTy).Contents (Elt Ideal))
    (r : Fin 50000) (q : Fin 128) :
    val_main_v87 (F := Ideal) x0 x1 x3 x4 x5 x6 (ix2 r q) = val_main_v84 (F := Ideal) x0 x1 x3 x4 x5 (ix2 r q) + x6 (ix1 q) := by
  rw [val_main_v87_apply, val_main_v86_apply, val_main_v85_apply]
  show val_main_v84 (F := Ideal) x0 x1 x3 x4 x5 (ix2 r q) + x6 _ = _ + x6 _
  refine congrArg (val_main_v84 (F := Ideal) x0 x1 x3 x4 x5 (ix2 r q) + x6 ·) (funext fun a => ?_)
  match a with
  | ⟨0, _⟩ => rfl

/-- The one-hot table against (aggregated features + bias), summed over the nodes, is the reference's pooled sums. -/
theorem ref_sum (x0 : (⟨Cert.ReferenceIdeal.S50000x128, .f32⟩ : BufTy).Contents (Elt Ideal)) (x1 : (⟨Cert.ReferenceIdeal.S2x800000, .i32⟩ : BufTy).Contents (Elt Ideal))
    (x2 : (⟨Cert.ReferenceIdeal.S50000, .i32⟩ : BufTy).Contents (Elt Ideal))
    (x3 : (⟨Cert.ReferenceIdeal.S128x128, .f32⟩ : BufTy).Contents (Elt Ideal)) (x4 : (⟨Cert.ReferenceIdeal.S128, .f32⟩ : BufTy).Contents (Elt Ideal))
    (x5 : (⟨Cert.ReferenceIdeal.S128x128, .f32⟩ : BufTy).Contents (Elt Ideal)) (x6 : (⟨Cert.ReferenceIdeal.S128, .f32⟩ : BufTy).Contents (Elt Ideal))
    (g : Fin 64) (q : Fin 128) :
    ∑ r : Fin 50000, onehotK (F := Ideal) x2 (ix2 r g) * (val_main_v84 (F := Ideal) x0 x1 x3 x4 x5 (ix2 r q) + x6 (ix1 q))
      = val_main_v94 (F := Ideal) x0 x1 x2 x3 x4 x5 x6 (ix2 g q) := by
  unfold val_main_v94
  rw [← pool_eq x2 (val_main_v87 (F := Ideal) x0 x1 x3 x4 x5 x6) g q]
  refine Finset.sum_congr rfl fun r _ => ?_
  rw [v87_row]

end Pooled

open Pooled

/-- Region 2's output array is the reference's pooled sums: the one-hot table's padding rows contribute 0 · y = 0, and on
    the table's rows the product sum is the reference's segment sum of (aggregated features + bias) by graph id. -/
theorem pooled_eq (c : Dev nD) (hagg : V15 m (outsK m) c main_v63 = val_main_v84 (F := Ideal) (a0 m c) (a1 m c) (a3 m c) (a4 m c) (a5 m c)) :
    o16 m c = val_main_v94 (F := Ideal) (a0 m c) (a1 m c) (a2 m c) (a3 m c) (a4 m c) (a5 m c) (a6 m c) := by
  have hoh : VR15 m c main_v76 = ohPad (a2 m c) :=
    (congrFun (V15_outsK m c) main_v76).symm.trans (V15_v76 m (outsK m) c)
  have hx : VR15 m c main_v64 = xPad (val_main_v84 (F := Ideal) (a0 m c) (a1 m c) (a3 m c) (a4 m c) (a5 m c)) :=
    ((congrFun (V15_outsK m c) main_v64).symm.trans (V15_v64 m (outsK m) c)).trans (by rw [hagg])
  have hb : VR15 m c main_v77 = bRow (a6 m c) :=
    (congrFun (V15_outsK m c) main_v77).symm.trans (V15_v77 m (outsK m) c)
  funext i
  obtain ⟨g, q, rfl⟩ : ∃ (g : Fin 64) (q : Fin 128), i = ix2 g q := ⟨i 0, i 1, eq_ix2 i⟩
  unfold o16
  exact (final2 (VR15 m) c _ _ _ hoh hx hb g q).trans
    ((pooled_sum (a2 m c) _ (a6 m c) g q).trans (ref_sum (a0 m c) (a1 m c) (a2 m c) (a3 m c) (a4 m c) (a5 m c) (a6 m c) g q))

end Cert.KernelIdeal.Hand

end
-- ==== Proof.KI.Bridge.lean ====
/-
  The kernel's result against the reference's, over the extended reals, under the precondition that every source endpoint
  lies in [0, 50000): layer by layer. The first projection's rows agree, so the first aggregation agrees (one layer);
  then the second projection's rows, the second aggregation, the pooled sums and the per-graph counts; the final quotient
  is the same operation on both sides.
-/
import proofs.«416386_j58171037057469_1_alg».proof.Proof.KI.BridgeA
import proofs.«416386_j58171037057469_1_alg».proof.Proof.KI.PoolLib
import proofs.«416386_j58171037057469_1_alg».proof.Proof.KI.Rows
import proofs.«416386_j58171037057469_1_alg».proof.Proof.KI.Pooled
set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem
open Cert.ReferenceIdeal.ReadP

variable (m : (ℓ : Loc nD τ sig) → Buf (Elt Ideal) ℓ)

/-- The first aggregation. -/
theorem agg1_eq (c : Dev nD) (hs : SrcOK (a1 m c)) :
    V9 m (outsK m) c main_v46 = val_main_v43 (F := Ideal) (a0 m c) (a1 m c) (a3 m c) := by
  rw [V9_v46, outsK_v33, val_main_v43_layer]
  exact agg_layer (a1 m c) hs (o6 m c) _ (o6_rows m c)

/-- The second aggregation. -/
theorem agg2_eq (c : Dev nD) (hs : SrcOK (a1 m c)) :
    V15 m (outsK m) c main_v63 = val_main_v84 (F := Ideal) (a0 m c) (a1 m c) (a3 m c) (a4 m c) (a5 m c) := by
  rw [V15_v63, outsK_v50, val_main_v84_layer]
  exact agg_layer (a1 m c) hs (o10 m c) _ (o10_rows m c (agg1_eq m c hs))

/-- The per-graph node counts, clamped below at one and laid out over the result. -/
theorem counts_eq (c : Dev nD) :
    broadcastInDim S64x128 ![0, 1] bcast_S64x1_S64x128_0_1 (broadcastInDim S64x1 ![0] bcast_S64_S64x1_0 (V15 m (outsK m) c main_v74))
      = val_main_v98 (F := Ideal) (a2 m c) := by
  rw [V15_v74, count_eq]
  rfl

/-- The kernel's result is the reference's. -/
theorem bridge (c : Dev nD) (hs : SrcOK (a1 m c)) :
    V17 m (outsK m) c main_v81
      = val_main_v99 (F := Ideal) (a0 m c) (a1 m c) (a2 m c) (a3 m c) (a4 m c) (a5 m c) (a6 m c) := by
  rw [V17_v81, outsK_v78, counts_eq, pooled_eq m c (agg2_eq m c hs)]
  rfl

end Cert.KernelIdeal.Hand

end
-- ==== Proof.PreSrc.lean ====
/-
  The added precondition, decoded: under it every source endpoint of the edge list lies in [0, 50000). The self-loop
  endpoints appended after the 800000 edges are the node numbers 0 … 49999 themselves.
-/
import proofs.«416386_j58171037057469_1_alg».proof.Defs
import proofs.«416386_j58171037057469_1_alg».proof.Proof.RefReadP
import Idealize.ShloMosaic.Lib.ValueIdx
import Idealize.ShloMosaic.Lib.ReduceAll
import Idealize.ShloMosaic.Lib.StableHlo.Predicate

set_option maxRecDepth 16384

noncomputable section

namespace Cert.Proof.PreSrc

open Idealize.ShloMosaic Idealize.ShloMosaic.TcCoe Idealize.SL.Sem
open Cert.ReferenceIdeal.ReadP (val_main_v3)

/-- The precondition's result has a single index. -/
private instance : Subsingleton Cert.Pre_finite_inputs.S_.Idx := ⟨fun a b => funext fun d => d.elim0⟩

/-- A word that compares signed-at-least 0 and signed-below 50000 has its signed value in [0, 50000). -/
private theorem word_range (w : BitVec 32) (h0 : IntOp.cmpi .sge w 0#32 = 1#1) (h1 : IntOp.cmpi .slt w 50000#32 = 1#1) :
    0 ≤ w.toInt ∧ w.toInt < 50000 := by
  unfold IntOp.cmpi at h0 h1
  rw [StableHlo.Predicate.ofBool_eq_one_iff] at h0 h1
  simp only [BitVec.slt, BitVec.sle, decide_eq_true_eq] at h0 h1
  have z : (0#32 : BitVec 32).toInt = 0 := by decide
  have k : (50000#32 : BitVec 32).toInt = 50000 := by decide
  omega

section
open Cert.Pre_finite_inputs Cert.Pre_finite_inputs.Facts
variable [hP : Cert.Pre_finite_inputs.Facts]

/-- The last conjunct of the precondition, opened: row 0 of the edge array, read at any of its 800000 positions,
    compares at least 0 and below 50000. -/
private theorem pre_row0 (a0 : FVec Ideal S50000x128 .f32) (a1 : IVec S2x800000 32) (a2 : IVec S50000 32) (a3 : FVec Ideal S128x128 .f32)
    (a4 : FVec Ideal S128 .f32) (a5 : FVec Ideal S128x128 .f32) (a6 : FVec Ideal S128 .f32)
    (h : Cert.Pre_finite_inputs.fn (F := Ideal) a0 a1 a2 a3 a4 a5 a6 = (fun _ => 1#1)) (j : S800000.Idx) :
    0 ≤ (shapeCast S800000 (extractStridedSlice S1x800000 ![0, 0] a1 slices_S2x800000_S1x800000_0_0) shapeCasts_S1x800000_S800000 j).toInt
      ∧ (shapeCast S800000 (extractStridedSlice S1x800000 ![0, 0] a1 slices_S2x800000_S1x800000_0_0) shapeCasts_S1x800000_S800000 j).toInt < 50000 := by
  have e := congrFun h ValueIdx.ix0
  dsimp only [Cert.Pre_finite_inputs.fn, Cert.Pre_finite_inputs.fn_part1] at e
  obtain ⟨-, e33⟩ := IntOp.andi_eq_one.1 (show IntOp.andi _ _ = 1#1 from e)
  have e32 := Host.reduce_andi_all _ _ _ _ _ e33 j
  obtain ⟨hge, hlt⟩ := IntOp.andi_eq_one.1 (show IntOp.andi _ _ = 1#1 from e32)
  exact word_range _ hge hlt

end

/-- Under the precondition every source endpoint — the 800000 edges' and the 50000 self-loops' — lies in [0, 50000). -/
theorem src_range [hP : Cert.Pre_finite_inputs.Facts]
    (m : (ℓ : Loc Cert.KernelIdeal.nD Cert.KernelIdeal.τ Cert.KernelIdeal.sig) → Buf (Elt Ideal) ℓ) (h : Cert.Pre_KernelIdeal m)
    (c : Dev Cert.KernelIdeal.nD) (e : Fin 850000) :
    0 ≤ (val_main_v3 (F := Ideal) (m ((c.tc : Thread Cert.KernelIdeal.nD Cert.KernelIdeal.τ).loc Cert.KernelIdeal.main_arg1)) (ValueIdx.ix1 e)).toInt
      ∧ (val_main_v3 (F := Ideal) (m ((c.tc : Thread Cert.KernelIdeal.nD Cert.KernelIdeal.τ).loc Cert.KernelIdeal.main_arg1)) (ValueIdx.ix1 e)).toInt < 50000 := by
  -- row 0 of the edge array is in range at each of its 800000 positions
  have hrow := pre_row0 _ (m ((c.tc : Thread Cert.KernelIdeal.nD Cert.KernelIdeal.τ).loc Cert.KernelIdeal.main_arg1)) _ _ _ _ _ (h c)
  generalize m ((c.tc : Thread Cert.KernelIdeal.nD Cert.KernelIdeal.τ).loc Cert.KernelIdeal.main_arg1) = x1 at hrow ⊢
  by_cases he : e.val < 800000
  · -- an edge: the concatenation reads its first piece, row 0 of the edge array, at the same position
    have hread : val_main_v3 (F := Ideal) x1 (ValueIdx.ix1 e)
        = Cert.ReferenceIdeal.ReadP.val_main_v2 (F := Ideal) x1 (ValueIdx.ix1 (n := 800000) ⟨e.val, he⟩) := by
      unfold Cert.ReferenceIdeal.ReadP.val_main_v3
      exact concatenate_pair_apply_left (t := Cert.ReferenceIdeal.S850000) (s₁ := Cert.ReferenceIdeal.S800000) (s₂ := Cert.ReferenceIdeal.S50000) 0 _ _ _ (ValueIdx.ix1 e) rfl (ValueIdx.ix1 (n := 800000) ⟨e.val, he⟩)
        (fun b => by match b with | ⟨0, _⟩ => rfl)
    rw [hread]
    exact hrow (ValueIdx.ix1 (n := 800000) ⟨e.val, he⟩)
  · -- a self-loop: the concatenation reads its second piece, the node numbers, at the position less 800000
    have he' : e.val - 800000 < 50000 := by have := e.isLt; omega
    have hread : val_main_v3 (F := Ideal) x1 (ValueIdx.ix1 e)
        = Cert.ReferenceIdeal.ReadP.val_main_v0 (F := Ideal) (ValueIdx.ix1 (n := 50000) ⟨e.val - 800000, he'⟩) := by
      unfold Cert.ReferenceIdeal.ReadP.val_main_v3
      exact concatenate_pair_apply_right (t := Cert.ReferenceIdeal.S850000) (s₁ := Cert.ReferenceIdeal.S800000) (s₂ := Cert.ReferenceIdeal.S50000) 0 _ _ _ (ValueIdx.ix1 e) rfl rfl (ValueIdx.ix1 (n := 50000) ⟨e.val - 800000, he'⟩)
        (fun b hb => absurd (Subsingleton.elim _ _) hb) (by show e.val - 800000 + 800000 = e.val; omega)
    rw [hread, Cert.ReferenceIdeal.ReadP.val_main_v0_apply]
    show 0 ≤ (BitVec.ofNat 32 (e.val - 800000)).toInt ∧ (BitVec.ofNat 32 (e.val - 800000)).toInt < 50000
    rw [StableHlo.Predicate.toInt_ofNat_small _ (by omega)]
    omega

end Cert.Proof.PreSrc

end
-- ==== Proof.lean ====
/-
  A two-layer graph convolution with a global mean pool, as three kernel regions among host operations, against its
  jnp reference: the frames of the three programs, and their equality over the extended reals.

  Each layer gathers rows of a projected feature table at the edges' source endpoints, scales them by the symmetric
  degree normalisation, and adds them up at the destination endpoints. The kernel's program projects the features padded
  to 50176 rows (8 blocks of 6272) in a kernel region and gathers from that padded table; the reference gathers from the
  table of 50000 rows. A negative index counts from the end of the table it indexes, so the two gathers can differ outside
  [0, 50000); the certificate's precondition therefore says that every source endpoint lies in [0, 50000), and under it the
  two gathers read the same rows, which agree: at the extended reals a kernel's matrix product onto a zero accumulator and
  the host's are the same sum, a change of float format is the identity, and the padding rows are never read. The pooling
  region multiplies the one-hot table of the graph ids against the features plus bias and accumulates over the 8 blocks in
  a scratch buffer; the reference adds each node's row into the row its id names. Since 1 * y = y and 0 * y = 0 for every
  extended real y the two are the same sum (the padding rows contribute 0), and the per-graph counts are the column sums
  of the one-hot table. The final quotient is the same operation on both sides. No law used here needs finiteness.

  The frames: each kernel region is a segment of @main whose body obligation is proved at every grid point (regions 0 and 1
  load whole blocks and store the whole output block once; region 2 carries its scratch from point to point, clears it at
  the first point and copies it out at the last), the host stretches between them are total operations, and the launch over
  all of @main's items gives termination, no fault, and the arguments unchanged. The reference is a host program: its run
  is its operations' composed term.
-/
import proofs.«416386_j58171037057469_1_alg».proof.Defs
import proofs.«416386_j58171037057469_1_alg».proof.Proof.Gen.Kernel
import proofs.«416386_j58171037057469_1_alg».proof.Proof.Gen.KernelIdeal
import proofs.«416386_j58171037057469_1_alg».proof.Proof.Gen.ReferenceIdeal
import proofs.«416386_j58171037057469_1_alg».proof.Proof.Gen.Pre_finite_inputs
import proofs.«416386_j58171037057469_1_alg».proof.Proof.K.Run
import proofs.«416386_j58171037057469_1_alg».proof.Proof.KI.Run
import proofs.«416386_j58171037057469_1_alg».proof.Proof.KI.Bridge
import proofs.«416386_j58171037057469_1_alg».proof.Proof.PreSrc
import proofs.«416386_j58171037057469_1_alg».proof.Proof.RefReadP
import Idealize.ShloMosaic.Adequacy
import Idealize.ShloMosaic.Init

set_option maxRecDepth 16384

noncomputable section

namespace Cert.Proof

open Idealize.ShloMosaic Idealize.ShloMosaic.TcCoe Idealize.SL.Sem

/-- The word-level program runs to the end, faults nowhere and leaves its arguments unchanged. -/
theorem frame_k : Cert.frame_Kernel := fun m ρ _ => Cert.Kernel.Hand.frame m ρ

/-- The same of the idealized program. -/
theorem frame_ki : Cert.frame_KernelIdeal := fun m ρ _ => Cert.KernelIdeal.Hand.frame m ρ

/-- The reference is a host program: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Over the extended reals, from memories agreeing on the arguments, both programs end with the same result. -/
theorem algebraic : Cert.algebraic_KernelIdeal_ReferenceIdeal := by
  intro m ρ m' ρ' hpre hagree
  refine ⟨fun c => Cert.KernelIdeal.Gen.V17 m (Cert.KernelIdeal.Hand.outsK m) c Cert.KernelIdeal.main_v81,
    Cert.KernelIdeal.Hand.run_value m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v99_eq, (hagree c).1, (hagree c).2.1, (hagree c).2.2.1, (hagree c).2.2.2.1,
    (hagree c).2.2.2.2.1, (hagree c).2.2.2.2.2.1, (hagree c).2.2.2.2.2.2]
  exact (Cert.KernelIdeal.Hand.bridge m c (fun e => Cert.Proof.PreSrc.src_range m hpre c e)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
